-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_v82 : IVec S_ 1) (main_v84 : IVec S800000 1) : IVec S_ 1 :=
  let main_c_33 : IVec S_ 1 := constantI S_ 1 1#1
  let main_v85 : IVec S_ 1 := (fun x v => Host.reduce IntOp.andi x v reducesTo_S800000_S_d0 h_S_) main_v84 main_c_33
  let main_v86 : IVec S_ 1 := andi main_v82 main_v85
  main_v86

def fn_part4 {F : FTy → Type} [FloatOps F] (main_arg2 : IVec S800000 32) (main_arg3 : IVec S800000 32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S800000 32 := broadcastInDim S800000 ![] bcast_S_S800000 main_c_30
  let main_v80 : IVec S800000 1 := cmpi .sge main_arg2 main_v79
  let main_c_31 : IVec S_ 1 := constantI S_ 1 1#1
  let main_v81 : IVec S_ 1 := (fun x v => Host.reduce IntOp.andi x v reducesTo_S800000_S_d0 h_S_) main_v80 main_c_31
  let main_v82 : IVec S_ 1 := andi main_v78 main_v81
  let main_c_32 : IVec S_ 32 := constantI S_ 32 0#32
  let main_v83 : IVec S800000 32 := broadcastInDim S800000 ![] bcast_S_S800000 main_c_32
  let main_v84 : IVec S800000 1 := cmpi .sge main_arg3 main_v83
  fn_part5 (F := F) main_v82 main_v84

def fn_part3 {F : FTy → Type} [FloatOps F] (main_arg2 : IVec S800000 32) (main_arg3 : IVec S800000 32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_v63 main_v67

def fn_part2 {F : FTy → Type} [FloatOps F] (main_arg2 : IVec S800000 32) (main_arg3 : IVec S800000 32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_arg16 main_arg17 main_v48 main_v49 main_v50

def fn_part1 {F : FTy → Type} [FloatOps F] (main_arg2 : IVec S800000 32) (main_arg3 : IVec S800000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S5000x128 : Shape := ⟨2, ![5000, 128]⟩
abbrev S5000x512 : Shape := ⟨2, ![5000, 512]⟩
abbrev S50000x256 : Shape := ⟨2, ![50000, 256]⟩
abbrev S800000x1 : Shape := ⟨2, ![800000, 1]⟩
abbrev S800000x256 : Shape := ⟨2, ![800000, 256]⟩
abbrev S1x128 : Shape := ⟨2, ![1, 128]⟩
abbrev S3200x128 : Shape := ⟨2, ![3200, 128]⟩
abbrev S3200x256 : Shape := ⟨2, ![3200, 256]⟩
abbrev S3200 : Shape := ⟨1, ![3200]⟩
abbrev S3200x1 : Shape := ⟨2, ![3200, 1]⟩
abbrev S_ : Shape := ⟨0, ![]⟩
abbrev S2000x128 : Shape := ⟨2, ![2000, 128]⟩
abbrev S2000x256 : Shape := ⟨2, ![2000, 256]⟩
abbrev S2000x512 : Shape := ⟨2, ![2000, 512]⟩
abbrev S2000 : Shape := ⟨1, ![2000]⟩
abbrev S2000x1 : Shape := ⟨2, ![2000, 1]⟩

abbrev nBuf : Space → Nat
  | .hbm => 40
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x512, .f32⟩
  | .hbm, ⟨19, _⟩ => ⟨S512, .f32⟩
  | .hbm, ⟨20, _⟩ => ⟨S1x512, .f32⟩
  | .hbm, ⟨21, _⟩ => ⟨S50000x512, .f32⟩
  | .hbm, ⟨22, _⟩ => ⟨S50000x256, .f32⟩
  | .hbm, ⟨23, _⟩ => ⟨S800000x1, .i32⟩
  | .hbm, ⟨24, _⟩ => ⟨S800000x256, .f32⟩
  | .hbm, ⟨25, _⟩ => ⟨S50000x128, .f32⟩
  | .hbm, ⟨26, _⟩ => ⟨S800000x1, .i32⟩
  | .hbm, ⟨27, _⟩ => ⟨S800000x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S800000x256, .f32⟩
  | .hbm, ⟨32, _⟩ => ⟨S800000x128, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S1x128, .f32⟩
  | .hbm, ⟨38, _⟩ => ⟨S1x128, .f32⟩
  | .hbm, ⟨39, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S1x512, .f32⟩
  | .local _ .vmem, ⟨4, _⟩ => ⟨S5000x512, .f32⟩
  | .local _ .vmem, ⟨5, _⟩ => ⟨S5000x512, .f32⟩
  | .local _ .vmem, ⟨6, _⟩ => ⟨S3200x128, .f32⟩
  | .local _ .vmem, ⟨7, _⟩ => ⟨S3200x128, .f32⟩
  | .local _ .vmem, ⟨8, _⟩ => ⟨S3200x256, .f32⟩
  | .local _ .vmem, ⟨9, _⟩ => ⟨S3200x256, .f32⟩
  | .local _ .vmem, ⟨10, _⟩ => ⟨S3200x128, .f32⟩
  | .local _ .vmem, ⟨11, _⟩ => ⟨S3200x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S3200x256, .f32⟩
  | .local _ .vmem, ⟨17, _⟩ => ⟨S3200x256, .f32⟩
  | .local _ .vmem, ⟨18, _⟩ => ⟨S3200x128, .f32⟩
  | .local _ .vmem, ⟨19, _⟩ => ⟨S3200x128, .f32⟩
  | .local _ .vmem, ⟨20, _⟩ => ⟨S2000x128, .f32⟩
  | .local _ .vmem, ⟨21, _⟩ => ⟨S2000x128, .f32⟩
  | .local _ .vmem, ⟨22, _⟩ => ⟨S2000x256, .f32⟩
  | .local _ .vmem, ⟨23, _⟩ => ⟨S2000x256, .f32⟩
  | .local _ .vmem, ⟨24, _⟩ => ⟨S2000x512, .f32⟩
  | .local _ .vmem, ⟨25, _⟩ => ⟨S2000x512, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_call1_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3200x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3200x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  bcast_S512_S1x512_1 : S512.BroadcastsInDim S1x512 (![1] : Fin 1 → Fin S1x512.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  slices_S50000x512_S50000x256_0_0 : S50000x512.Slices ![0, 0] S50000x256
  bcast_S800000_S800000x1_0 : S800000.BroadcastsInDim S800000x1 (![0] : Fin 1 → Fin S800000x1.rank)
  slices_S50000x512_S50000x128_0_256 : S50000x512.Slices ![0, 256] S50000x128
  bcast_S128_S1x128_1 : S128.BroadcastsInDim S1x128 (![1] : Fin 1 → Fin S1x128.rank)
  inb_S3200x128_S3200x128_0_0 : ∀ a, (![0, 0] : Fin 2 → Nat) a + S3200x128.size a ≤ S3200x128.size a
  h_S3200x128 : 0 < S3200x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S3200x256_S3200x128_0_0 : ∀ a, (![0, 0] : Fin 2 → Nat) a + S3200x128.size a ≤ S3200x256.size a
  shapeCasts_S3200x128_S3200x128 : S3200x128.ShapeCasts S3200x128
  inb_S3200x256_S3200x128_0_128 : ∀ a, (![0, 128] : Fin 2 → Nat) a + S3200x128.size a ≤ S3200x256.size a
  reduces_S3200x128_S3200 : S3200x128.Reduces [1] S3200
  shapeCasts_S3200_S3200x1 : S3200.ShapeCasts S3200x1
  broadcasts_S3200x1_S3200x128 : S3200x1.Broadcasts S3200x128
  bcast_S_S50000x256 : S_.BroadcastsInDim S50000x256 (![] : Fin 0 → Fin S50000x256.rank)
  inb_S2000x256_S2000x128_0_0 : ∀ a, (![0, 0] : Fin 2 → Nat) a + S2000x128.size a ≤ S2000x256.size a
  h_S2000x128 : 0 < S2000x128.numel
  shapeCasts_S2000x128_S2000x128 : S2000x128.ShapeCasts S2000x128
  inb_S2000x256_S2000x128_0_128 : ∀ a, (![0, 128] : Fin 2 → Nat) a + S2000x128.size a ≤ S2000x256.size a
  inb_S2000x512_S2000x128_0_384 : ∀ a, (![0, 384] : Fin 2 → Nat) a + S2000x128.size a ≤ S2000x512.size a
  reduces_S2000x128_S2000 : S2000x128.Reduces [1] S2000
  shapeCasts_S2000_S2000x1 : S2000.ShapeCasts S2000x1
  broadcasts_S2000x1_S2000x128 : S2000x1.Broadcasts S2000x128
  broadcasts_S1x128_S2000x128 : S1x128.Broadcasts S2000x128
  inb_S2000x128_S2000x128_0_0 : ∀ a, (![0, 0] : Fin 2 → Nat) a + S2000x128.size a ≤ S2000x128.size a
  dot_S5000x128_S128x512_S5000x512_1_0_0_1_n_n_wf : DotDims.WF S5000x128 S128x512 S5000x512 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S50000x512.size a
  hwx0_3 : ∀ i : grid0.Coords, EltTy.bits .f32 = 32 ∨ (Rect.block (s := S50000x512) S5000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x256.size a ≤ S800000x256.size a
  hwx1_1 : ∀ i : grid1.Coords, EltTy.bits .f32 = 32 ∨ (Rect.block (s := S800000x256) S3200x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S800000x128.size a
  hwx1_2 : ∀ i : grid1.Coords, EltTy.bits .f32 = 32 ∨ (Rect.block (s := S800000x128) S3200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x256.size a ≤ S800000x256.size a
  hwx1_7 : ∀ i : grid1.Coords, EltTy.bits .f32 = 32 ∨ (Rect.block (s := S800000x256) S3200x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3200x128.size a ≤ S800000x128.size a
  hwx1_8 : ∀ i : grid1.Coords, EltTy.bits .f32 = 32 ∨ (Rect.block (s := S800000x128) S3200x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3200x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S3200x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S3200x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩
abbrev S50000 : Shape := ⟨1, ![50000]⟩
abbrev S50000x1 : Shape := ⟨2, ![50000, 1]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x128, .f32⟩
  | 45 => ⟨S800000x128, .f32⟩
  | 46 => ⟨S1x128, .f32⟩
  | 47 => ⟨S800000x128, .f32⟩
  | 48 => ⟨S800000x128, .f32⟩
  | 49 => ⟨S800000x128, .f32⟩
  | 50 => ⟨S800000x128, .f32⟩
  | 51 => ⟨S800000x128, .f32⟩
  | 52 => ⟨S_, .f32⟩
  | 53 => ⟨S800000x128, .f32⟩
  | 54 => ⟨S800000x128, .f32⟩
  | 55 => ⟨S_, .f32⟩
  | 56 => ⟨S800000x128, .f32⟩
  | 57 => ⟨S800000x128, .f32⟩
  | 58 => ⟨S50000x128, .f32⟩
  | 59 => ⟨S1x128, .f32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S_, .f32⟩
  | 77 => ⟨S50000x128, .f32⟩
  | 78 => ⟨S800000x1, .i32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x128, .f32⟩
  | 96 => ⟨S50000x128, .f32⟩
  | 97 => ⟨S50000x128, .f32⟩
  | 98 => ⟨S_, .f32⟩
  | 99 => ⟨S50000, .f32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S_, .f32⟩
  | 107 => ⟨S50000x1, .f32⟩
  | 108 => ⟨S50000x1, .f32⟩
  | 109 => ⟨S50000x1, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S800000, .f32⟩
  | 1 => ⟨S800000x1, .f32⟩
  | 2 => ⟨S_, .f32⟩
  | 3 => ⟨S800000x1, .f32⟩
  | 4 => ⟨S800000x1, .f32⟩
  | 5 => ⟨S800000x128, .f32⟩
  | 6 => ⟨S800000x128, .f32⟩
  | 7 => ⟨S800000x128, .f32⟩
  | 8 => ⟨S_, .f32⟩
  | 9 => ⟨S800000, .f32⟩
  | 10 => ⟨S800000x1, .f32⟩
  | 11 => ⟨S_, .f32⟩
  | 12 => ⟨S800000x1, .f32⟩
  | 13 => ⟨S800000x1, .f32⟩
  | 14 => ⟨S800000x128, .f32⟩
  | 15 => ⟨S800000x128, .f32⟩
  | 16 => ⟨S_, .f32⟩
  | 17 => ⟨S800000x1, .f32⟩
  | 18 => ⟨S800000x1, .f32⟩
  | 19 => ⟨S800000x1, .f32⟩
  | 20 => ⟨S800000x128, .f32⟩
  | 21 => ⟨S800000x128, .f32⟩
  | 22 => ⟨S1x128, .f32⟩
  | 23 => ⟨S800000x128, .f32⟩
  | 24 => ⟨S800000x128, .f32⟩
  | 25 => ⟨S1x128, .f32⟩
  | 26 => ⟨S800000x128, .f32⟩
  | 27 => ⟨S800000x128, .f32⟩
  | 28 => ⟨S800000x128, .f32⟩
  | 29 => ⟨S800000x128, .f32⟩
  | 30 => ⟨S_, .f32⟩
  | 31 => ⟨S800000x128, .f32⟩
  | 32 => ⟨S800000x128, .f32⟩
  | 33 => ⟨S_, .f32⟩
  | 34 => ⟨S800000x128, .f32⟩
  | 35 => ⟨S800000x128, .f32⟩
  | 36 => ⟨S800000x128, .f32⟩
  | 37 => ⟨S50000x128, .f32⟩
  | 38 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call0_v0 : Ref sig .tc := ⟨.hbm, 118, rfl⟩
abbrev main_call0_v1 : Ref sig .tc := ⟨.hbm, 119, rfl⟩
abbrev main_call0_cst : Ref sig .tc := ⟨.hbm, 120, rfl⟩
abbrev main_call0_v2 : Ref sig .tc := ⟨.hbm, 121, rfl⟩
abbrev main_call0_v3 : Ref sig .tc := ⟨.hbm, 122, rfl⟩
abbrev main_call0_cst_0 : Ref sig .tc := ⟨.hbm, 123, rfl⟩
abbrev main_call0_v4 : Ref sig .tc := ⟨.hbm, 124, rfl⟩
abbrev main_call0_v5 : Ref sig .tc := ⟨.hbm, 125, rfl⟩
abbrev main_v84 : Ref sig .tc := ⟨.hbm, 126, rfl⟩
abbrev main_cst_14 : Ref sig .tc := ⟨.hbm, 127, rfl⟩
abbrev main_v85 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_16 : Ref sig .tc := ⟨.hbm, 136, rfl⟩
abbrev main_v92 : Ref sig .tc := ⟨.hbm, 137, rfl⟩
abbrev main_v93 : Ref sig .tc := ⟨.hbm, 138, rfl⟩
abbrev main_cst_17 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_18 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call1_v0 : Ref sig .tc := ⟨.hbm, 156, rfl⟩
abbrev main_call1_v1 : Ref sig .tc := ⟨.hbm, 157, rfl⟩
abbrev main_call1_cst : Ref sig .tc := ⟨.hbm, 158, rfl⟩
abbrev main_call1_v2 : Ref sig .tc := ⟨.hbm, 159, rfl⟩
abbrev main_call1_v3 : Ref sig .tc := ⟨.hbm, 160, rfl⟩
abbrev main_call1_cst_0 : Ref sig .tc := ⟨.hbm, 161, rfl⟩
abbrev main_call1_v4 : Ref sig .tc := ⟨.hbm, 162, rfl⟩
abbrev main_call1_v5 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S800000x128_S800000_d1 : S800000x128.ReducesTo [1] S800000
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.K.R0.lean ====
/-
  Region 0 of @main (the node-level linear map): one grid point stages a block of 5000 rows of the node
  features, the whole concatenated weight matrix and the concatenated bias row, and stores the 5000 x 512 block
  rows·W + bias. This module states, at any contents V of the TensorCore's buffers when the region is entered,
  what each window's staging buffer holds before and after the body at a grid point, and proves the body's
  triple and the pipeline's body obligation from it.
-/
import proofs.«416705_j44006234914975_2_alg».proof.Proof.Gen.Kernel.Launch
import proofs.«416705_j44006234914975_2_alg».proof.Proof.Gen.Kernel.Skeleton
import proofs.«416705_j44006234914975_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the body leaves
    the block in place, and an unfetched point has the block index of the point before. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes: each buffer whole -/

abbrev rX : Rect S5000x128 := Rect.unit (s := S5000x128) ![0, 0] S5000x128.size inb_S5000x128_S5000x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0
abbrev rO : Rect S5000x512 := Rect.unit (s := S5000x512) ![0, 0] S5000x512.size inb_S5000x512_S5000x512_0_0

/-- The output window's staging buffer after the body: its one store, the rows' products with the weights plus the
    bias row, over the three input blocks. -/
def out3 (x0 : Vec F S5000x128 .f32) (x1 : Vec F S128x512 .f32) (x2 : Vec F S1x512 .f32) : Vec F S5000x512 .f32 :=
  View.canon [⟨rO, k0_pay1 (View.ld x0 rX) (View.ld x1 rW) (View.ld x2 rB)⟩]

/-- The one store covers the buffer. -/
theorem cover3 (p0 : Vec F S5000x512 .f32) (y : S5000x512.Idx) :
    ∃ pc ∈ ([⟨rO, p0⟩] : List (View.Piece (Elt F) S5000x512 .f32)), y ∈ pc.1.set :=
  View.cover_of_tiled [⟨rO, p0⟩] S5000x512.size (by rfl) y

set_option maxHeartbeats 1000000 in
/-- The body on whole staging memrefs, the inputs' at contents `x0 x1 x2` and the output's at anything, runs to a
    state holding the inputs' as they were and the output's at `out3 x0 x1 x2`. -/
theorem sound_kernel (c : Dev nD) (E : Set ℕ) (i : grid0.Coords) (arg1 : Memref sig .tc .vmem S5000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S5000x512 .f32) (harg4 : arg4.IsWhole)
    (x0 : Vec F S5000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__node_linear_kernel i arg1 harg1 arg2 harg2 arg3 harg3 arg4 harg4) K := by
  simp only [cc0__node_linear_kernel_eq_skeleton]; unfold cc0__node_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The pipeline's proof data on core `c`: the arrays as the region finds them; after the body at point `t` each
    input's buffer at its block and the output's at `out3` of the input blocks; the invariant that of a body which
    touches nothing but its windows; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Rg0

end
-- ==== Proof.K.R1.lean ====
/-
  Region 1 of @main (the edge stage): one grid point stages 3200 rows of the edge features, of the two gathered node
  slabs (256 and 128 columns wide), the edge weight matrix and three parameter rows, and stores two blocks: the
  3200 x 256 block whose left half is the gated numerator and whose right half is the gate, and the 3200 x 128 block
  of the edge output (the features plus the SiLU of their layer norm). This module states, at any contents V of the
  TensorCore's buffers when the region is entered, what each window's staging buffer holds before and after the
  body at a grid point, and proves the body's triple and the pipeline's body obligation from it.
-/
import proofs.«416705_j44006234914975_2_alg».proof.Proof.Gen.Kernel.Launch
import proofs.«416705_j44006234914975_2_alg».proof.Proof.Gen.Kernel.Skeleton
import proofs.«416705_j44006234914975_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the body leaves
    the block in place, and an unfetched point has the block index of the point before. One statement per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes -/

/-- a 3200 x 128 buffer whole -/
abbrev rE : Rect S3200x128 := Rect.unit (s := S3200x128) ![0, 0] S3200x128.size inb_S3200x128_S3200x128_0_0
/-- the weight matrix whole -/
abbrev rWe : Rect S128x128 := Rect.unit (s := S128x128) ![0, 0] S128x128.size inb_S128x128_S128x128_0_0
/-- a parameter row whole -/
abbrev rR : Rect S1x128 := Rect.unit (s := S1x128) ![0, 0] S1x128.size inb_S1x128_S1x128_0_0
/-- the left 128 columns of a 3200 x 256 buffer -/
abbrev rL : Rect S3200x256 := Rect.unit (s := S3200x256) ![0, 0] S3200x128.size inb_S3200x256_S3200x128_0_0
/-- the right 128 columns of a 3200 x 256 buffer -/
abbrev rH : Rect S3200x256 := Rect.unit (s := S3200x256) ![0, 128] S3200x128.size inb_S3200x256_S3200x128_0_128

/-- Window 7's staging buffer after the body: its two stores as pieces, the later one first — the gate into the right
    half, the gated numerator into the left half. -/
def out7 (x0 : Vec F S3200x128 .f32) (x1 : Vec F S3200x256 .f32) (x2 : Vec F S3200x128 .f32) (x3 : Vec F S128x128 .f32) (x4 : Vec F S1x128 .f32) : Vec F S3200x256 .f32 :=
  View.canon [⟨rH, k1_pay3 (View.ld x0 rE) (View.ld x3 rWe) (View.ld x4 rR) (View.ld x1 rL) (View.ld x2 rE)⟩,
    ⟨rL, k1_pay4 (View.ld x0 rE) (View.ld x3 rWe) (View.ld x4 rR) (View.ld x1 rL) (View.ld x1 rH) (View.ld x2 rE)⟩]

/-- The two halves cover the buffer. -/
theorem cover7 (p0 : Vec F S3200x128 .f32) (p1 : Vec F S3200x128 .f32) (y : S3200x256.Idx) :
    ∃ pc ∈ ([⟨rH, p0⟩, ⟨rL, p1⟩] : List (View.Piece (Elt F) S3200x256 .f32)), y ∈ pc.1.set :=
  View.cover_of_tiled [⟨rH, p0⟩, ⟨rL, p1⟩] S3200x128.size (by rfl) y

/-- Window 8's staging buffer after the body: its one store, the edge output. -/
def out8 (x0 : Vec F S3200x128 .f32) (x1 : Vec F S3200x256 .f32) (x2 : Vec F S3200x128 .f32) (x3 : Vec F S128x128 .f32) (x4 : Vec F S1x128 .f32) (x5 : Vec F S1x128 .f32) (x6 : Vec F S1x128 .f32) : Vec F S3200x128 .f32 :=
  View.canon [⟨rE, k1_pay1 (View.ld x0 rE)
    (k1_pay6 (View.ld x0 rE) (View.ld x3 rWe) (View.ld x4 rR) (View.ld x1 rL) (View.ld x2 rE))
    (k1_pay7 (View.ld x0 rE) (View.ld x3 rWe) (View.ld x4 rR) (View.ld x1 rL) (View.ld x2 rE))
    (k1_pay8 (F := F)) (View.ld x5 rR) (View.ld x6 rR)⟩]

/-- The one store covers the buffer. -/
theorem cover8 (p0 : Vec F S3200x128 .f32) (y : S3200x128.Idx) :
    ∃ pc ∈ ([⟨rE, p0⟩] : List (View.Piece (Elt F) S3200x128 .f32)), y ∈ pc.1.set :=
  View.cover_of_tiled [⟨rE, p0⟩] S3200x128.size (by rfl) y

set_option maxHeartbeats 4000000 in
/-- The body on whole staging memrefs, the inputs' at contents `x0 … x6` and the outputs' at anything, runs to a
    state holding the inputs' as they were and the outputs' at `out7` and `out8` of the inputs'. -/
theorem sound_kernel (c : Dev nD) (E : Set ℕ) (i : grid1.Coords) (arg1 : Memref sig .tc .vmem S3200x128 .f32) (harg1 : arg1.IsWhole) (arg2 : Memref sig .tc .vmem S3200x256 .f32) (harg2 : arg2.IsWhole) (arg3 : Memref sig .tc .vmem S3200x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S3200x256 .f32) (harg8 : arg8.IsWhole) (arg9 : Memref sig .tc .vmem S3200x128 .f32) (harg9 : arg9.IsWhole)
    (x0 : Vec F S3200x128 .f32) (x1 : Vec F S3200x256 .f32) (x2 : Vec F S3200x128 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4) ∗ owns (c : Thread nD τ) arg9 fullShare (out8 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _ _)
  iexists _; isplitr
  swap; · iexact H8
  ipureintro
  exact View.read_writes_eq_canon _ _ _ (cover8 _)

/-- The pipeline's proof data on core `c`: the arrays as the region finds them; after the body at point `t` each
    input's buffer at its block and each output's at its `out` of the input blocks; the invariant that of a body
    which touches nothing but its windows; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (iblk V c 0 t) (iblk V c 1 t) (iblk V c 2 t) (iblk V c 3 t) (iblk V c 4 t)
    | ⟨8, _⟩ => out8 (iblk V c 0 t) (iblk V c 1 t) (iblk V c 2 t) (iblk V c 3 t) (iblk V c 4 t) (iblk V c 5 t) (iblk V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = out7 (iblk V c 0 t) (iblk V c 1 t) (iblk V c 2 t) (iblk V c 3 t) (iblk V c 4 t) := by dsimp only [dat]
theorem after_8 (c : Dev nD) (t : Fin cfg1.N) : (dat V c).after 8 t = out8 (iblk V c 0 t) (iblk V c 1 t) (iblk V c 2 t) (iblk V c 3 t) (iblk V c 4 t) (iblk V c 5 t) (iblk V c 6 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Rg1

end
-- ==== Proof.K.R2.lean ====
/-
  Region 2 of @main (the node finalisation): one grid point stages 2000 rows of the node features, of the scattered
  sums (256 columns: the gated numerators, then the gates), of the node-level linear map (512 columns, of which the
  last 128 are read) and two parameter rows, and stores the 2000 x 128 block of the node output: the features plus
  the SiLU of the layer norm of the update. This module states, at any contents V of the TensorCore's buffers when
  the region is entered, what each window's staging buffer holds before and after the body at a grid point, and
  proves the body's triple and the pipeline's body obligation from it.
-/
import proofs.«416705_j44006234914975_2_alg».proof.Proof.Gen.Kernel.Launch
import proofs.«416705_j44006234914975_2_alg».proof.Proof.Gen.Kernel.Skeleton
import proofs.«416705_j44006234914975_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the body leaves
    the block in place, and an unfetched point has the block index of the point before. One statement per input window. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes -/

/-- a 2000 x 128 buffer whole -/
abbrev rN : Rect S2000x128 := Rect.unit (s := S2000x128) ![0, 0] S2000x128.size inb_S2000x128_S2000x128_0_0
/-- a parameter row whole -/
abbrev rR : Rect S1x128 := Rect.unit (s := S1x128) ![0, 0] S1x128.size inb_S1x128_S1x128_0_0
/-- the left 128 columns of the scattered sums' block -/
abbrev rL : Rect S2000x256 := Rect.unit (s := S2000x256) ![0, 0] S2000x128.size inb_S2000x256_S2000x128_0_0
/-- the right 128 columns of the scattered sums' block -/
abbrev rH : Rect S2000x256 := Rect.unit (s := S2000x256) ![0, 128] S2000x128.size inb_S2000x256_S2000x128_0_128
/-- the last 128 columns of the linear map's block -/
abbrev rQ : Rect S2000x512 := Rect.unit (s := S2000x512) ![0, 384] S2000x128.size inb_S2000x512_S2000x128_0_384

/-- The output window's staging buffer after the body: its one store, the node output. -/
def out5 (x0 : Vec F S2000x128 .f32) (x1 : Vec F S2000x256 .f32) (x2 : Vec F S2000x512 .f32) (x3 : Vec F S1x128 .f32) (x4 : Vec F S1x128 .f32) : Vec F S2000x128 .f32 :=
  View.canon [⟨rN, k2_pay1 (View.ld x1 rL) (View.ld x1 rH) (View.ld x2 rQ) (View.ld x3 rR) (View.ld x4 rR) (View.ld x0 rN)⟩]

/-- The one store covers the buffer. -/
theorem cover5 (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y

set_option maxHeartbeats 4000000 in
/-- The body on whole staging memrefs, the inputs' at contents `x0 … x4` and the output's at anything, runs to a
    state holding the inputs' as they were and the output's at `out5` of the inputs'. -/
theorem sound_kernel (c : Dev nD) (E : Set ℕ) (i : grid2.Coords) (arg1 : Memref sig .tc .vmem S2000x128 .f32) (harg1 : arg1.IsWhole) (arg2 : Memref sig .tc .vmem S2000x256 .f32) (harg2 : arg2.IsWhole) (arg3 : Memref sig .tc .vmem S2000x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x256 .f32) (x2 : Vec F S2000x512 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc2__node_finalize_kernel i arg1 harg1 arg2 harg2 arg3 harg3 arg4 harg4 arg5 harg5 arg6 harg6) K := by
  simp only [cc2__node_finalize_kernel_eq_skeleton]; unfold cc2__node_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-- The pipeline's proof data on core `c`: the arrays as the region finds them; after the body at point `t` each
    input's buffer at its block and the output's at `out5` of the input blocks; the invariant that of a body which
    touches nothing but its windows; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = out5 (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so `sound_kernel` applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Rg2

end
-- ==== Proof.K.Run.lean ====
/-
  The run of @main: ten items — a stretch of host operations, the node-level linear region, five more stretches
  (two slices, two row gathers, three broadcasts of parameter rows), the edge region, a stretch holding the
  scatter-add, and the node finalisation region. This module names the contents of every unscoped buffer at each
  boundary between two items (a fold from the launch memory: a host stretch applies its operations, a region leaves
  its output arrays at what its write-backs accumulate), packs each region's body obligation and layout into its
  segment record, and runs the launch once: every weakly fair execution ends with every unscoped buffer at the last
  boundary's contents. A buffer that no item writes, an argument in particular, ends as launched.
-/
import proofs.«416705_j44006234914975_2_alg».proof.Proof.K.R0
import proofs.«416705_j44006234914975_2_alg».proof.Proof.K.R1
import proofs.«416705_j44006234914975_2_alg».proof.Proof.K.R2
import proofs.«416705_j44006234914975_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (each input as entered, each output's write-backs folded),
    every other buffer as entered. -/
def W2 (c : Dev nD) : Valuation τ sig (Elt F) :=
  Pipeline.withArrays spec0 c (W1 m ρ c) fun w => (Rg0.dat (V1 m ρ) c).arrAt w cfg0.N
theorem W2_arr (c : Dev nD) (w : Fin cfg0.W) :
    W2 m ρ c (Proc.devRef .tc (Pipeline.arrRef spec0 w)) = (Rg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (Rg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output array of region 0 leaves the region as it entered: an input array by the pipeline's
    own bookkeeping, any other buffer untouched. -/
theorem W2_keep (c : Dev nD) (b : Ref sig .tc) (h : ∀ w, (cfg0.win w).isOut = true → Pipeline.arrRef spec0 w ≠ b) :
    W2 m ρ c (Proc.devRef .tc b) = W1 m ρ c (Proc.devRef .tc b) := by
  by_cases hb : ∃ w, Pipeline.arrRef spec0 w = b
  · obtain ⟨w, rfl⟩ := hb
    have hw : (cfg0.win w).isOut = false := by
      cases hwo : (cfg0.win w).isOut with
      | false => rfl
      | true => exact absurd rfl (h w hwo)
    exact (W2_arr m ρ c w).trans (((Rg0.dat (V1 m ρ) c).arrAt_in w hw _).trans (Rg0.A_eq _ c w))
  · exact W2_of_ne m ρ c b (fun w e => hb ⟨w, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
/-- After the five stretches between the first two regions (region 1's entry). -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At region 1's exit: its arrays at what the pipeline leaves (each input as entered, each output's write-backs folded),
    every other buffer as entered. -/
def W8 (c : Dev nD) : Valuation τ sig (Elt F) :=
  Pipeline.withArrays spec1 c (W7 m ρ c) fun w => (Rg1.dat (V7 m ρ) c).arrAt w cfg1.N
theorem W8_arr (c : Dev nD) (w : Fin cfg1.W) :
    W8 m ρ c (Proc.devRef .tc (Pipeline.arrRef spec1 w)) = (Rg1.dat (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 : (c : Dev nD) → (b : Ref sig .tc) → Buf (Elt F) ((c : Thread nD τ).loc b) := fun c b => W8 m ρ c b
theorem hF1 (c : Dev nD) (w : Fin cfg1.W) : (Rg1.dat (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- A buffer that is no output array of region 1 leaves the region as it entered: an input array by the pipeline's
    own bookkeeping, any other buffer untouched. -/
theorem W8_keep (c : Dev nD) (b : Ref sig .tc) (h : ∀ w, (cfg1.win w).isOut = true → Pipeline.arrRef spec1 w ≠ b) :
    W8 m ρ c (Proc.devRef .tc b) = W7 m ρ c (Proc.devRef .tc b) := by
  by_cases hb : ∃ w, Pipeline.arrRef spec1 w = b
  · obtain ⟨w, rfl⟩ := hb
    have hw : (cfg1.win w).isOut = false := by
      cases hwo : (cfg1.win w).isOut with
      | false => rfl
      | true => exact absurd rfl (h w hwo)
    exact (W8_arr m ρ c w).trans (((Rg1.dat (V7 m ρ) c).arrAt_in w hw _).trans (Rg1.A_eq _ c w))
  · exact W8_of_ne m ρ c b (fun w e => hb ⟨w, e⟩)

/-- After the stretch holding the scatter-add (region 2's entry). -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At region 2's exit: its arrays at what the pipeline leaves (each input as entered, each output's write-backs folded),
    every other buffer as entered. -/
def W10 (c : Dev nD) : Valuation τ sig (Elt F) :=
  Pipeline.withArrays spec2 c (W9 m ρ c) fun w => (Rg2.dat (V9 m ρ) c).arrAt w cfg2.N
theorem W10_arr (c : Dev nD) (w : Fin cfg2.W) :
    W10 m ρ c (Proc.devRef .tc (Pipeline.arrRef spec2 w)) = (Rg2.dat (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev V10 : (c : Dev nD) → (b : Ref sig .tc) → Buf (Elt F) ((c : Thread nD τ).loc b) := fun c b => W10 m ρ c b
theorem hF2 (c : Dev nD) (w : Fin cfg2.W) : (Rg2.dat (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- A buffer that is no output array of region 2 leaves the region as it entered: an input array by the pipeline's
    own bookkeeping, any other buffer untouched. -/
theorem W10_keep (c : Dev nD) (b : Ref sig .tc) (h : ∀ w, (cfg2.win w).isOut = true → Pipeline.arrRef spec2 w ≠ b) :
    W10 m ρ c (Proc.devRef .tc b) = W9 m ρ c (Proc.devRef .tc b) := by
  by_cases hb : ∃ w, Pipeline.arrRef spec2 w = b
  · obtain ⟨w, rfl⟩ := hb
    have hw : (cfg2.win w).isOut = false := by
      cases hwo : (cfg2.win w).isOut with
      | false => rfl
      | true => exact absurd rfl (h w hwo)
    exact (W10_arr m ρ c w).trans (((Rg2.dat (V9 m ρ) c).arrAt_in w hw _).trans (Rg2.A_eq _ c w))
  · exact W10_of_ne m ρ c b (fun w e => hb ⟨w, e⟩)

/-! ## A buffer no item writes ends as launched -/

theorem W_unwritten (c : Dev nD) (b : Ref sig .tc)
    (h0 : b ∉ hostOps0_W) (h1 : ∀ w, (cfg0.win w).isOut = true → Pipeline.arrRef spec0 w ≠ b)
    (h2 : b ∉ hostOps1_W) (h3 : b ∉ hostOps1_1_W) (h4 : b ∉ hostOps1_2_W) (h5 : b ∉ hostOps1_3_W) (h6 : b ∉ hostOps1_4_W)
    (h7 : ∀ w, (cfg1.win w).isOut = true → Pipeline.arrRef spec1 w ≠ b)
    (h8 : b ∉ hostOps2_W) (h9 : ∀ w, (cfg2.win w).isOut = true → Pipeline.arrRef spec2 w ≠ b) :
    W10 m ρ c (Proc.devRef .tc b) = m ((c : Thread nD τ).loc b) :=
  calc W10 m ρ c (Proc.devRef .tc b)
    _ = W9 m ρ c (Proc.devRef .tc b) := W10_keep m ρ c b h9
    _ = W8 m ρ c (Proc.devRef .tc b) := StableHlo.after_of_writes_sub hostOps2 _ hostOps2_writes h8
    _ = W7 m ρ c (Proc.devRef .tc b) := W8_keep m ρ c b h7
    _ = W6 m ρ c (Proc.devRef .tc b) := StableHlo.after_of_writes_sub hostOps1_4 _ hostOps1_4_writes h6
    _ = W5 m ρ c (Proc.devRef .tc b) := StableHlo.after_of_writes_sub hostOps1_3 _ hostOps1_3_writes h5
    _ = W4 m ρ c (Proc.devRef .tc b) := StableHlo.after_of_writes_sub hostOps1_2 _ hostOps1_2_writes h4
    _ = W3 m ρ c (Proc.devRef .tc b) := StableHlo.after_of_writes_sub hostOps1_1 _ hostOps1_1_writes h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Rg0.dat (V1 m ρ) c
  | ⟨1, _⟩ => fun c => Rg1.dat (V7 m ρ) c
  | ⟨2, _⟩ => fun c => Rg2.dat (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered with every unscoped buffer at `W1`, left with them at `W2`. Its arrays
    are split out of the unscoped buffers on entry and put back at their exit contents; the generator register goes
    into the body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered with every unscoped buffer at `W7`, left with them at `W8`. Its arrays
    are split out of the unscoped buffers on entry and put back at their exit contents; the generator register goes
    into the body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Rg1.body_obligation (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered with every unscoped buffer at `W9`, left with them at `W10`. Its arrays
    are split out of the unscoped buffers on entry and put back at their exit contents; the generator register goes
    into the body's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Rg2.body_obligation (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Run

end
-- ==== Proof.KI.R0.lean ====
/-
  Region 0 of @main (the node-level linear map): one grid point stages a block of 5000 rows of the node
  features, the whole concatenated weight matrix and the concatenated bias row, and stores the 5000 x 512 block
  rows·W + bias. This module states, at any contents V of the TensorCore's buffers when the region is entered,
  what each window's staging buffer holds before and after the body at a grid point, and proves the body's
  triple and the pipeline's body obligation from it.
-/
import proofs.«416705_j44006234914975_2_alg».proof.Proof.Gen.KernelIdeal.Launch
import proofs.«416705_j44006234914975_2_alg».proof.Proof.Gen.KernelIdeal.Skeleton
import proofs.«416705_j44006234914975_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the body leaves
    the block in place, and an unfetched point has the block index of the point before. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes: each buffer whole -/

abbrev rX : Rect S5000x128 := Rect.unit (s := S5000x128) ![0, 0] S5000x128.size inb_S5000x128_S5000x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0
abbrev rO : Rect S5000x512 := Rect.unit (s := S5000x512) ![0, 0] S5000x512.size inb_S5000x512_S5000x512_0_0

/-- The output window's staging buffer after the body: its one store, the rows' products with the weights plus the
    bias row, over the three input blocks. -/
def out3 (x0 : Vec F S5000x128 .f32) (x1 : Vec F S128x512 .f32) (x2 : Vec F S1x512 .f32) : Vec F S5000x512 .f32 :=
  View.canon [⟨rO, k0_pay1 (View.ld x0 rX) (View.ld x1 rW) (View.ld x2 rB)⟩]

/-- The one store covers the buffer. -/
theorem cover3 (p0 : Vec F S5000x512 .f32) (y : S5000x512.Idx) :
    ∃ pc ∈ ([⟨rO, p0⟩] : List (View.Piece (Elt F) S5000x512 .f32)), y ∈ pc.1.set :=
  View.cover_of_tiled [⟨rO, p0⟩] S5000x512.size (by rfl) y

set_option maxHeartbeats 1000000 in
/-- The body on whole staging memrefs, the inputs' at contents `x0 x1 x2` and the output's at anything, runs to a
    state holding the inputs' as they were and the output's at `out3 x0 x1 x2`. -/
theorem sound_kernel (c : Dev nD) (E : Set ℕ) (i : grid0.Coords) (arg1 : Memref sig .tc .vmem S5000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S5000x512 .f32) (harg4 : arg4.IsWhole)
    (x0 : Vec F S5000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__node_linear_kernel i arg1 harg1 arg2 harg2 arg3 harg3 arg4 harg4) K := by
  simp only [cc0__node_linear_kernel_eq_skeleton]; unfold cc0__node_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The pipeline's proof data on core `c`: the arrays as the region finds them; after the body at point `t` each
    input's buffer at its block and the output's at `out3` of the input blocks; the invariant that of a body which
    touches nothing but its windows; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out3 (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Rg0

end
-- ==== Proof.KI.R1.lean ====
/-
  Region 1 of @main (the edge stage): one grid point stages 3200 rows of the edge features, of the two gathered node
  slabs (256 and 128 columns wide), the edge weight matrix and three parameter rows, and stores two blocks: the
  3200 x 256 block whose left half is the gated numerator and whose right half is the gate, and the 3200 x 128 block
  of the edge output (the features plus the SiLU of their layer norm). This module states, at any contents V of the
  TensorCore's buffers when the region is entered, what each window's staging buffer holds before and after the
  body at a grid point, and proves the body's triple and the pipeline's body obligation from it.
-/
import proofs.«416705_j44006234914975_2_alg».proof.Proof.Gen.KernelIdeal.Launch
import proofs.«416705_j44006234914975_2_alg».proof.Proof.Gen.KernelIdeal.Skeleton
import proofs.«416705_j44006234914975_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the body leaves
    the block in place, and an unfetched point has the block index of the point before. One statement per input window. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes -/

/-- a 3200 x 128 buffer whole -/
abbrev rE : Rect S3200x128 := Rect.unit (s := S3200x128) ![0, 0] S3200x128.size inb_S3200x128_S3200x128_0_0
/-- the weight matrix whole -/
abbrev rWe : Rect S128x128 := Rect.unit (s := S128x128) ![0, 0] S128x128.size inb_S128x128_S128x128_0_0
/-- a parameter row whole -/
abbrev rR : Rect S1x128 := Rect.unit (s := S1x128) ![0, 0] S1x128.size inb_S1x128_S1x128_0_0
/-- the left 128 columns of a 3200 x 256 buffer -/
abbrev rL : Rect S3200x256 := Rect.unit (s := S3200x256) ![0, 0] S3200x128.size inb_S3200x256_S3200x128_0_0
/-- the right 128 columns of a 3200 x 256 buffer -/
abbrev rH : Rect S3200x256 := Rect.unit (s := S3200x256) ![0, 128] S3200x128.size inb_S3200x256_S3200x128_0_128

/-- Window 7's staging buffer after the body: its two stores as pieces, the later one first — the gate into the right
    half, the gated numerator into the left half. -/
def out7 (x0 : Vec F S3200x128 .f32) (x1 : Vec F S3200x256 .f32) (x2 : Vec F S3200x128 .f32) (x3 : Vec F S128x128 .f32) (x4 : Vec F S1x128 .f32) : Vec F S3200x256 .f32 :=
  View.canon [⟨rH, k1_pay3 (View.ld x0 rE) (View.ld x3 rWe) (View.ld x4 rR) (View.ld x1 rL) (View.ld x2 rE)⟩,
    ⟨rL, k1_pay4 (View.ld x0 rE) (View.ld x3 rWe) (View.ld x4 rR) (View.ld x1 rL) (View.ld x1 rH) (View.ld x2 rE)⟩]

/-- The two halves cover the buffer. -/
theorem cover7 (p0 : Vec F S3200x128 .f32) (p1 : Vec F S3200x128 .f32) (y : S3200x256.Idx) :
    ∃ pc ∈ ([⟨rH, p0⟩, ⟨rL, p1⟩] : List (View.Piece (Elt F) S3200x256 .f32)), y ∈ pc.1.set :=
  View.cover_of_tiled [⟨rH, p0⟩, ⟨rL, p1⟩] S3200x128.size (by rfl) y

/-- Window 8's staging buffer after the body: its one store, the edge output. -/
def out8 (x0 : Vec F S3200x128 .f32) (x1 : Vec F S3200x256 .f32) (x2 : Vec F S3200x128 .f32) (x3 : Vec F S128x128 .f32) (x4 : Vec F S1x128 .f32) (x5 : Vec F S1x128 .f32) (x6 : Vec F S1x128 .f32) : Vec F S3200x128 .f32 :=
  View.canon [⟨rE, k1_pay1 (View.ld x0 rE)
    (k1_pay6 (View.ld x0 rE) (View.ld x3 rWe) (View.ld x4 rR) (View.ld x1 rL) (View.ld x2 rE))
    (k1_pay7 (View.ld x0 rE) (View.ld x3 rWe) (View.ld x4 rR) (View.ld x1 rL) (View.ld x2 rE))
    (k1_pay8 (F := F)) (View.ld x5 rR) (View.ld x6 rR)⟩]

/-- The one store covers the buffer. -/
theorem cover8 (p0 : Vec F S3200x128 .f32) (y : S3200x128.Idx) :
    ∃ pc ∈ ([⟨rE, p0⟩] : List (View.Piece (Elt F) S3200x128 .f32)), y ∈ pc.1.set :=
  View.cover_of_tiled [⟨rE, p0⟩] S3200x128.size (by rfl) y

set_option maxHeartbeats 4000000 in
/-- The body on whole staging memrefs, the inputs' at contents `x0 … x6` and the outputs' at anything, runs to a
    state holding the inputs' as they were and the outputs' at `out7` and `out8` of the inputs'. -/
theorem sound_kernel (c : Dev nD) (E : Set ℕ) (i : grid1.Coords) (arg1 : Memref sig .tc .vmem S3200x128 .f32) (harg1 : arg1.IsWhole) (arg2 : Memref sig .tc .vmem S3200x256 .f32) (harg2 : arg2.IsWhole) (arg3 : Memref sig .tc .vmem S3200x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S3200x256 .f32) (harg8 : arg8.IsWhole) (arg9 : Memref sig .tc .vmem S3200x128 .f32) (harg9 : arg9.IsWhole)
    (x0 : Vec F S3200x128 .f32) (x1 : Vec F S3200x256 .f32) (x2 : Vec F S3200x128 .f32) (x3 : Vec F S128x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4) ∗ owns (c : Thread nD τ) arg9 fullShare (out8 x0 x1 x2 x3 x4 x5 x6)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _ _)
  iexists _; isplitr
  swap; · iexact H8
  ipureintro
  exact View.read_writes_eq_canon _ _ _ (cover8 _)

/-- The pipeline's proof data on core `c`: the arrays as the region finds them; after the body at point `t` each
    input's buffer at its block and each output's at its `out` of the input blocks; the invariant that of a body
    which touches nothing but its windows; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (iblk V c 0 t) (iblk V c 1 t) (iblk V c 2 t) (iblk V c 3 t) (iblk V c 4 t)
    | ⟨8, _⟩ => out8 (iblk V c 0 t) (iblk V c 1 t) (iblk V c 2 t) (iblk V c 3 t) (iblk V c 4 t) (iblk V c 5 t) (iblk V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = out7 (iblk V c 0 t) (iblk V c 1 t) (iblk V c 2 t) (iblk V c 3 t) (iblk V c 4 t) := by dsimp only [dat]
theorem after_8 (c : Dev nD) (t : Fin cfg1.N) : (dat V c).after 8 t = out8 (iblk V c 0 t) (iblk V c 1 t) (iblk V c 2 t) (iblk V c 3 t) (iblk V c 4 t) (iblk V c 5 t) (iblk V c 6 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Rg1

end
-- ==== Proof.KI.R2.lean ====
/-
  Region 2 of @main (the node finalisation): one grid point stages 2000 rows of the node features, of the scattered
  sums (256 columns: the gated numerators, then the gates), of the node-level linear map (512 columns, of which the
  last 128 are read) and two parameter rows, and stores the 2000 x 128 block of the node output: the features plus
  the SiLU of the layer norm of the update. This module states, at any contents V of the TensorCore's buffers when
  the region is entered, what each window's staging buffer holds before and after the body at a grid point, and
  proves the body's triple and the pipeline's body obligation from it.
-/
import proofs.«416705_j44006234914975_2_alg».proof.Proof.Gen.KernelIdeal.Launch
import proofs.«416705_j44006234914975_2_alg».proof.Proof.Gen.KernelIdeal.Skeleton
import proofs.«416705_j44006234914975_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: the body leaves
    the block in place, and an unfetched point has the block index of the point before. One statement per input window. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes -/

/-- a 2000 x 128 buffer whole -/
abbrev rN : Rect S2000x128 := Rect.unit (s := S2000x128) ![0, 0] S2000x128.size inb_S2000x128_S2000x128_0_0
/-- a parameter row whole -/
abbrev rR : Rect S1x128 := Rect.unit (s := S1x128) ![0, 0] S1x128.size inb_S1x128_S1x128_0_0
/-- the left 128 columns of the scattered sums' block -/
abbrev rL : Rect S2000x256 := Rect.unit (s := S2000x256) ![0, 0] S2000x128.size inb_S2000x256_S2000x128_0_0
/-- the right 128 columns of the scattered sums' block -/
abbrev rH : Rect S2000x256 := Rect.unit (s := S2000x256) ![0, 128] S2000x128.size inb_S2000x256_S2000x128_0_128
/-- the last 128 columns of the linear map's block -/
abbrev rQ : Rect S2000x512 := Rect.unit (s := S2000x512) ![0, 384] S2000x128.size inb_S2000x512_S2000x128_0_384

/-- The output window's staging buffer after the body: its one store, the node output. -/
def out5 (x0 : Vec F S2000x128 .f32) (x1 : Vec F S2000x256 .f32) (x2 : Vec F S2000x512 .f32) (x3 : Vec F S1x128 .f32) (x4 : Vec F S1x128 .f32) : Vec F S2000x128 .f32 :=
  View.canon [⟨rN, k2_pay1 (View.ld x1 rL) (View.ld x1 rH) (View.ld x2 rQ) (View.ld x3 rR) (View.ld x4 rR) (View.ld x0 rN)⟩]

/-- The one store covers the buffer. -/
theorem cover5 (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y

set_option maxHeartbeats 4000000 in
/-- The body on whole staging memrefs, the inputs' at contents `x0 … x4` and the output's at anything, runs to a
    state holding the inputs' as they were and the output's at `out5` of the inputs'. -/
theorem sound_kernel (c : Dev nD) (E : Set ℕ) (i : grid2.Coords) (arg1 : Memref sig .tc .vmem S2000x128 .f32) (harg1 : arg1.IsWhole) (arg2 : Memref sig .tc .vmem S2000x256 .f32) (harg2 : arg2.IsWhole) (arg3 : Memref sig .tc .vmem S2000x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S2000x256 .f32) (x2 : Vec F S2000x512 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc2__node_finalize_kernel i arg1 harg1 arg2 harg2 arg3 harg3 arg4 harg4 arg5 harg5 arg6 harg6) K := by
  simp only [cc2__node_finalize_kernel_eq_skeleton]; unfold cc2__node_finalize_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-- The pipeline's proof data on core `c`: the arrays as the region finds them; after the body at point `t` each
    input's buffer at its block and the output's at `out5` of the input blocks; the invariant that of a body which
    touches nothing but its windows; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = out5 (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so `sound_kernel` applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Rg2

end
-- ==== Proof.KI.Run.lean ====
/-
  The run of @main: ten items — a stretch of host operations, the node-level linear region, five more stretches
  (two slices, two row gathers, three broadcasts of parameter rows), the edge region, a stretch holding the
  scatter-add, and the node finalisation region. This module names the contents of every unscoped buffer at each
  boundary between two items (a fold from the launch memory: a host stretch applies its operations, a region leaves
  its output arrays at what its write-backs accumulate), packs each region's body obligation and layout into its
  segment record, and runs the launch once: every weakly fair execution ends with every unscoped buffer at the last
  boundary's contents. A buffer that no item writes, an argument in particular, ends as launched.
-/
import proofs.«416705_j44006234914975_2_alg».proof.Proof.KI.R0
import proofs.«416705_j44006234914975_2_alg».proof.Proof.KI.R1
import proofs.«416705_j44006234914975_2_alg».proof.Proof.KI.R2
import proofs.«416705_j44006234914975_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (each input as entered, each output's write-backs folded),
    every other buffer as entered. -/
def W2 (c : Dev nD) : Valuation τ sig (Elt F) :=
  Pipeline.withArrays spec0 c (W1 m ρ c) fun w => (Rg0.dat (V1 m ρ) c).arrAt w cfg0.N
theorem W2_arr (c : Dev nD) (w : Fin cfg0.W) :
    W2 m ρ c (Proc.devRef .tc (Pipeline.arrRef spec0 w)) = (Rg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (Rg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output array of region 0 leaves the region as it entered: an input array by the pipeline's
    own bookkeeping, any other buffer untouched. -/
theorem W2_keep (c : Dev nD) (b : Ref sig .tc) (h : ∀ w, (cfg0.win w).isOut = true → Pipeline.arrRef spec0 w ≠ b) :
    W2 m ρ c (Proc.devRef .tc b) = W1 m ρ c (Proc.devRef .tc b) := by
  by_cases hb : ∃ w, Pipeline.arrRef spec0 w = b
  · obtain ⟨w, rfl⟩ := hb
    have hw : (cfg0.win w).isOut = false := by
      cases hwo : (cfg0.win w).isOut with
      | false => rfl
      | true => exact absurd rfl (h w hwo)
    exact (W2_arr m ρ c w).trans (((Rg0.dat (V1 m ρ) c).arrAt_in w hw _).trans (Rg0.A_eq _ c w))
  · exact W2_of_ne m ρ c b (fun w e => hb ⟨w, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
/-- After the five stretches between the first two regions (region 1's entry). -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At region 1's exit: its arrays at what the pipeline leaves (each input as entered, each output's write-backs folded),
    every other buffer as entered. -/
def W8 (c : Dev nD) : Valuation τ sig (Elt F) :=
  Pipeline.withArrays spec1 c (W7 m ρ c) fun w => (Rg1.dat (V7 m ρ) c).arrAt w cfg1.N
theorem W8_arr (c : Dev nD) (w : Fin cfg1.W) :
    W8 m ρ c (Proc.devRef .tc (Pipeline.arrRef spec1 w)) = (Rg1.dat (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 : (c : Dev nD) → (b : Ref sig .tc) → Buf (Elt F) ((c : Thread nD τ).loc b) := fun c b => W8 m ρ c b
theorem hF1 (c : Dev nD) (w : Fin cfg1.W) : (Rg1.dat (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- A buffer that is no output array of region 1 leaves the region as it entered: an input array by the pipeline's
    own bookkeeping, any other buffer untouched. -/
theorem W8_keep (c : Dev nD) (b : Ref sig .tc) (h : ∀ w, (cfg1.win w).isOut = true → Pipeline.arrRef spec1 w ≠ b) :
    W8 m ρ c (Proc.devRef .tc b) = W7 m ρ c (Proc.devRef .tc b) := by
  by_cases hb : ∃ w, Pipeline.arrRef spec1 w = b
  · obtain ⟨w, rfl⟩ := hb
    have hw : (cfg1.win w).isOut = false := by
      cases hwo : (cfg1.win w).isOut with
      | false => rfl
      | true => exact absurd rfl (h w hwo)
    exact (W8_arr m ρ c w).trans (((Rg1.dat (V7 m ρ) c).arrAt_in w hw _).trans (Rg1.A_eq _ c w))
  · exact W8_of_ne m ρ c b (fun w e => hb ⟨w, e⟩)

/-- After the stretch holding the scatter-add (region 2's entry). -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At region 2's exit: its arrays at what the pipeline leaves (each input as entered, each output's write-backs folded),
    every other buffer as entered. -/
def W10 (c : Dev nD) : Valuation τ sig (Elt F) :=
  Pipeline.withArrays spec2 c (W9 m ρ c) fun w => (Rg2.dat (V9 m ρ) c).arrAt w cfg2.N
theorem W10_arr (c : Dev nD) (w : Fin cfg2.W) :
    W10 m ρ c (Proc.devRef .tc (Pipeline.arrRef spec2 w)) = (Rg2.dat (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references. -/
abbrev V10 : (c : Dev nD) → (b : Ref sig .tc) → Buf (Elt F) ((c : Thread nD τ).loc b) := fun c b => W10 m ρ c b
theorem hF2 (c : Dev nD) (w : Fin cfg2.W) : (Rg2.dat (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- A buffer that is no output array of region 2 leaves the region as it entered: an input array by the pipeline's
    own bookkeeping, any other buffer untouched. -/
theorem W10_keep (c : Dev nD) (b : Ref sig .tc) (h : ∀ w, (cfg2.win w).isOut = true → Pipeline.arrRef spec2 w ≠ b) :
    W10 m ρ c (Proc.devRef .tc b) = W9 m ρ c (Proc.devRef .tc b) := by
  by_cases hb : ∃ w, Pipeline.arrRef spec2 w = b
  · obtain ⟨w, rfl⟩ := hb
    have hw : (cfg2.win w).isOut = false := by
      cases hwo : (cfg2.win w).isOut with
      | false => rfl
      | true => exact absurd rfl (h w hwo)
    exact (W10_arr m ρ c w).trans (((Rg2.dat (V9 m ρ) c).arrAt_in w hw _).trans (Rg2.A_eq _ c w))
  · exact W10_of_ne m ρ c b (fun w e => hb ⟨w, e⟩)

/-! ## A buffer no item writes ends as launched -/

theorem W_unwritten (c : Dev nD) (b : Ref sig .tc)
    (h0 : b ∉ hostOps0_W) (h1 : ∀ w, (cfg0.win w).isOut = true → Pipeline.arrRef spec0 w ≠ b)
    (h2 : b ∉ hostOps1_W) (h3 : b ∉ hostOps1_1_W) (h4 : b ∉ hostOps1_2_W) (h5 : b ∉ hostOps1_3_W) (h6 : b ∉ hostOps1_4_W)
    (h7 : ∀ w, (cfg1.win w).isOut = true → Pipeline.arrRef spec1 w ≠ b)
    (h8 : b ∉ hostOps2_W) (h9 : ∀ w, (cfg2.win w).isOut = true → Pipeline.arrRef spec2 w ≠ b) :
    W10 m ρ c (Proc.devRef .tc b) = m ((c : Thread nD τ).loc b) :=
  calc W10 m ρ c (Proc.devRef .tc b)
    _ = W9 m ρ c (Proc.devRef .tc b) := W10_keep m ρ c b h9
    _ = W8 m ρ c (Proc.devRef .tc b) := StableHlo.after_of_writes_sub hostOps2 _ hostOps2_writes h8
    _ = W7 m ρ c (Proc.devRef .tc b) := W8_keep m ρ c b h7
    _ = W6 m ρ c (Proc.devRef .tc b) := StableHlo.after_of_writes_sub hostOps1_4 _ hostOps1_4_writes h6
    _ = W5 m ρ c (Proc.devRef .tc b) := StableHlo.after_of_writes_sub hostOps1_3 _ hostOps1_3_writes h5
    _ = W4 m ρ c (Proc.devRef .tc b) := StableHlo.after_of_writes_sub hostOps1_2 _ hostOps1_2_writes h4
    _ = W3 m ρ c (Proc.devRef .tc b) := StableHlo.after_of_writes_sub hostOps1_1 _ hostOps1_1_writes h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Rg0.dat (V1 m ρ) c
  | ⟨1, _⟩ => fun c => Rg1.dat (V7 m ρ) c
  | ⟨2, _⟩ => fun c => Rg2.dat (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered with every unscoped buffer at `W1`, left with them at `W2`. Its arrays
    are split out of the unscoped buffers on entry and put back at their exit contents; the generator register goes
    into the body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered with every unscoped buffer at `W7`, left with them at `W8`. Its arrays
    are split out of the unscoped buffers on entry and put back at their exit contents; the generator register goes
    into the body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Rg1.body_obligation (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered with every unscoped buffer at `W9`, left with them at `W10`. Its arrays
    are split out of the unscoped buffers on entry and put back at their exit contents; the generator register goes
    into the body's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Rg2.body_obligation (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)),
    .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Run

end
-- ==== Proof.Spec.lean ====
/-
  The mathematics of the edge-gated graph convolution, index by index over the extended reals.

  Notation. N = 50000 nodes, E = 800000 edges, 128 features. For an edge e, src e and dst e are its endpoints'
  numbers; a row read "at src e" is the row whose number is src e read as a signed integer and clamped into
  [0, N - 1], and an edge contributes to the sums of node n exactly when dst e, read signed, is n.

    lin x W b (r, j)   = (sum over k of x(r,k) * W(k,j)) + b(j)
    m(e, j)            = (lin nf Wsg bsg (src e, j) + lin nf Wdg bdg (dst e, j)) + lin ef Weg beg (e, j)
    sigma(e, j)        = logistic (m(e, j))
    ssh(n, j)          = sum over the edges e into n of lin nf Wdu bdu (src e, j) * sigma(e, j)
    ss(n, j)           = sum over the edges e into n of sigma(e, j)
    x(n, j)            = lin nf Wsu bsu (n, j) + ssh(n, j) / (ss(n, j) + 1e-6)
    node_out(n, j)     = nf(n, j) + silu (layer norm of the row x(n, .) at lane j, scale gn(j), shift bn(j))
    edge_out(e, j)     = ef(e, j) + silu (layer norm of the row m(e, .) at lane j, scale ge(j), shift be(j))

  The layer norm of a row divides the lane sum by 128 for the mean, takes the mean of the squared deviations for the
  variance, and multiplies the deviation by the reciprocal square root of the variance plus 1e-5. Every constant is
  the f32 word both programs print, read at its exact value.

  The first part states what each of the three kernel regions computes from the arrays it is handed; the second part
  states the whole program's two results from the eighteen arguments.
-/
import Mathlib.Algebra.BigOperators.Group.Finset.Basic
import Idealize.ShloMosaic.PureOps.Ideal
import Idealize.ShloMosaic.Lib.ValueIdx

noncomputable section

open scoped BigOperators

namespace Cert.Spec

open Idealize.ShloMosaic Idealize.ShloMosaic.ValueIdx

/-! ## Shapes and column halves -/

abbrev SN128 : Shape := ⟨2, ![50000, 128]⟩
abbrev SN256 : Shape := ⟨2, ![50000, 256]⟩
abbrev SN512 : Shape := ⟨2, ![50000, 512]⟩
abbrev SE128 : Shape := ⟨2, ![800000, 128]⟩
abbrev SE256 : Shape := ⟨2, ![800000, 256]⟩
abbrev SW128 : Shape := ⟨2, ![128, 128]⟩
abbrev SW512 : Shape := ⟨2, ![128, 512]⟩
abbrev SR128 : Shape := ⟨2, ![1, 128]⟩
abbrev SR512 : Shape := ⟨2, ![1, 512]⟩
abbrev SV128 : Shape := ⟨1, ![128]⟩
abbrev SE : Shape := ⟨1, ![800000]⟩

/-- Lane j as a column of the left half of a 256-column array. -/
def lo (j : Fin 128) : Fin 256 := ⟨j.val, by omega⟩
/-- Lane j as a column of the right half of a 256-column array. -/
def hi (j : Fin 128) : Fin 256 := ⟨128 + j.val, by omega⟩
/-- Lane j as a column of quarter q of a 512-column array. -/
def qcol (q : Fin 4) (j : Fin 128) : Fin 512 := ⟨128 * q.val + j.val, by omega⟩

/-! ## Constants: the printed f32 words -/

/-- 128.0 -/
abbrev c128 : EReal := Ideal.ofBits .f32 0x43000000#32
/-- the f32 nearest 1e-5 -/
abbrev eps5 : EReal := Ideal.ofBits .f32 0x3727C5AC#32
/-- the f32 nearest 1e-6 -/
abbrev eps6 : EReal := Ideal.ofBits .f32 0x358637BD#32

/-! ## A row's layer norm and SiLU -/

/-- The mean of a row's 128 lanes. -/
def mean128 (x : Fin 128 → EReal) : EReal := Ideal.div (∑ k : Fin 128, x k) c128

/-- The layer norm of the row `x` at lane `j`, with scale `gj` and shift `bj`. -/
def lnAt (x : Fin 128 → EReal) (gj bj : EReal) (j : Fin 128) : EReal :=
  ((x j - mean128 x) * Ideal.rsqrt (mean128 (fun k => (x k - mean128 x) * (x k - mean128 x)) + eps5)) * gj + bj

/-- y * logistic y. -/
def silu (y : EReal) : EReal := y * Ideal.logistic y

/-! ## Part one: what each region computes from the arrays it is handed -/

/-- Region 0: rows times the 128 x 512 matrix plus the bias row. -/
def nodeLin (x : FVec Ideal SN128 .f32) (W : FVec Ideal SW512 .f32) (b : FVec Ideal SR512 .f32) (r : Fin 50000) (c : Fin 512) : EReal :=
  (∑ k : Fin 128, x (ix2 r k) * W (ix2 k c)) + b (ix2 0 c)

/-- Region 1: the pre-activation of edge e at lane j, from the edge features, the two gathered slabs, the edge weights
    and bias row. -/
def edgeM (ef : FVec Ideal SE128 .f32) (g5 : FVec Ideal SE256 .f32) (g7 : FVec Ideal SE128 .f32) (We : FVec Ideal SW128 .f32)
    (be : FVec Ideal SR128 .f32) (e : Fin 800000) (j : Fin 128) : EReal :=
  (g5 (ix2 e (lo j)) + g7 (ix2 e j)) + ((∑ k : Fin 128, ef (ix2 e k) * We (ix2 k j)) + be (ix2 0 j))

/-- Region 1, first output, left half: the gated numerator. -/
def numSigL (ef : FVec Ideal SE128 .f32) (g5 : FVec Ideal SE256 .f32) (g7 : FVec Ideal SE128 .f32) (We : FVec Ideal SW128 .f32)
    (be : FVec Ideal SR128 .f32) (e : Fin 800000) (j : Fin 128) : EReal :=
  g5 (ix2 e (hi j)) * Ideal.logistic (edgeM ef g5 g7 We be e j)

/-- Region 1, first output, right half: the gate. -/
def numSigR (ef : FVec Ideal SE128 .f32) (g5 : FVec Ideal SE256 .f32) (g7 : FVec Ideal SE128 .f32) (We : FVec Ideal SW128 .f32)
    (be : FVec Ideal SR128 .f32) (e : Fin 800000) (j : Fin 128) : EReal :=
  Ideal.logistic (edgeM ef g5 g7 We be e j)

/-- Region 1, second output: the edge output. -/
def edgeOut (ef : FVec Ideal SE128 .f32) (g5 : FVec Ideal SE256 .f32) (g7 : FVec Ideal SE128 .f32) (We : FVec Ideal SW128 .f32)
    (be : FVec Ideal SR128 .f32) (ge : FVec Ideal SR128 .f32) (bte : FVec Ideal SR128 .f32) (e : Fin 800000) (j : Fin 128) : EReal :=
  ef (ix2 e j) + silu (lnAt (fun k => edgeM ef g5 g7 We be e k) (ge (ix2 0 j)) (bte (ix2 0 j)) j)

/-- Region 2: the update of node n at lane j, from the scattered sums and the linear map's last quarter. -/
def nodeX (cs : FVec Ideal SN256 .f32) (nl : FVec Ideal SN512 .f32) (n : Fin 50000) (j : Fin 128) : EReal :=
  nl (ix2 n (qcol 3 j)) + Ideal.div (cs (ix2 n (lo j))) (cs (ix2 n (hi j)) + eps6)

/-- Region 2's output: the node output. -/
def nodeOut (nf : FVec Ideal SN128 .f32) (cs : FVec Ideal SN256 .f32) (nl : FVec Ideal SN512 .f32) (gn : FVec Ideal SR128 .f32)
    (bn : FVec Ideal SR128 .f32) (n : Fin 50000) (j : Fin 128) : EReal :=
  nf (ix2 n j) + silu (lnAt (fun k => nodeX cs nl n k) (gn (ix2 0 j)) (bn (ix2 0 j)) j)

/-! ## Part two: the program's results from its eighteen arguments -/

/-- The eighteen arguments, in @main's order. -/
structure Args where
  nf : FVec Ideal SN128 .f32
  ef : FVec Ideal SE128 .f32
  src : IVec SE 32
  dst : IVec SE 32
  Wsg : FVec Ideal SW128 .f32
  bsg : FVec Ideal SV128 .f32
  Wdg : FVec Ideal SW128 .f32
  bdg : FVec Ideal SV128 .f32
  Weg : FVec Ideal SW128 .f32
  beg : FVec Ideal SV128 .f32
  Wsu : FVec Ideal SW128 .f32
  bsu : FVec Ideal SV128 .f32
  Wdu : FVec Ideal SW128 .f32
  bdu : FVec Ideal SV128 .f32
  gn : FVec Ideal SV128 .f32
  bn : FVec Ideal SV128 .f32
  ge : FVec Ideal SV128 .f32
  bte : FVec Ideal SV128 .f32

/-- A node-level linear map: row r of the node features times W, plus the bias. -/
def linN (x : FVec Ideal SN128 .f32) (W : FVec Ideal SW128 .f32) (b : FVec Ideal SV128 .f32) (r : Fin 50000) (j : Fin 128) : EReal :=
  (∑ k : Fin 128, x (ix2 r k) * W (ix2 k j)) + b (ix1 j)
/-- The edge-level linear map. -/
def linE (x : FVec Ideal SE128 .f32) (W : FVec Ideal SW128 .f32) (b : FVec Ideal SV128 .f32) (e : Fin 800000) (j : Fin 128) : EReal :=
  (∑ k : Fin 128, x (ix2 e k) * W (ix2 k j)) + b (ix1 j)

/-- The row an index array names for edge e: its word read signed and clamped into [0, N - 1]. -/
def rowOf (s : IVec SE 32) (e : Fin 800000) : Fin 50000 := ⟨min (s (ix1 e)).toInt.toNat (50000 - 1), by omega⟩

/-- The edges into node n: those whose destination word, read signed, is n. -/
def into (d : IVec SE 32) (n : Fin 50000) : Finset (Fin 800000) :=
  Finset.univ.filter (fun e : Fin 800000 => (d (ix1 e)).toInt = (n.val : ℤ))

variable (a : Args)

def mTop (e : Fin 800000) (j : Fin 128) : EReal :=
  (linN a.nf a.Wsg a.bsg (rowOf a.src e) j + linN a.nf a.Wdg a.bdg (rowOf a.dst e) j) + linE a.ef a.Weg a.beg e j
def sigTop (e : Fin 800000) (j : Fin 128) : EReal := Ideal.logistic (mTop a e j)
def sshTop (n : Fin 50000) (j : Fin 128) : EReal := ∑ e ∈ into a.dst n, linN a.nf a.Wdu a.bdu (rowOf a.src e) j * sigTop a e j
def ssTop (n : Fin 50000) (j : Fin 128) : EReal := ∑ e ∈ into a.dst n, sigTop a e j
def xTop (n : Fin 50000) (j : Fin 128) : EReal := linN a.nf a.Wsu a.bsu n j + Ideal.div (sshTop a n j) (ssTop a n j + eps6)
/-- THE FIRST RESULT. -/
def nodeTop (n : Fin 50000) (j : Fin 128) : EReal :=
  a.nf (ix2 n j) + silu (lnAt (fun k => xTop a n k) (a.gn (ix1 j)) (a.bn (ix1 j)) j)
/-- THE SECOND RESULT. -/
def edgeTop (e : Fin 800000) (j : Fin 128) : EReal :=
  a.ef (ix2 e j) + silu (lnAt (fun k => mTop a e k) (a.ge (ix1 j)) (a.bte (ix1 j)) j)

end Cert.Spec

end
-- ==== Proof.KI.Val0.lean ====
/-
  What region 0 leaves in its output array, at the extended reals: entry (r, c) of the 50000 x 512 array is row r of
  the node features times column c of the weight matrix, plus entry c of the bias row.

  The steps. (1) The body's one store, read at a point of its block: the two narrowings to bf16 are the identity on
  extended reals, the product into the zero accumulator is the sum over the 128 contracted positions, and the bias
  row is repeated down the rows. (2) Each input block is its array read through the block's rows: the features move
  one block of 5000 rows per grid point, the weights and the bias row are whole at every point. (3) So what a point
  writes back is its block of ONE function of the three arrays. (4) The ten blocks cover the array (row r lies in
  block r / 5000) and every point writes its block back, so the array ends holding that function.
-/
import proofs.«416705_j44006234914975_2_alg».proof.Proof.KI.R0
import proofs.«416705_j44006234914975_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Cert.KernelIdeal Cert.KernelIdeal.Gen
open Idealize.ShloMosaic Idealize.ShloMosaic.TcCoe Idealize.ShloMosaic.ValueIdx
open Idealize.SL.Sem
open Idealize.ShloMosaic.Pipeline (Dat)

/-! ## The contraction's index maps, axis by axis -/

/-- The left operand is read in the result's row … -/
theorem lhs_row (i : S5000x512.Idx) (q : dot_S5000x128_S128x512_S5000x512_1_0_0_1_n_n.contr.Idx) :
    (dot_S5000x128_S128x512_S5000x512_1_0_0_1_n_n.lhsIdx i q 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
/-- … at the contracted position; -/
theorem lhs_col (i : S5000x512.Idx) (q : dot_S5000x128_S128x512_S5000x512_1_0_0_1_n_n.contr.Idx) :
    (dot_S5000x128_S128x512_S5000x512_1_0_0_1_n_n.lhsIdx i q 1).val = (q ⟨0, by decide⟩).val :=
  dot_S5000x128_S128x512_S5000x512_1_0_0_1_n_n.lhsIdx_val_of_single rfl i q
/-- the right operand at the contracted position … -/
theorem rhs_row (i : S5000x512.Idx) (q : dot_S5000x128_S128x512_S5000x512_1_0_0_1_n_n.contr.Idx) :
    (dot_S5000x128_S128x512_S5000x512_1_0_0_1_n_n.rhsIdx i q 0).val = (q ⟨0, by decide⟩).val :=
  dot_S5000x128_S128x512_S5000x512_1_0_0_1_n_n.rhsIdx_val_of_single rfl i q
/-- … in the result's column. -/
theorem rhs_col (i : S5000x512.Idx) (q : dot_S5000x128_S128x512_S5000x512_1_0_0_1_n_n.contr.Idx) :
    (dot_S5000x128_S128x512_S5000x512_1_0_0_1_n_n.rhsIdx i q 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-- The product into the zero accumulator, at row p and column q: the sum over the 128 contracted positions. -/
theorem product_apply (x : FVec Ideal S5000x128 .bf16) (W : FVec Ideal S128x512 .bf16) (p : Fin 5000) (q : Fin 512) :
    matmul dot_S5000x128_S128x512_S5000x512_1_0_0_1_n_n none x W (constant (F := Ideal) S5000x512 .f32 0x00000000#32) (ix2 p q)
      = ∑ k : Fin 128, x (ix2 p k) * W (ix2 k q) := by
  simp only [matmul]
  rw [Ideal.matmul_constant_zero_apply, ← Equiv.sum_comp (ValueIdx.contrEquiv1 dot_S5000x128_S128x512_S5000x512_1_0_0_1_n_n 128 rfl rfl).symm]
  refine Finset.sum_congr rfl fun k _ => ?_
  have hk := ValueIdx.contrEquiv1_symm_val dot_S5000x128_S128x512_S5000x512_1_0_0_1_n_n 128 rfl rfl k
  have el : dot_S5000x128_S128x512_S5000x512_1_0_0_1_n_n.lhsIdx (ix2 p q) ((ValueIdx.contrEquiv1 dot_S5000x128_S128x512_S5000x512_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x512_S5000x512_1_0_0_1_n_n.rhsIdx (ix2 p q) ((ValueIdx.contrEquiv1 dot_S5000x128_S128x512_S5000x512_1_0_0_1_n_n 128 rfl rfl).symm k) = ix2 k q := funext fun a => Fin.ext (by
    match a with
    | ⟨0, _⟩ => exact (rhs_row _ _).trans hk
    | ⟨1, _⟩ => exact rhs_col _ _)
  rw [el, er]

/-- THE BODY'S STORE at row p and column q of its block: the row of the features block times the column of the
    weights, plus the bias row's entry. The two narrowings are the identity on extended reals, the casts keep their
    shapes, and the bias row is repeated down the rows. -/
theorem payload_apply (x : Vec Ideal S5000x128 .f32) (W : Vec Ideal S128x512 .f32) (b : Vec Ideal S1x512 .f32)
    (p : Fin 5000) (q : Fin 512) :
    k0_pay1 (F := Ideal) x W b (ix2 p q) = (∑ k : Fin 128, x (ix2 p k) * W (ix2 k q)) + b (ix2 0 q) := by
  unfold k0_pay1
  simp only [shapeCast_self]
  rw [addf_apply, product_apply, broadcastTo_1b_ab_apply]
  simp only [truncf_apply]

/-- The store against the specification, over any arrays: if row p of the features block is row r of the array x',
    and the weights and bias blocks read as the arrays W' and b' do, the stored entry (p, q) is the linear map's
    entry (r, q). -/
theorem stored_entry (x : Vec Ideal S5000x128 .f32) (W : Vec Ideal S128x512 .f32) (b : Vec Ideal S1x512 .f32)
    (x' : FVec Ideal Spec.SN128 .f32) (W' : FVec Ideal Spec.SW512 .f32) (b' : FVec Ideal Spec.SR512 .f32)
    (p : Fin 5000) (q : Fin 512) (r : Fin 50000)
    (hx : ∀ k : Fin 128, x (ix2 p k) = x' (ix2 r k)) (hW : ∀ k : Fin 128, W (ix2 k q) = W' (ix2 k q))
    (hb : b (ix2 0 q) = b' (ix2 0 q)) :
    k0_pay1 (F := Ideal) x W b (ix2 p q) = Spec.nodeLin x' W' b' r q := by
  rw [payload_apply, hb]
  unfold Spec.nodeLin
  simp only [hx, hW]

/-! ## From the blocks to the array -/

variable (V : (c : Dev nD) → (b : Ref sig .tc) → Buf (Elt Ideal) ((c : Thread nD τ).loc b))

/-- The two zero offsets, however they are spelt. -/
theorem zero_offsets : (![0, 0] : Fin 2 → Nat) = fun _ => 0 := funext fun a => by fin_cases a <;> rfl

/-- The whole 50000 x 512 array as ONE function of the three arrays the region reads. -/
def wholeOut (c : Dev nD) : S50000x512.Idx → Elt Ideal .f32 :=
  fun i => Spec.nodeLin (V c main_arg0) (V c main_v0) (V c main_v2) (i 0) (i 1)

/-- The block index maps over the ten grid points: the features and the output move together, one block of
    5000 rows per point; the weights and the bias row stay whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features block at point t is row 5000 t + p of the node features. -/
theorem features_block (c : Dev nD) (t : Fin cfg0.N) (p : Fin 5000) (k : Fin 128) (r : Fin 50000)
    (hr : r.val = 5000 * t.val + p.val) :
    (Rg0.iblk V c 0 t : Vec Ideal S5000x128 .f32) (ix2 p k) = V c main_arg0 (ix2 r k) := by
  obtain ⟨e0, e1, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights block at any point is the whole weight matrix. -/
theorem weights_block (c : Dev nD) (t : Fin cfg0.N) (k : Fin 128) (q : Fin 512) :
    (Rg0.iblk V c 1 t : Vec Ideal S128x512 .f32) (ix2 k q) = V c main_v0 (ix2 k q) := by
  obtain ⟨-, -, e0, e1, -⟩ := block_indices t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 128 + 1 * k.val = k.val; omega
  | ⟨1, _⟩ => show win0_1.index t (1 : Fin 2) * 512 + 1 * q.val = q.val; omega

/-- The bias block at any point is the whole bias row. -/
theorem bias_block (c : Dev nD) (t : Fin cfg0.N) (z : Fin 1) (q : Fin 512) :
    (Rg0.iblk V c 2 t : Vec Ideal S1x512 .f32) (ix2 z q) = V c main_v2 (ix2 z q) := by
  obtain ⟨-, -, -, -, e0, e1, -⟩ := block_indices t
  show V c main_v2 (((cfg0.win 2).blk t).view.emb (ix2 z q)) = V c main_v2 (ix2 z q)
  refine congrArg (V c main_v2) (funext fun a => Fin.ext ?_)
  match a with
  | ⟨0, _⟩ => show win0_2.index t (0 : Fin 2) * 1 + 1 * z.val = z.val; omega
  | ⟨1, _⟩ => show win0_2.index t (1 : Fin 2) * 512 + 1 * q.val = q.val; omega

/-- Entry (p, q) of the output block at point t is entry (5000 t + p, q) of the output array. -/
theorem out_block_index (t : Fin cfg0.N) (p : Fin 5000) (q : Fin 512) (r : Fin 50000)
    (hr : r.val = 5000 * t.val + p.val) :
    (((cfg0.win 3).blk t).view.emb (ix2 p q) : S50000x512.Idx) = ix2 r q := by
  obtain ⟨-, -, -, -, -, -, e0, e1⟩ := block_indices t
  refine funext fun a => Fin.ext ?_
  match a with
  | ⟨0, _⟩ => show win0_3.index t (0 : Fin 2) * 5000 + 1 * p.val = r.val; omega
  | ⟨1, _⟩ => show win0_3.index t (1 : Fin 2) * 512 + 1 * q.val = q.val; omega

/-- WHAT POINT t WRITES BACK is its block of the whole-array function. -/
theorem flushed_eq (c : Dev nD) (t : Fin cfg0.N) :
    (Rg0.dat (F := Ideal) V c).flushed 3 t = ((cfg0.win 3).blk t).view.read (Elt Ideal) (wholeOut V c) := by
  show (cfg0.win 3).cut (grid0.coords t) ((Rg0.dat (F := Ideal) V c).after 3 t) = _
  rw [Rg0.after_3]
  unfold Rg0.out3
  rw [View.canon_unit_zero zero_offsets]
  simp only [View.ld_unit_zero (S := S5000x128) zero_offsets, View.ld_unit_zero (S := S128x512) zero_offsets,
    View.ld_unit_zero (S := S1x512) zero_offsets]
  funext j
  obtain ⟨p, q, rfl⟩ : ∃ (p : Fin 5000) (q : Fin 512), j = ix2 p q := ⟨j 0, j 1, eq_ix2 j⟩
  show k0_pay1 (F := Ideal) (Rg0.iblk V c 0 t) (Rg0.iblk V c 1 t) (Rg0.iblk V c 2 t) (ix2 p q)
    = wholeOut V c (((cfg0.win 3).blk t).view.emb (ix2 p q))
  have ht : t.val < 10 := lt_of_lt_of_eq t.isLt N_0
  have hp : p.val < 5000 := p.isLt
  obtain ⟨r, hr⟩ : ∃ r : Fin 50000, r.val = 5000 * t.val + p.val := ⟨⟨5000 * t.val + p.val, by omega⟩, rfl⟩
  rw [out_block_index t p q r hr]
  exact stored_entry (Rg0.iblk V c 0 t) (Rg0.iblk V c 1 t) (Rg0.iblk V c 2 t) (V c main_arg0) (V c main_v0) (V c main_v2)
    p q r (fun k => features_block V c t p k r hr) (fun k => weights_block V c t k q) (bias_block V c t 0 q)

/-- An index of the array lies in point t's block iff each coordinate lies in the block's range on its axis. -/
theorem mem_block (t : Fin cfg0.N) (i : S50000x512.Idx) :
    i ∈ ((cfg0.win 3).blk t).view.set ↔ ∀ a : Fin 2, win0_3.index t a * S5000x512.size a ≤ (i a).val
      ∧ (i a).val < win0_3.index t a * S5000x512.size a + S5000x512.size a := by
  show i ∈ ((View.whole main_v3).slice (win0_3.rect t)).set ↔ _
  rw [View.set_slice_whole, Rect.mem_set_unit]
  exact Iff.rfl

/-- Every index of the array is in the block of the point its row number divided by 5000 names, and every point
    writes its block back. -/
theorem covered (i : S50000x512.Idx) :
    ∃ t : Fin cfg0.N, (cfg0.win 3).flush t = true ∧ i ∈ ((cfg0.win 3).blk t).view.set := by
  have h0 : (i 0).val < 50000 := idx2_lt0 i
  have h1 : (i 1).val < 512 := idx2_lt1 i
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 512 ≤ (i 1).val ∧ (i 1).val < win0_3.index t (1 : Fin 2) * 512 + 512
    omega

/-- THE ARRAY after the region, read at (r, c). -/
theorem final (c : Dev nD) (r : Fin 50000) (col : Fin 512) :
    (Rg0.dat (F := Ideal) V c).arrAt 3 cfg0.N (ix2 r col) = Spec.nodeLin (V c main_arg0) (V c main_v0) (V c main_v2) r col :=
  congrFun ((Rg0.dat (F := Ideal) V c).arrAt_eq_of_cover 3 (wholeOut V c) (fun t _ => flushed_eq V c t) covered) (ix2 r col)

end Cert.KernelIdeal.Val0

end
-- ==== Proof.KI.Val1.lean ====
/-
  What region 1 leaves in its two output arrays, at the extended reals: the 800000 x 256 array holds the gated
  numerator in its left half and the gate in its right half; the 800000 x 128 array holds the edge output.
-/
import proofs.«416705_j44006234914975_2_alg».proof.Proof.KI.R1
import proofs.«416705_j44006234914975_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val1

open Cert.KernelIdeal Cert.KernelIdeal.Gen
open Idealize.ShloMosaic Idealize.ShloMosaic.TcCoe Idealize.ShloMosaic.ValueIdx
open Idealize.SL.Sem
open Idealize.ShloMosaic.Pipeline (Dat)

/-! ## Column forms of the layout operations -/

/-- A vector of `a` entries cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The matrix product at an index -/

theorem lhs_axis0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs_axis1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem rhs_axis0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem rhs_axis1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The block's matrix product into the zero splat, at row `p` and lane `q`: the sum over the 128 contracted lanes. -/
theorem matmul_at (A : FVec Ideal S3200x128 .bf16) (B : FVec Ideal S128x128 .bf16) (p : Fin 3200) (q : Fin 128) :
    matmul dot_S3200x128_S128x128_S3200x128_1_0_0_1_n_n none A B (constant (F := Ideal) S3200x128 .f32 0x00000000#32) (ix2 p q)
      = ∑ k : Fin 128, A (ix2 p k) * B (ix2 k q) := by
  simp only [matmul]
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 p q) ((contrEquiv1 dot_S3200x128_S128x128_S3200x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S3200x128_S128x128_S3200x128_1_0_0_1_n_n.rhsIdx (ix2 p q) ((contrEquiv1 dot_S3200x128_S128x128_S3200x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The lane sum at a row -/

/-- The sum over a block's lanes, read at row `p`. -/
theorem laneSum_at (src : FVec Ideal S3200x128 .f32) (hφ : FKind.Formats .f32)
    (hacc : (0x00000000#32 : BitVec 32) = FKind.add.neutral .f32 hφ) (p : Fin 3200) :
    multiReduction (F := Ideal) .add [1] S3200 src 0x00000000#32 reduces_S3200x128_S3200 hφ hacc (ix1 p)
      = ∑ k : Fin 128, src (ix2 p k) := by
  refine (Ideal.multiReduction_add_single src 0x00000000#32 reduces_S3200x128_S3200 hφ hacc (ix1 p)).trans ?_
  refine Finset.sum_congr rfl fun k _ => congrArg src (funext fun a => Fin.ext ?_)
  match a with
  | ⟨0, _⟩ => rfl
  | ⟨1, _⟩ => rfl

/-! ## The body's values at a row and lane -/

theorem logistic_at {s : Shape} {φ : FTy} (a : FVec Ideal s φ) (i : s.Idx) : logistic a i = Ideal.logistic (a i) := rfl
theorem rsqrt_at {s : Shape} {φ : FTy} (a : FVec Ideal s φ) (i : s.Idx) : rsqrt a i = Ideal.rsqrt (a i) := rfl

/-- The pre-activation at row `p` and lane `q`, from the operands the body loads: the two gathered terms, plus the
    row of edge features times the weights plus the bias. -/
def mAt (v0 : Vec Ideal S3200x128 .f32) (v2 : Vec Ideal S128x128 .f32) (v5 : Vec Ideal S1x128 .f32)
    (v9 v13 : Vec Ideal S3200x128 .f32) (p : Fin 3200) (q : Fin 128) : EReal :=
  (v9 (ix2 p q) + v13 (ix2 p q)) + ((∑ k : Fin 128, v0 (ix2 p k) * v2 (ix2 k q)) + v5 (ix2 (0 : Fin 1) q))

theorem pay2_at (v0 : Vec Ideal S3200x128 .f32) (v2 : Vec Ideal S128x128 .f32) (v5 : Vec Ideal S1x128 .f32)
    (v9 v13 : Vec Ideal S3200x128 .f32) (p : Fin 3200) (q : Fin 128) :
    k1_pay2 v0 v2 v5 v9 v13 (ix2 p q) = mAt v0 v2 v5 v9 v13 p q := by
  unfold k1_pay2 mAt
  simp only [addf_apply, shapeCast_self, broadcastTo_1b_ab_apply, matmul_at, truncf_apply]

/-- The gate. -/
theorem pay3_at (v0 : Vec Ideal S3200x128 .f32) (v2 : Vec Ideal S128x128 .f32) (v5 : Vec Ideal S1x128 .f32)
    (v9 v13 : Vec Ideal S3200x128 .f32) (p : Fin 3200) (q : Fin 128) :
    k1_pay3 v0 v2 v5 v9 v13 (ix2 p q) = Ideal.logistic (mAt v0 v2 v5 v9 v13 p q) := by
  unfold k1_pay3
  simp only [logistic_at, pay2_at]

/-- The gated numerator. -/
theorem pay4_at (v0 : Vec Ideal S3200x128 .f32) (v2 : Vec Ideal S128x128 .f32) (v5 : Vec Ideal S1x128 .f32)
    (v9 v11 v13 : Vec Ideal S3200x128 .f32) (p : Fin 3200) (q : Fin 128) :
    k1_pay4 v0 v2 v5 v9 v11 v13 (ix2 p q) = v11 (ix2 p q) * Ideal.logistic (mAt v0 v2 v5 v9 v13 p q) := by
  unfold k1_pay4
  simp only [mulf_apply, shapeCast_self, pay3_at]

/-- A block's lane sum, as a column, over the splat of 128: the mean of the row, whatever the row's entries are
    known to be. -/
theorem mean_of_laneSum (src : FVec Ideal S3200x128 .f32) (g : Fin 128 → EReal) (hφ : FKind.Formats .f32)
    (hacc : (0x00000000#32 : BitVec 32) = FKind.add.neutral .f32 hφ) (p : Fin 3200) (u : Fin 1)
    (hg : ∀ k, src (ix2 p k) = g k) :
    divf (shapeCast S3200x1 (multiReduction (F := Ideal) .add [1] S3200 src 0x00000000#32 reduces_S3200x128_S3200 hφ hacc)
        shapeCasts_S3200_S3200x1) (broadcast S3200x1 (Scalar.ofBits .f32 0x43000000#32 : Ideal .f32)) (ix2 p u)
      = Spec.mean128 g := by
  rw [divf_apply, shapeCast_a_a1_apply, broadcast_apply, laneSum_at]
  unfold Spec.mean128
  simp only [hg]
  rfl

/-- The row's mean. -/
theorem pay5_at (v0 : Vec Ideal S3200x128 .f32) (v2 : Vec Ideal S128x128 .f32) (v5 : Vec Ideal S1x128 .f32)
    (v9 v13 : Vec Ideal S3200x128 .f32) (p : Fin 3200) (u : Fin 1) :
    k1_pay5 v0 v2 v5 v9 v13 (ix2 p u) = Spec.mean128 (fun k => mAt v0 v2 v5 v9 v13 p k) := by
  unfold k1_pay5
  exact mean_of_laneSum _ _ _ _ p u (fun k => pay2_at v0 v2 v5 v9 v13 p k)

/-- The row's deviation from its mean. -/
theorem pay7_at (v0 : Vec Ideal S3200x128 .f32) (v2 : Vec Ideal S128x128 .f32) (v5 : Vec Ideal S1x128 .f32)
    (v9 v13 : Vec Ideal S3200x128 .f32) (p : Fin 3200) (q : Fin 128) :
    k1_pay7 v0 v2 v5 v9 v13 (ix2 p q)
      = mAt v0 v2 v5 v9 v13 p q - Spec.mean128 (fun k => mAt v0 v2 v5 v9 v13 p k) := by
  unfold k1_pay7
  simp only [subf_apply, broadcastTo_a1_ab_apply, pay2_at, pay5_at]

/-- The row's variance: the mean of the squared deviations. -/
theorem pay6_at (v0 : Vec Ideal S3200x128 .f32) (v2 : Vec Ideal S128x128 .f32) (v5 : Vec Ideal S1x128 .f32)
    (v9 v13 : Vec Ideal S3200x128 .f32) (p : Fin 3200) (u : Fin 1) :
    k1_pay6 v0 v2 v5 v9 v13 (ix2 p u)
      = Spec.mean128 (fun k => (mAt v0 v2 v5 v9 v13 p k - Spec.mean128 (fun k => mAt v0 v2 v5 v9 v13 p k))
          * (mAt v0 v2 v5 v9 v13 p k - Spec.mean128 (fun k => mAt v0 v2 v5 v9 v13 p k))) := by
  unfold k1_pay6
  refine mean_of_laneSum _ _ _ _ p u (fun k => ?_)
  simp only [mulf_apply, subf_apply, broadcastTo_a1_ab_apply, pay2_at, pay5_at]

/-- The splat of the small constant. -/
theorem pay8_at (p : Fin 3200) (u : Fin 1) : (k1_pay8 (F := Ideal)) (ix2 p u) = Spec.eps5 := rfl

/-- The edge output from the variance, the deviation, the constant and the two parameter rows. -/
theorem pay1_at (v0 : Vec Ideal S3200x128 .f32) (v31 : FVec Ideal S3200x1 .f32) (v33 : FVec Ideal S3200x128 .f32)
    (v34 : FVec Ideal S3200x1 .f32) (v39 v43 : Vec Ideal S1x128 .f32) (p : Fin 3200) (q : Fin 128) :
    k1_pay1 v0 v31 v33 v34 v39 v43 (ix2 p q)
      = v0 (ix2 p q) + Spec.silu (((v33 (ix2 p q) * Ideal.rsqrt (v31 (ix2 p (0 : Fin 1)) + v34 (ix2 p (0 : Fin 1))))
          * v39 (ix2 (0 : Fin 1) q)) + v43 (ix2 (0 : Fin 1) q)) := by
  unfold k1_pay1 Spec.silu
  simp only [addf_apply, mulf_apply, logistic_at, rsqrt_at, shapeCast_self, broadcastTo_1b_ab_apply,
    broadcastTo_a1_ab_apply]

/-! ## The staging buffers after the body, at a row and lane -/

theorem zeroOff : (![0, 0] : Fin 2 → Nat) = fun _ => 0 := funext fun a => by fin_cases a <;> rfl

/-- A load of the left 128 columns of a 256-column buffer reads, at `(p, q)`, the buffer at column `q`. -/
theorem ldL_at (X : Vec Ideal S3200x256 .f32) (p : Fin 3200) (q : Fin 128) :
    View.ld X Rg1.rL (ix2 p q) = X (ix2 p (Spec.lo q)) := by
  show X (Rg1.rL.idx (ix2 p q)) = X (ix2 p (Spec.lo q))
  refine congrArg X (funext fun a => Fin.ext ?_)
  match a with
  | ⟨0, _⟩ => show 0 + 1 * p.val = p.val; omega
  | ⟨1, _⟩ => show 0 + 1 * q.val = q.val; omega

/-- A load of the right 128 columns reads, at `(p, q)`, the buffer at column `128 + q`. -/
theorem ldH_at (X : Vec Ideal S3200x256 .f32) (p : Fin 3200) (q : Fin 128) :
    View.ld X Rg1.rH (ix2 p q) = X (ix2 p (Spec.hi q)) := by
  show X (Rg1.rH.idx (ix2 p q)) = X (ix2 p (Spec.hi q))
  refine congrArg X (funext fun a => Fin.ext ?_)
  match a with
  | ⟨0, _⟩ => show 0 + 1 * p.val = p.val; omega
  | ⟨1, _⟩ => show 128 + 1 * q.val = 128 + q.val; omega

/-- Column `q` of the left half is the left rectangle's own index `(p, q)` placed in the buffer. -/
theorem embL (p : Fin 3200) (q : Fin 128) : Rg1.rL.emb (ix2 p q) = (ix2 p (Spec.lo q) : S3200x256.Idx) :=
  funext fun a => Fin.ext (by
    match a with
    | ⟨0, _⟩ => show 0 + 1 * p.val = p.val; omega
    | ⟨1, _⟩ => show 0 + 1 * q.val = q.val; omega)

/-- Column `128 + q` is the right rectangle's own index `(p, q)` placed in the buffer. -/
theorem embH (p : Fin 3200) (q : Fin 128) : Rg1.rH.emb (ix2 p q) = (ix2 p (Spec.hi q) : S3200x256.Idx) :=
  funext fun a => Fin.ext (by
    match a with
    | ⟨0, _⟩ => show 0 + 1 * p.val = p.val; omega
    | ⟨1, _⟩ => show 128 + 1 * q.val = 128 + q.val; omega)

/-- A column of the left half is not under the right rectangle. -/
theorem lo_not_mem_rH (p : Fin 3200) (q : Fin 128) : (ix2 p (Spec.lo q) : S3200x256.Idx) ∉ Rg1.rH.set := by
  rw [Rect.mem_set_unit]
  intro h
  have h1 : (128 : ℕ) ≤ q.val := (h 1).1
  have := q.isLt
  omega

/-- Two stores, the later into the right half and the earlier into the left: a column of the left half reads the
    earlier store's payload, -/
theorem canon_two_lo (w1 w2 : FVec Ideal S3200x128 .f32) (p : Fin 3200) (q : Fin 128) :
    View.canon ([⟨Rg1.rH, w1⟩, ⟨Rg1.rL, w2⟩] : List (View.Piece (Elt Ideal) S3200x256 .f32)) (ix2 p (Spec.lo q)) = w2 (ix2 p q) := by
  rw [View.canon_cons_of_not_mem (⟨Rg1.rH, w1⟩ : View.Piece (Elt Ideal) S3200x256 .f32) [⟨Rg1.rL, w2⟩] (lo_not_mem_rH p q),
    ← embL, View.canon_cons_emb]

/-- and a column of the right half the later store's. -/
theorem canon_two_hi (w1 w2 : FVec Ideal S3200x128 .f32) (p : Fin 3200) (q : Fin 128) :
    View.canon ([⟨Rg1.rH, w1⟩, ⟨Rg1.rL, w2⟩] : List (View.Piece (Elt Ideal) S3200x256 .f32)) (ix2 p (Spec.hi q)) = w1 (ix2 p q) := by
  rw [← embH, View.canon_cons_emb]

/-- The pre-activation of edge `e` from a block whose row `p` is that edge's row of each array. -/
theorem mAt_eq (x0 : Vec Ideal S3200x128 .f32) (x1 : Vec Ideal S3200x256 .f32) (x2 : Vec Ideal S3200x128 .f32)
    (x3 : Vec Ideal S128x128 .f32) (x4 : Vec Ideal S1x128 .f32)
    (ef : FVec Ideal Spec.SE128 .f32) (g5 : FVec Ideal Spec.SE256 .f32) (g7 : FVec Ideal Spec.SE128 .f32)
    (We : FVec Ideal Spec.SW128 .f32) (be : FVec Ideal Spec.SR128 .f32) (p : Fin 3200) (e : Fin 800000)
    (h0 : ∀ k : Fin 128, x0 (ix2 p k) = ef (ix2 e k)) (h1 : ∀ cc : Fin 256, x1 (ix2 p cc) = g5 (ix2 e cc))
    (h2 : ∀ k : Fin 128, x2 (ix2 p k) = g7 (ix2 e k)) (h3 : ∀ k j : Fin 128, x3 (ix2 k j) = We (ix2 k j))
    (h4 : ∀ j : Fin 128, x4 (ix2 (0 : Fin 1) j) = be (ix2 (0 : Fin 1) j)) (q : Fin 128) :
    mAt x0 x3 x4 (View.ld x1 Rg1.rL) x2 p q = Spec.edgeM ef g5 g7 We be e q := by
  unfold mAt Spec.edgeM
  rw [ldL_at, h1, h2, h4]
  simp only [h0, h3]

/-- Window 7's buffer after the body, left half: the gated numerator of the row's edge. -/
theorem out7_lo (x0 : Vec Ideal S3200x128 .f32) (x1 : Vec Ideal S3200x256 .f32) (x2 : Vec Ideal S3200x128 .f32)
    (x3 : Vec Ideal S128x128 .f32) (x4 : Vec Ideal S1x128 .f32)
    (ef : FVec Ideal Spec.SE128 .f32) (g5 : FVec Ideal Spec.SE256 .f32) (g7 : FVec Ideal Spec.SE128 .f32)
    (We : FVec Ideal Spec.SW128 .f32) (be : FVec Ideal Spec.SR128 .f32) (p : Fin 3200) (e : Fin 800000)
    (h0 : ∀ k : Fin 128, x0 (ix2 p k) = ef (ix2 e k)) (h1 : ∀ cc : Fin 256, x1 (ix2 p cc) = g5 (ix2 e cc))
    (h2 : ∀ k : Fin 128, x2 (ix2 p k) = g7 (ix2 e k)) (h3 : ∀ k j : Fin 128, x3 (ix2 k j) = We (ix2 k j))
    (h4 : ∀ j : Fin 128, x4 (ix2 (0 : Fin 1) j) = be (ix2 (0 : Fin 1) j)) (q : Fin 128) :
    Rg1.out7 x0 x1 x2 x3 x4 (ix2 p (Spec.lo q)) = Spec.numSigL ef g5 g7 We be e q := by
  unfold Rg1.out7 Spec.numSigL
  rw [canon_two_lo]
  simp only [View.ld_unit_zero (S := S3200x128) zeroOff, View.ld_unit_zero (S := S128x128) zeroOff,
    View.ld_unit_zero (S := S1x128) zeroOff]
  rw [pay4_at, ldH_at, h1, mAt_eq x0 x1 x2 x3 x4 ef g5 g7 We be p e h0 h1 h2 h3 h4 q]

/-- Window 7's buffer after the body, right half: the gate of the row's edge. -/
theorem out7_hi (x0 : Vec Ideal S3200x128 .f32) (x1 : Vec Ideal S3200x256 .f32) (x2 : Vec Ideal S3200x128 .f32)
    (x3 : Vec Ideal S128x128 .f32) (x4 : Vec Ideal S1x128 .f32)
    (ef : FVec Ideal Spec.SE128 .f32) (g5 : FVec Ideal Spec.SE256 .f32) (g7 : FVec Ideal Spec.SE128 .f32)
    (We : FVec Ideal Spec.SW128 .f32) (be : FVec Ideal Spec.SR128 .f32) (p : Fin 3200) (e : Fin 800000)
    (h0 : ∀ k : Fin 128, x0 (ix2 p k) = ef (ix2 e k)) (h1 : ∀ cc : Fin 256, x1 (ix2 p cc) = g5 (ix2 e cc))
    (h2 : ∀ k : Fin 128, x2 (ix2 p k) = g7 (ix2 e k)) (h3 : ∀ k j : Fin 128, x3 (ix2 k j) = We (ix2 k j))
    (h4 : ∀ j : Fin 128, x4 (ix2 (0 : Fin 1) j) = be (ix2 (0 : Fin 1) j)) (q : Fin 128) :
    Rg1.out7 x0 x1 x2 x3 x4 (ix2 p (Spec.hi q)) = Spec.numSigR ef g5 g7 We be e q := by
  unfold Rg1.out7 Spec.numSigR
  rw [canon_two_hi]
  simp only [View.ld_unit_zero (S := S3200x128) zeroOff, View.ld_unit_zero (S := S128x128) zeroOff,
    View.ld_unit_zero (S := S1x128) zeroOff]
  rw [pay3_at, mAt_eq x0 x1 x2 x3 x4 ef g5 g7 We be p e h0 h1 h2 h3 h4 q]

/-- Window 8's buffer after the body: the edge output of the row's edge. -/
theorem out8_at (x0 : Vec Ideal S3200x128 .f32) (x1 : Vec Ideal S3200x256 .f32) (x2 : Vec Ideal S3200x128 .f32)
    (x3 : Vec Ideal S128x128 .f32) (x4 x5 x6 : Vec Ideal S1x128 .f32)
    (ef : FVec Ideal Spec.SE128 .f32) (g5 : FVec Ideal Spec.SE256 .f32) (g7 : FVec Ideal Spec.SE128 .f32)
    (We : FVec Ideal Spec.SW128 .f32) (be ge bte : FVec Ideal Spec.SR128 .f32) (p : Fin 3200) (e : Fin 800000)
    (h0 : ∀ k : Fin 128, x0 (ix2 p k) = ef (ix2 e k)) (h1 : ∀ cc : Fin 256, x1 (ix2 p cc) = g5 (ix2 e cc))
    (h2 : ∀ k : Fin 128, x2 (ix2 p k) = g7 (ix2 e k)) (h3 : ∀ k j : Fin 128, x3 (ix2 k j) = We (ix2 k j))
    (h4 : ∀ j : Fin 128, x4 (ix2 (0 : Fin 1) j) = be (ix2 (0 : Fin 1) j))
    (h5 : ∀ j : Fin 128, x5 (ix2 (0 : Fin 1) j) = ge (ix2 (0 : Fin 1) j))
    (h6 : ∀ j : Fin 128, x6 (ix2 (0 : Fin 1) j) = bte (ix2 (0 : Fin 1) j)) (q : Fin 128) :
    Rg1.out8 x0 x1 x2 x3 x4 x5 x6 (ix2 p q) = Spec.edgeOut ef g5 g7 We be ge bte e q := by
  unfold Rg1.out8 Spec.edgeOut Spec.lnAt
  rw [View.canon_unit_zero zeroOff]
  simp only [View.ld_unit_zero (S := S3200x128) zeroOff, View.ld_unit_zero (S := S128x128) zeroOff,
    View.ld_unit_zero (S := S1x128) zeroOff]
  rw [pay1_at, pay6_at, pay7_at, pay8_at, h0, h5, h6]
  simp only [mAt_eq x0 x1 x2 x3 x4 ef g5 g7 We be p e h0 h1 h2 h3 h4]

/-! ## From blocks to the arrays -/

/-- The windows' index maps, decided over the grid: the windows over the 800000-row arrays sit at block `t` of the
    rows and block zero of the columns; the weights' and the parameter rows' windows at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- A grid point is below 250. -/
theorem point_lt (t : Fin cfg1.N) : t.val < 250 := lt_of_lt_of_eq t.isLt N_1

/-- Row `p` of block `t` is row `3200 t + p` of an 800000-row array. -/
def rowAt (t : Fin cfg1.N) (p : Fin 3200) : Fin 800000 :=
  ⟨3200 * t.val + p.val, by have := point_lt t; have := p.isLt; omega⟩

variable (V : (c : Dev nD) → (b : Ref sig .tc) → Buf (Elt Ideal) ((c : Thread nD τ).loc b))

/-- The edge features' block at point `t`, row `p`: the array's row `3200 t + p`. -/
theorem iblk0_at (c : Dev nD) (t : Fin cfg1.N) (p : Fin 3200) (k : Fin 128) :
    (Rg1.iblk V c 0 t : Vec Ideal S3200x128 .f32) (ix2 p k) = (V c main_arg1 : FVec Ideal Spec.SE128 .f32) (ix2 (rowAt t p) k) := by
  obtain ⟨e0, e1, -⟩ := idx_facts t
  show V c main_arg1 (((cfg1.win 0).blk t).view.emb (ix2 p k)) = V c main_arg1 (ix2 (rowAt t p) k)
  refine congrArg (V c main_arg1) (funext fun a => Fin.ext ?_)
  match a with
  | ⟨0, _⟩ => show win1_0.index t (0 : Fin 2) * 3200 + 1 * p.val = 3200 * t.val + p.val; rw [e0]; omega
  | ⟨1, _⟩ => show win1_0.index t (1 : Fin 2) * 128 + 1 * k.val = k.val; rw [e1]; omega

/-- The first gathered slab's block, likewise. -/
theorem iblk1_at (c : Dev nD) (t : Fin cfg1.N) (p : Fin 3200) (k : Fin 256) :
    (Rg1.iblk V c 1 t : Vec Ideal S3200x256 .f32) (ix2 p k) = (V c main_v5 : FVec Ideal Spec.SE256 .f32) (ix2 (rowAt t p) k) := by
  obtain ⟨-, -, e0, e1, -⟩ := idx_facts t
  show V c main_v5 (((cfg1.win 1).blk t).view.emb (ix2 p k)) = V c main_v5 (ix2 (rowAt t p) k)
  refine congrArg (V c main_v5) (funext fun a => Fin.ext ?_)
  match a with
  | ⟨0, _⟩ => show win1_1.index t (0 : Fin 2) * 3200 + 1 * p.val = 3200 * t.val + p.val; rw [e0]; omega
  | ⟨1, _⟩ => show win1_1.index t (1 : Fin 2) * 256 + 1 * k.val = k.val; rw [e1]; omega

/-- The second gathered slab's block, likewise. -/
theorem iblk2_at (c : Dev nD) (t : Fin cfg1.N) (p : Fin 3200) (k : Fin 128) :
    (Rg1.iblk V c 2 t : Vec Ideal S3200x128 .f32) (ix2 p k) = (V c main_v7 : FVec Ideal Spec.SE128 .f32) (ix2 (rowAt t p) k) := by
  obtain ⟨-, -, -, -, e0, e1, -⟩ := idx_facts t
  show V c main_v7 (((cfg1.win 2).blk t).view.emb (ix2 p k)) = V c main_v7 (ix2 (rowAt t p) k)
  refine congrArg (V c main_v7) (funext fun a => Fin.ext ?_)
  match a with
  | ⟨0, _⟩ => show win1_2.index t (0 : Fin 2) * 3200 + 1 * p.val = 3200 * t.val + p.val; rw [e0]; omega
  | ⟨1, _⟩ => show win1_2.index t (1 : Fin 2) * 128 + 1 * k.val = k.val; rw [e1]; omega

/-- The weights' block is the whole matrix. -/
theorem iblk3_at (c : Dev nD) (t : Fin cfg1.N) (k j : Fin 128) :
    (Rg1.iblk V c 3 t : Vec Ideal S128x128 .f32) (ix2 k j) = (V c main_arg8 : FVec Ideal Spec.SW128 .f32) (ix2 k j) := by
  obtain ⟨-, -, -, -, -, -, e0, e1, -⟩ := idx_facts t
  show V c main_arg8 (((cfg1.win 3).blk t).view.emb (ix2 k j)) = V c main_arg8 (ix2 k j)
  refine congrArg (V c main_arg8) (funext fun a => Fin.ext ?_)
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- Each parameter row's block is the whole row. -/
theorem iblk4_at (c : Dev nD) (t : Fin cfg1.N) (j : Fin 128) :
    (Rg1.iblk V c 4 t : Vec Ideal S1x128 .f32) (ix2 (0 : Fin 1) j) = (V c main_v8 : FVec Ideal Spec.SR128 .f32) (ix2 (0 : Fin 1) j) := by
  obtain ⟨-, -, -, -, -, -, -, -, e0, e1, -⟩ := idx_facts t
  show V c main_v8 (((cfg1.win 4).blk t).view.emb (ix2 (0 : Fin 1) j)) = V c main_v8 (ix2 (0 : Fin 1) j)
  refine congrArg (V c main_v8) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega
theorem iblk5_at (c : Dev nD) (t : Fin cfg1.N) (j : Fin 128) :
    (Rg1.iblk V c 5 t : Vec Ideal S1x128 .f32) (ix2 (0 : Fin 1) j) = (V c main_v9 : FVec Ideal Spec.SR128 .f32) (ix2 (0 : Fin 1) j) := by
  obtain ⟨-, -, -, -, -, -, -, -, -, -, e0, e1, -⟩ := idx_facts t
  show V c main_v9 (((cfg1.win 5).blk t).view.emb (ix2 (0 : Fin 1) j)) = V c main_v9 (ix2 (0 : Fin 1) j)
  refine congrArg (V c main_v9) (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega
theorem iblk6_at (c : Dev nD) (t : Fin cfg1.N) (j : Fin 128) :
    (Rg1.iblk V c 6 t : Vec Ideal S1x128 .f32) (ix2 (0 : Fin 1) j) = (V c main_v10 : FVec Ideal Spec.SR128 .f32) (ix2 (0 : Fin 1) j) := by
  obtain ⟨-, -, -, -, -, -, -, -, -, -, -, -, e0, e1, -⟩ := idx_facts t
  show V c main_v10 (((cfg1.win 6).blk t).view.emb (ix2 (0 : Fin 1) j)) = V c main_v10 (ix2 (0 : Fin 1) j)
  refine congrArg (V c main_v10) (funext fun a => Fin.ext ?_)
  match a with
  | ⟨0, _⟩ => show win1_6.index t (0 : Fin 2) * 1 + 1 * 0 = 0; rw [e0]
  | ⟨1, _⟩ => show win1_6.index t (1 : Fin 2) * 128 + 1 * j.val = j.val; rw [e1]; omega

/-! ## Window 7: the gated numerator and the gate -/

/-- What the first output array ends holding: the gated numerator in its left half, the gate in its right half. -/
def G7 (ef : FVec Ideal Spec.SE128 .f32) (g5 : FVec Ideal Spec.SE256 .f32) (g7 : FVec Ideal Spec.SE128 .f32)
    (We : FVec Ideal Spec.SW128 .f32) (be : FVec Ideal Spec.SR128 .f32) : FVec Ideal Spec.SE256 .f32 := fun i =>
  if h : (i 1).val < 128 then Spec.numSigL ef g5 g7 We be ⟨(i 0).val, idx2_lt0 i⟩ ⟨(i 1).val, h⟩
  else Spec.numSigR ef g5 g7 We be ⟨(i 0).val, idx2_lt0 i⟩ ⟨(i 1).val - 128, by have := idx2_lt1 i; omega⟩

theorem G7_lo (ef : FVec Ideal Spec.SE128 .f32) (g5 : FVec Ideal Spec.SE256 .f32) (g7 : FVec Ideal Spec.SE128 .f32)
    (We : FVec Ideal Spec.SW128 .f32) (be : FVec Ideal Spec.SR128 .f32) (e : Fin 800000) (q : Fin 128) :
    G7 ef g5 g7 We be (ix2 e (Spec.lo q)) = Spec.numSigL ef g5 g7 We be e q := by
  unfold G7
  rw [dif_pos (show (ix2 e (Spec.lo q) (1 : Fin 2)).val < 128 from q.isLt)]
  rfl

theorem G7_hi (ef : FVec Ideal Spec.SE128 .f32) (g5 : FVec Ideal Spec.SE256 .f32) (g7 : FVec Ideal Spec.SE128 .f32)
    (We : FVec Ideal Spec.SW128 .f32) (be : FVec Ideal Spec.SR128 .f32) (e : Fin 800000) (q : Fin 128) :
    G7 ef g5 g7 We be (ix2 e (Spec.hi q)) = Spec.numSigR ef g5 g7 We be e q := by
  unfold G7
  rw [dif_neg (show ¬ (ix2 e (Spec.hi q) (1 : Fin 2)).val < 128 from by show ¬ (128 + q.val < 128); omega)]
  congr 1
  exact Fin.ext (by show 128 + q.val - 128 = q.val; omega)

/-- Block `t` of the first output, entry by entry, is block `t` of that function of the arrays the region reads. -/
theorem block7_at (c : Dev nD) (t : Fin cfg1.N) (y : S3200x256.Idx) :
    Rg1.out7 (Rg1.iblk V c 0 t) (Rg1.iblk V c 1 t) (Rg1.iblk V c 2 t) (Rg1.iblk V c 3 t) (Rg1.iblk V c 4 t) y
      = G7 (V c main_arg1) (V c main_v5) (V c main_v7) (V c main_arg8) (V c main_v8) (((cfg1.win 7).blk t).view.emb y) := by
  obtain ⟨p, cc, rfl⟩ : ∃ (p : Fin 3200) (cc : Fin 256), y = ix2 p cc := ⟨y 0, y 1, eq_ix2 y⟩
  obtain ⟨-, -, -, -, -, -, -, -, -, -, -, -, -, -, e0, e1, -⟩ := idx_facts t
  have hemb : ((cfg1.win 7).blk t).view.emb (ix2 p cc) = (ix2 (rowAt t p) cc : S800000x256.Idx) := funext fun a => Fin.ext (by
    match a with
    | ⟨0, _⟩ => show win1_7.index t (0 : Fin 2) * 3200 + 1 * p.val = 3200 * t.val + p.val; rw [e0]; omega
    | ⟨1, _⟩ => show win1_7.index t (1 : Fin 2) * 256 + 1 * cc.val = cc.val; rw [e1]; omega)
  rw [hemb]
  rcases Nat.lt_or_ge cc.val 128 with h | h
  · obtain ⟨q, rfl⟩ : ∃ q : Fin 128, cc = Spec.lo q := ⟨⟨cc.val, h⟩, Fin.ext rfl⟩
    rw [G7_lo]
    exact out7_lo _ _ _ _ _ _ _ _ _ _ p (rowAt t p) (iblk0_at V c t p) (iblk1_at V c t p) (iblk2_at V c t p)
      (iblk3_at V c t) (iblk4_at V c t) q
  · obtain ⟨q, rfl⟩ : ∃ q : Fin 128, cc = Spec.hi q :=
      ⟨⟨cc.val - 128, by have := cc.isLt; omega⟩, Fin.ext (by show cc.val = 128 + (cc.val - 128); omega)⟩
    rw [G7_hi]
    exact out7_hi _ _ _ _ _ _ _ _ _ _ p (rowAt t p) (iblk0_at V c t p) (iblk1_at V c t p) (iblk2_at V c t p)
      (iblk3_at V c t) (iblk4_at V c t) q

/-- What point `t` writes back to the first output is block `t` of that function. -/
theorem flushed7_eq (c : Dev nD) (t : Fin cfg1.N) :
    (Rg1.dat (F := Ideal) V c).flushed 7 t = ((cfg1.win 7).blk t).view.read (Elt Ideal)
      (G7 (V c main_arg1) (V c main_v5) (V c main_v7) (V c main_arg8) (V c main_v8)) := by
  show (cfg1.win 7).cut (grid1.coords t) ((Rg1.dat V c).after 7 t) = _
  rw [Rg1.after_7]
  funext y
  show Rg1.out7 (Rg1.iblk V c 0 t) (Rg1.iblk V c 1 t) (Rg1.iblk V c 2 t) (Rg1.iblk V c 3 t) (Rg1.iblk V c 4 t) y
      = G7 (V c main_arg1) (V c main_v5) (V c main_v7) (V c main_arg8) (V c main_v8) (((cfg1.win 7).blk t).view.emb y)
  exact block7_at V c t y

/-- An index of the first output is in point `t`'s block iff each coordinate is in the block's range on its axis. -/
theorem mem_blk7 (t : Fin cfg1.N) (i : S800000x256.Idx) :
    i ∈ ((cfg1.win 7).blk t).view.set ↔ ∀ a : Fin 2, win1_7.index t a * S3200x256.size a ≤ (i a).val ∧ (i a).val < win1_7.index t a * S3200x256.size a + S3200x256.size a := by
  show i ∈ ((View.whole main_v11_0).slice (win1_7.rect t)).set ↔ _
  rw [View.set_slice_whole, Rect.mem_set_unit]
  exact Iff.rfl

/-- Every index of the first output is in the block of the point its row divided by 3200 names. -/
theorem cover7 (i : S800000x256.Idx) :
    ∃ t : Fin cfg1.N, (cfg1.win 7).flush t = true ∧ i ∈ ((cfg1.win 7).blk t).view.set := by
  have hi0 : (i 0).val < 800000 := idx2_lt0 i
  have hi1 : (i 1).val < 256 := idx2_lt1 i
  obtain ⟨t, ht⟩ : ∃ t : Fin cfg1.N, t.val = (i 0).val / 3200 :=
    ⟨⟨(i 0).val / 3200, lt_of_lt_of_eq (by omega : (i 0).val / 3200 < 250) N_1.symm⟩, rfl⟩
  obtain ⟨-, -, -, -, -, -, -, -, -, -, -, -, -, -, e0, e1, -⟩ := idx_facts t
  refine ⟨t, flush1_7 t, ?_⟩
  rw [mem_blk7]
  intro a
  match a with
  | ⟨0, _⟩ => show win1_7.index t (0 : Fin 2) * 3200 ≤ (i 0).val ∧ (i 0).val < win1_7.index t (0 : Fin 2) * 3200 + 3200; rw [e0, ht]; omega
  | ⟨1, _⟩ => show win1_7.index t (1 : Fin 2) * 256 ≤ (i 1).val ∧ (i 1).val < win1_7.index t (1 : Fin 2) * 256 + 256; rw [e1]; omega

/-- The first output array after the region is that function of the arrays the region reads. -/
theorem final7 (c : Dev nD) :
    (Rg1.dat (F := Ideal) V c).arrAt 7 cfg1.N = G7 (V c main_arg1) (V c main_v5) (V c main_v7) (V c main_arg8) (V c main_v8) :=
  (Rg1.dat V c).arrAt_eq_of_cover 7 (G7 (V c main_arg1) (V c main_v5) (V c main_v7) (V c main_arg8) (V c main_v8))
    (fun t _ => flushed7_eq V c t) cover7

/-! ## Window 8: the edge output -/

/-- What the second output array ends holding. -/
def G8 (ef : FVec Ideal Spec.SE128 .f32) (g5 : FVec Ideal Spec.SE256 .f32) (g7 : FVec Ideal Spec.SE128 .f32)
    (We : FVec Ideal Spec.SW128 .f32) (be ge bte : FVec Ideal Spec.SR128 .f32) : FVec Ideal Spec.SE128 .f32 := fun i =>
  Spec.edgeOut ef g5 g7 We be ge bte ⟨(i 0).val, idx2_lt0 i⟩ ⟨(i 1).val, idx2_lt1 i⟩

/-- Block `t` of the second output, entry by entry, is block `t` of that function. -/
theorem block8_at (c : Dev nD) (t : Fin cfg1.N) (y : S3200x128.Idx) :
    Rg1.out8 (Rg1.iblk V c 0 t) (Rg1.iblk V c 1 t) (Rg1.iblk V c 2 t) (Rg1.iblk V c 3 t) (Rg1.iblk V c 4 t)
        (Rg1.iblk V c 5 t) (Rg1.iblk V c 6 t) y
      = G8 (V c main_arg1) (V c main_v5) (V c main_v7) (V c main_arg8) (V c main_v8) (V c main_v9) (V c main_v10)
          (((cfg1.win 8).blk t).view.emb y) := by
  obtain ⟨p, q, rfl⟩ : ∃ (p : Fin 3200) (q : Fin 128), y = ix2 p q := ⟨y 0, y 1, eq_ix2 y⟩
  obtain ⟨-, -, -, -, -, -, -, -, -, -, -, -, -, -, -, -, e0, e1⟩ := idx_facts t
  have hemb : ((cfg1.win 8).blk t).view.emb (ix2 p q) = (ix2 (rowAt t p) q : S800000x128.Idx) := funext fun a => Fin.ext (by
    match a with
    | ⟨0, _⟩ => show win1_8.index t (0 : Fin 2) * 3200 + 1 * p.val = 3200 * t.val + p.val; rw [e0]; omega
    | ⟨1, _⟩ => show win1_8.index t (1 : Fin 2) * 128 + 1 * q.val = q.val; rw [e1]; omega)
  rw [hemb]
  exact out8_at _ _ _ _ _ _ _ _ _ _ _ _ _ _ p (rowAt t p) (iblk0_at V c t p) (iblk1_at V c t p) (iblk2_at V c t p)
    (iblk3_at V c t) (iblk4_at V c t) (iblk5_at V c t) (iblk6_at V c t) q

/-- What point `t` writes back to the second output is block `t` of that function. -/
theorem flushed8_eq (c : Dev nD) (t : Fin cfg1.N) :
    (Rg1.dat (F := Ideal) V c).flushed 8 t = ((cfg1.win 8).blk t).view.read (Elt Ideal)
      (G8 (V c main_arg1) (V c main_v5) (V c main_v7) (V c main_arg8) (V c main_v8) (V c main_v9) (V c main_v10)) := by
  show (cfg1.win 8).cut (grid1.coords t) ((Rg1.dat V c).after 8 t) = _
  rw [Rg1.after_8]
  funext y
  show Rg1.out8 (Rg1.iblk V c 0 t) (Rg1.iblk V c 1 t) (Rg1.iblk V c 2 t) (Rg1.iblk V c 3 t) (Rg1.iblk V c 4 t)
        (Rg1.iblk V c 5 t) (Rg1.iblk V c 6 t) y
      = G8 (V c main_arg1) (V c main_v5) (V c main_v7) (V c main_arg8) (V c main_v8) (V c main_v9) (V c main_v10)
          (((cfg1.win 8).blk t).view.emb y)
  exact block8_at V c t y

/-- An index of the second output is in point `t`'s block iff each coordinate is in the block's range on its axis. -/
theorem mem_blk8 (t : Fin cfg1.N) (i : S800000x128.Idx) :
    i ∈ ((cfg1.win 8).blk t).view.set ↔ ∀ a : Fin 2, win1_8.index t a * S3200x128.size a ≤ (i a).val ∧ (i a).val < win1_8.index t a * S3200x128.size a + S3200x128.size a := by
  show i ∈ ((View.whole main_v11_1).slice (win1_8.rect t)).set ↔ _
  rw [View.set_slice_whole, Rect.mem_set_unit]
  exact Iff.rfl

/-- Every index of the second output is in the block of the point its row divided by 3200 names. -/
theorem cover8 (i : S800000x128.Idx) :
    ∃ t : Fin cfg1.N, (cfg1.win 8).flush t = true ∧ i ∈ ((cfg1.win 8).blk t).view.set := by
  have hi0 : (i 0).val < 800000 := idx2_lt0 i
  have hi1 : (i 1).val < 128 := idx2_lt1 i
  obtain ⟨t, ht⟩ : ∃ t : Fin cfg1.N, t.val = (i 0).val / 3200 :=
    ⟨⟨(i 0).val / 3200, lt_of_lt_of_eq (by omega : (i 0).val / 3200 < 250) N_1.symm⟩, rfl⟩
  obtain ⟨-, -, -, -, -, -, -, -, -, -, -, -, -, -, -, -, e0, e1⟩ := idx_facts t
  refine ⟨t, flush1_8 t, ?_⟩
  rw [mem_blk8]
  intro a
  match a with
  | ⟨0, _⟩ => show win1_8.index t (0 : Fin 2) * 3200 ≤ (i 0).val ∧ (i 0).val < win1_8.index t (0 : Fin 2) * 3200 + 3200; rw [e0, ht]; omega
  | ⟨1, _⟩ => show win1_8.index t (1 : Fin 2) * 128 ≤ (i 1).val ∧ (i 1).val < win1_8.index t (1 : Fin 2) * 128 + 128; rw [e1]; omega

/-- The second output array after the region is that function of the arrays the region reads. -/
theorem final8 (c : Dev nD) :
    (Rg1.dat (F := Ideal) V c).arrAt 8 cfg1.N
      = G8 (V c main_arg1) (V c main_v5) (V c main_v7) (V c main_arg8) (V c main_v8) (V c main_v9) (V c main_v10) :=
  (Rg1.dat V c).arrAt_eq_of_cover 8
    (G8 (V c main_arg1) (V c main_v5) (V c main_v7) (V c main_arg8) (V c main_v8) (V c main_v9) (V c main_v10))
    (fun t _ => flushed8_eq V c t) cover8

/-! ## The three readings -/

/-- The first output array after the region, read in its left half. -/
theorem final_lo (c : Dev nD) (e : Fin 800000) (j : Fin 128) :
    (Rg1.dat (F := Ideal) V c).arrAt 7 cfg1.N (ix2 e (Spec.lo j))
      = Spec.numSigL (V c main_arg1) (V c main_v5) (V c main_v7) (V c main_arg8) (V c main_v8) e j :=
  (congrFun (final7 V c) (ix2 e (Spec.lo j))).trans (G7_lo _ _ _ _ _ e j)

/-- The first output array after the region, read in its right half. -/
theorem final_hi (c : Dev nD) (e : Fin 800000) (j : Fin 128) :
    (Rg1.dat (F := Ideal) V c).arrAt 7 cfg1.N (ix2 e (Spec.hi j))
      = Spec.numSigR (V c main_arg1) (V c main_v5) (V c main_v7) (V c main_arg8) (V c main_v8) e j :=
  (congrFun (final7 V c) (ix2 e (Spec.hi j))).trans (G7_hi _ _ _ _ _ e j)

/-- The second output array after the region. -/
theorem final_out (c : Dev nD) (e : Fin 800000) (j : Fin 128) :
    (Rg1.dat (F := Ideal) V c).arrAt 8 cfg1.N (ix2 e j)
      = Spec.edgeOut (V c main_arg1) (V c main_v5) (V c main_v7) (V c main_arg8) (V c main_v8) (V c main_v9) (V c main_v10) e j :=
  congrFun (final8 V c) (ix2 e j)

end Cert.KernelIdeal.Val1

end
-- ==== Proof.KI.Val2.lean ====
/-
  What region 2 leaves in its output array, at the extended reals: entry (n, j) of the 50000 x 128 array is the node
  output — the node feature plus the SiLU of the layer norm of the update row.
-/
import proofs.«416705_j44006234914975_2_alg».proof.Proof.KI.R2
import proofs.«416705_j44006234914975_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val2

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## Column forms read at an index -/

section Layout
variable {α : Type}

/-- A vector of row values set as a one-lane column: entry (p, u) is the vector's entry p. -/
theorem column_of_vector_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-lane column spread over b lanes: entry (p, q) is the column's entry in row p. -/
theorem column_over_lanes_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## A row's lane sum -/

/-- The sum over the lanes of a 2000 x 128 block, read at row p, is the sum of the row's 128 entries. -/
theorem lane_sum_apply (v : FVec Ideal S2000x128 .f32) (h : S2000x128.Reduces [1] S2000) (hφ : FKind.Formats .f32)
    (hacc : (0x00000000#32 : BitVec 32) = 0x00000000#32) (p : Fin 2000) :
    multiReduction .add [1] S2000 v 0x00000000#32 h hφ hacc (ix1 p) = ∑ k : Fin 128, v (ix2 p k) := by
  refine (Ideal.multiReduction_add_single v 0x00000000#32 h hφ hacc (ix1 p)).trans ?_
  exact Finset.sum_congr rfl fun k _ => congrArg v (funext fun a => Fin.ext (by match a with | ⟨0, _⟩ => rfl | ⟨1, _⟩ => rfl))

/-! ## The body's arithmetic at one entry -/

/-- A reciprocal square root of a block, at an entry, is that of the entry. -/
theorem rsqrt_apply {s : Shape} {φ : FTy} (a : FVec Ideal s φ) (i : s.Idx) : rsqrt a i = Ideal.rsqrt (a i) := rfl
/-- A logistic of a block, at an entry, is that of the entry. -/
theorem logistic_apply {s : Shape} {φ : FTy} (a : FVec Ideal s φ) (i : s.Idx) : logistic a i = Ideal.logistic (a i) := rfl

/-- Entry (p, q) of what the body stores: the node feature plus the SiLU of the layer norm, at lane q, of row p of
    the update (the linear map's quarter plus numerator over gate-plus-epsilon). -/
theorem pay_apply (v0 v2 v7 : Vec Ideal S2000x128 .f32) (v28 v32 : Vec Ideal S1x128 .f32) (v38 : Vec Ideal S2000x128 .f32)
    (p : Fin 2000) (q : Fin 128) :
    k2_pay1 (F := Ideal) v0 v2 v7 v28 v32 v38 (ix2 p q)
      = v38 (ix2 p q) + Spec.silu (Spec.lnAt (fun k => v7 (ix2 p k) + Ideal.div (v0 (ix2 p k)) (v2 (ix2 p k) + Spec.eps6))
          (v28 (ix2 (0 : Fin 1) q)) (v32 (ix2 (0 : Fin 1) q)) q) := by
  unfold k2_pay1
  simp only [shapeCast_self]
  repeat (first
    | rw [lane_sum_apply]
    | simp only [addf_apply, mulf_apply, subf_apply, divf_apply, rsqrt_apply, logistic_apply, broadcast_apply,
        column_over_lanes_apply, column_of_vector_apply, broadcastTo_1b_ab_apply, Ideal.ofBits_def])
  unfold Spec.silu Spec.lnAt Spec.mean128
  rfl

/-! ## Loads through the column rectangles -/

/-- The zero offsets, as a function. -/
theorem hz : (![0, 0] : Fin 2 → Nat) = fun _ => 0 :=
  funext fun a => by match a with | ⟨0, _⟩ => rfl | ⟨1, _⟩ => rfl

/-- Column k of the left half of a 2000 x 256 block is its column k. -/
theorem idx_lo (p : Fin 2000) (k : Fin 128) : Rg2.rL.idx (ix2 p k) = ix2 p (Spec.lo k) :=
  funext fun a => Fin.ext (by
    match a with
    | ⟨0, _⟩ => show 0 + 1 * p.val = p.val; omega
    | ⟨1, _⟩ => show 0 + 1 * k.val = k.val; omega)

/-- Column k of the right half of a 2000 x 256 block is its column 128 + k. -/
theorem idx_hi (p : Fin 2000) (k : Fin 128) : Rg2.rH.idx (ix2 p k) = ix2 p (Spec.hi k) :=
  funext fun a => Fin.ext (by
    match a with
    | ⟨0, _⟩ => show 0 + 1 * p.val = p.val; omega
    | ⟨1, _⟩ => show 128 + 1 * k.val = 128 + k.val; omega)

/-- Column k of the last quarter of a 2000 x 512 block is its column 384 + k. -/
theorem idx_quarter (p : Fin 2000) (k : Fin 128) : Rg2.rQ.idx (ix2 p k) = ix2 p (Spec.qcol 3 k) :=
  funext fun a => Fin.ext (by
    match a with
    | ⟨0, _⟩ => show 0 + 1 * p.val = p.val; omega
    | ⟨1, _⟩ => show 384 + 1 * k.val = 128 * 3 + k.val; omega)

/-- A layer norm of equal rows with equal scale and shift is equal. -/
theorem lnAt_congr {x x' : Fin 128 → EReal} {g g' b b' : EReal} (hx : ∀ k, x k = x' k) (hg : g = g') (hb : b = b')
    (j : Fin 128) : Spec.lnAt x g b j = Spec.lnAt x' g' b' j := by
  rw [funext hx, hg, hb]

/-- Entry (p, q) of the output's staging buffer after the body, from the five input buffers: the node feature plus
    the SiLU of the layer norm, at lane q, of row p of the update. -/
theorem out5_apply (x0 : Vec Ideal S2000x128 .f32) (x1 : Vec Ideal S2000x256 .f32) (x2 : Vec Ideal S2000x512 .f32)
    (x3 x4 : Vec Ideal S1x128 .f32) (p : Fin 2000) (q : Fin 128) :
    Rg2.out5 x0 x1 x2 x3 x4 (ix2 p q)
      = x0 (ix2 p q) + Spec.silu (Spec.lnAt
          (fun k => x2 (ix2 p (Spec.qcol 3 k)) + Ideal.div (x1 (ix2 p (Spec.lo k))) (x1 (ix2 p (Spec.hi k)) + Spec.eps6))
          (x3 (ix2 (0 : Fin 1) q)) (x4 (ix2 (0 : Fin 1) q)) q) := by
  unfold Rg2.out5
  rw [View.canon_unit_zero hz]
  simp only [View.ld_unit_zero (S := S2000x128) hz, View.ld_unit_zero (S := S1x128) hz]
  refine (pay_apply _ _ _ _ _ _ p q).trans ?_
  refine congrArg (fun y => x0 (ix2 p q) + Spec.silu y) (lnAt_congr (fun k => ?_) rfl rfl q)
  show x2 (Rg2.rQ.idx (ix2 p k)) + Ideal.div (x1 (Rg2.rL.idx (ix2 p k))) (x1 (Rg2.rH.idx (ix2 p k)) + Spec.eps6) = _
  rw [idx_lo, idx_hi, idx_quarter]

/-! ## The blocks and the arrays at their literal types -/

/-- The node features' block at point t. -/
abbrev nfBlk (c : Dev nD) (t : Fin cfg2.N) : Vec Ideal S2000x128 .f32 := Rg2.iblk V c 0 t
/-- The scattered sums' block at point t. -/
abbrev sumBlk (c : Dev nD) (t : Fin cfg2.N) : Vec Ideal S2000x256 .f32 := Rg2.iblk V c 1 t
/-- The linear map's block at point t. -/
abbrev linBlk (c : Dev nD) (t : Fin cfg2.N) : Vec Ideal S2000x512 .f32 := Rg2.iblk V c 2 t
/-- The scale row's block at point t. -/
abbrev scaleBlk (c : Dev nD) (t : Fin cfg2.N) : Vec Ideal S1x128 .f32 := Rg2.iblk V c 3 t
/-- The shift row's block at point t. -/
abbrev shiftBlk (c : Dev nD) (t : Fin cfg2.N) : Vec Ideal S1x128 .f32 := Rg2.iblk V c 4 t

/-- The node features as the region finds them. -/
abbrev nfArr (c : Dev nD) : Vec Ideal S50000x128 .f32 := V c main_arg0
/-- The scattered sums as the region finds them. -/
abbrev sumArr (c : Dev nD) : Vec Ideal S50000x256 .f32 := V c main_v14
/-- The linear map as the region finds it. -/
abbrev linArr (c : Dev nD) : Vec Ideal S50000x512 .f32 := V c main_v3
/-- The scale row as the region finds it. -/
abbrev scaleArr (c : Dev nD) : Vec Ideal S1x128 .f32 := V c main_v15
/-- The shift row as the region finds it. -/
abbrev shiftArr (c : Dev nD) : Vec Ideal S1x128 .f32 := V c main_v16

/-- The block indices over the grid: the three row-blocked inputs and the output are at block row t, column block 0;
    the two parameter rows stay at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the node features' block at point t is row 2000 t + p of the array. -/
theorem nfBlk_apply (c : Dev nD) (t : Fin cfg2.N) (p : Fin 2000) (q : Fin 128) (n : Fin 50000)
    (hn : n.val = t.val * 2000 + p.val) : nfBlk V c t (ix2 p q) = nfArr V c (ix2 n q) := by
  obtain ⟨e0, e1, -⟩ := index_facts t
  show nfArr V c (((cfg2.win 0).blk t).view.emb (ix2 p q)) = nfArr V c (ix2 n q)
  refine congrArg (nfArr V c) (funext fun a => Fin.ext ?_)
  match a with
  | ⟨0, _⟩ => show win2_0.index t (0 : Fin 2) * 2000 + 1 * p.val = n.val; omega
  | ⟨1, _⟩ => show win2_0.index t (1 : Fin 2) * 128 + 1 * q.val = q.val; omega

/-- Row p of the scattered sums' block at point t is row 2000 t + p of the array. -/
theorem sumBlk_apply (c : Dev nD) (t : Fin cfg2.N) (p : Fin 2000) (q : Fin 256) (n : Fin 50000)
    (hn : n.val = t.val * 2000 + p.val) : sumBlk V c t (ix2 p q) = sumArr V c (ix2 n q) := by
  obtain ⟨-, -, e0, e1, -⟩ := index_facts t
  show sumArr V c (((cfg2.win 1).blk t).view.emb (ix2 p q)) = sumArr V c (ix2 n q)
  refine congrArg (sumArr V c) (funext fun a => Fin.ext ?_)
  match a with
  | ⟨0, _⟩ => show win2_1.index t (0 : Fin 2) * 2000 + 1 * p.val = n.val; omega
  | ⟨1, _⟩ => show win2_1.index t (1 : Fin 2) * 256 + 1 * q.val = q.val; omega

/-- Row p of the linear map's block at point t is row 2000 t + p of the array. -/
theorem linBlk_apply (c : Dev nD) (t : Fin cfg2.N) (p : Fin 2000) (q : Fin 512) (n : Fin 50000)
    (hn : n.val = t.val * 2000 + p.val) : linBlk V c t (ix2 p q) = linArr V c (ix2 n q) := by
  obtain ⟨-, -, -, -, e0, e1, -⟩ := index_facts t
  show linArr V c (((cfg2.win 2).blk t).view.emb (ix2 p q)) = linArr V c (ix2 n q)
  refine congrArg (linArr V c) (funext fun a => Fin.ext ?_)
  match a with
  | ⟨0, _⟩ => show win2_2.index t (0 : Fin 2) * 2000 + 1 * p.val = n.val; omega
  | ⟨1, _⟩ => show win2_2.index t (1 : Fin 2) * 512 + 1 * q.val = q.val; omega

/-- The scale row's block at every point is the row. -/
theorem scaleBlk_apply (c : Dev nD) (t : Fin cfg2.N) (q : Fin 128) :
    scaleBlk V c t (ix2 (0 : Fin 1) q) = scaleArr V c (ix2 (0 : Fin 1) q) := by
  obtain ⟨-, -, -, -, -, -, e0, e1, -⟩ := index_facts t
  show scaleArr V c (((cfg2.win 3).blk t).view.emb (ix2 (0 : Fin 1) q)) = scaleArr V c (ix2 (0 : Fin 1) q)
  refine congrArg (scaleArr V c) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The shift row's block at every point is the row. -/
theorem shiftBlk_apply (c : Dev nD) (t : Fin cfg2.N) (q : Fin 128) :
    shiftBlk V c t (ix2 (0 : Fin 1) q) = shiftArr V c (ix2 (0 : Fin 1) q) := by
  obtain ⟨-, -, -, -, -, -, -, -, e0, e1, -⟩ := index_facts t
  show shiftArr V c (((cfg2.win 4).blk t).view.emb (ix2 (0 : Fin 1) q)) = shiftArr V c (ix2 (0 : Fin 1) q)
  refine congrArg (shiftArr V c) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-! ## From the blocks to the array -/

/-- The node output as one function of the region's input arrays, entry by entry. -/
abbrev nodeOutArr (c : Dev nD) : Vec Ideal S50000x128 .f32 := fun i =>
  Spec.nodeOut (V c main_arg0) (V c main_v14) (V c main_v3) (V c main_v15) (V c main_v16) (i 0) (i 1)

/-- What point t writes back is block t of the node output. -/
theorem flushed_eq (c : Dev nD) (t : Fin cfg2.N) :
    (Rg2.dat V c).flushed 5 t = ((cfg2.win 5).blk t).view.read (Elt Ideal) (nodeOutArr V c) := by
  show (cfg2.win 5).cut (grid2.coords t) ((Rg2.dat V c).after 5 t) = _
  rw [Rg2.after_5]
  funext j
  obtain ⟨-, -, -, -, -, -, -, -, -, -, e0, e1⟩ := index_facts t
  have hp : (j 0).val < 2000 := (j 0).isLt
  have hq : (j 1).val < 128 := (j 1).isLt
  have hN : cfg2.N = 25 := N_2
  have ht : t.val < cfg2.N := t.isLt
  obtain ⟨p, hpv⟩ : ∃ p : Fin 2000, p.val = (j 0).val := ⟨⟨_, hp⟩, rfl⟩
  obtain ⟨q, hqv⟩ : ∃ q : Fin 128, q.val = (j 1).val := ⟨⟨_, hq⟩, rfl⟩
  obtain ⟨n, hnv⟩ : ∃ n : Fin 50000, n.val = t.val * 2000 + p.val := ⟨⟨t.val * 2000 + p.val, by omega⟩, rfl⟩
  have hx : (cfg2.win 5).xinj (grid2.coords t) j = (ix2 p q : S2000x128.Idx) :=
    funext fun a => Fin.ext (by match a with | ⟨0, _⟩ => exact hpv.symm | ⟨1, _⟩ => exact hqv.symm)
  have hi : ((cfg2.win 5).blk t).view.emb j = (ix2 n q : S50000x128.Idx) :=
    funext fun a => Fin.ext (by
      match a with
      | ⟨0, _⟩ => show win2_5.index t (0 : Fin 2) * 2000 + 1 * (j 0).val = n.val; omega
      | ⟨1, _⟩ => show win2_5.index t (1 : Fin 2) * 128 + 1 * (j 1).val = q.val; omega)
  show Rg2.out5 (nfBlk V c t) (sumBlk V c t) (linBlk V c t) (scaleBlk V c t) (shiftBlk V c t) ((cfg2.win 5).xinj (grid2.coords t) j)
    = nodeOutArr V c (((cfg2.win 5).blk t).view.emb j)
  rw [hx, hi]
  refine (out5_apply _ _ _ _ _ p q).trans ?_
  show _ = Spec.nodeOut (nfArr V c) (sumArr V c) (linArr V c) (scaleArr V c) (shiftArr V c) n q
  unfold Spec.nodeOut Spec.nodeX
  refine congrArg₂ (· + ·) (nfBlk_apply V c t p q n hnv) (congrArg Spec.silu
    (lnAt_congr (fun k => ?_) (scaleBlk_apply V c t q) (shiftBlk_apply V c t q) q))
  rw [linBlk_apply V c t p (Spec.qcol 3 k) n hnv, sumBlk_apply V c t p (Spec.lo k) n hnv,
    sumBlk_apply V c t p (Spec.hi k) n hnv]

/-- An index of the array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v17).slice (win2_5.rect t)).set ↔ _
  rw [View.set_slice_whole, Rect.mem_set_unit]
  exact Iff.rfl

/-- Every entry of the array is written back: row r lies in the block of point r / 2000. -/
theorem cover (i : S50000x128.Idx) :
    ∃ t : Fin cfg2.N, (cfg2.win 5).flush t = true ∧ i ∈ ((cfg2.win 5).blk t).view.set := by
  have hN : cfg2.N = 25 := N_2
  have h0 : (i 0).val < 50000 := (i 0).isLt
  have h1 : (i 1).val < 128 := (i 1).isLt
  have ht : (i 0).val / 2000 < cfg2.N := by omega
  obtain ⟨-, -, -, -, -, -, -, -, -, -, e0, e1⟩ := index_facts ⟨(i 0).val / 2000, ht⟩
  have e0' : win2_5.index ⟨(i 0).val / 2000, ht⟩ (0 : Fin 2) = (i 0).val / 2000 := e0
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    omega
  | ⟨1, _⟩ =>
    show win2_5.index ⟨(i 0).val / 2000, ht⟩ (1 : Fin 2) * 128 ≤ (i 1).val
      ∧ (i 1).val < win2_5.index ⟨(i 0).val / 2000, ht⟩ (1 : Fin 2) * 128 + 128
    omega

/-- THE ARRAY after the region, read at (n, j). -/
theorem final (c : Dev nD) (n : Fin 50000) (j : Fin 128) :
    (Rg2.dat (F := Ideal) V c).arrAt 5 cfg2.N (ix2 n j)
      = Spec.nodeOut (V c main_arg0) (V c main_v14) (V c main_v3) (V c main_v15) (V c main_v16) n j := by
  have h : (Rg2.dat (F := Ideal) V c).arrAt 5 cfg2.N = nodeOutArr V c :=
    (Rg2.dat V c).arrAt_eq_of_cover 5 (nodeOutArr V c) (fun t _ => flushed_eq V c t) (fun i => cover i)
  exact congrFun h (ix2 n j)

end Cert.KernelIdeal.Val2

end
-- ==== Proof.LibScatterGather.lean ====
/-
  Scatter-add and gather along the leading axis, read at an index.

  A scatter-add whose scatter indices are an [n × 1] column of node numbers adds update `e` (a scalar, or row `e`
  of an [n × C] array) into operand position (row) `idx[e, 0]`, read signed; an update whose number is outside
  `[0, N)` is dropped. So the result at `i` is the operand at `i` plus the sum of the updates `e` with
  `idx[e, 0] = i`. A gather with the same column of start indices reads row `idx[e, 0]` of the operand, the number
  read signed and clamped into `[0, N − 1]`. The lemmas hold for any dimension-number record with the stated
  field values, over any sizes.
-/
import Mathlib.Algebra.BigOperators.Group.Finset.Basic
import Mathlib.Data.EReal.Basic
import Idealize.ShloMosaic.PureOps.Dims
import Idealize.ShloMosaic.PureOps.ShapeOps
import Idealize.ShloMosaic.PureOps.Contract
import Idealize.ShloMosaic.PureOps.Ideal
import Idealize.ShloMosaic.Lib.ValueIdx
import Idealize.ShloMosaic.Lib.StableHlo.Predicate

noncomputable section

open scoped BigOperators

namespace Cert.LibScatterGather

open Idealize.ShloMosaic Idealize.ShloMosaic.ValueIdx

/-! ## Coordinates of `ix1` and `ix2` at an axis known only by a property -/

/-- A rank-1 index from `a` has the coordinate `a` on its one axis, however that axis is named. -/
theorem ix1_val {n : Nat} (a : Fin n) (X : Fin 1) : (ix1 a X).val = a.val := by
  obtain rfl : X = 0 := Subsingleton.elim _ _
  rfl

/-- A rank-2 index from `a` and `b` has the coordinate `a` on an axis that is not axis 1. -/
theorem ix2_val_of_ne_one {n0 n1 : Nat} (a : Fin n0) (b : Fin n1) (X : Fin 2) (hX : X ≠ 1) : (ix2 a b X).val = a.val := by
  match X, hX with
  | ⟨0, _⟩, _ => rfl
  | ⟨1, _⟩, hX => exact absurd rfl hX

/-- A rank-2 index from `a` and `b` has the coordinate `b` on an axis that is not axis 0. -/
theorem ix2_val_of_ne_zero {n0 n1 : Nat} (a : Fin n0) (b : Fin n1) (X : Fin 2) (hX : X ≠ 0) : (ix2 a b X).val = b.val := by
  match X, hX with
  | ⟨0, _⟩, hX => exact absurd rfl hX
  | ⟨1, _⟩, _ => rfl

/-! ## Scalar scatter-add: operand [N], scatter indices [n × 1], updates [n] -/

section Scalar
variable {N n w : Nat} (d : ScatterDims ⟨1, ![N]⟩ ⟨2, ![n, 1]⟩ ⟨1, ![n]⟩)

/-- Update `e` reads its scatter index at `[e, 0]`: the update's one axis is its scatter axis, and the index vector
(axis 1) has the one component. -/
theorem siIdx_scalar (hsd : d.scatterDimsToOperandDims = [0]) (hiv : d.indexVectorDim = 1)
    (e : Fin n) (c : Fin d.scatterDimsToOperandDims.length) : d.siIdx (ix1 e) c = ix2 e 0 := by
  funext b
  match b with
  | ⟨0, hb⟩ =>
    unfold ScatterDims.siIdx
    rw [dif_neg (by rw [hiv]; exact (by decide : ¬ (0 : ℕ) = 1))]
    unfold ScatterDims.siCoord
    apply Fin.ext
    simp only [Fin.val_cast]
    exact ix1_val e _
  | ⟨1, hb⟩ =>
    unfold ScatterDims.siIdx
    rw [dif_pos (by rw [hiv])]
    apply Fin.ext
    have hl : d.scatterDimsToOperandDims.length = 1 := by rw [hsd]; rfl
    have hc := c.isLt
    show c.val = 0
    omega

/-- The start of update `e`'s window on the operand's axis: its scatter index read signed. -/
theorem start_scalar (hsd : d.scatterDimsToOperandDims = [0]) (hiv : d.indexVectorDim = 1)
    (idx : IVec ⟨2, ![n, 1]⟩ w) (e : Fin n) (a : Fin 1) : d.start (ix1 e) idx a = (idx (ix2 e 0)).toInt := by
  obtain rfl : a = 0 := Subsingleton.elim _ _
  unfold ScatterDims.start
  rw [dif_pos (by rw [hsd]; exact List.mem_singleton.mpr rfl), siIdx_scalar d hsd hiv]

/-- The operand's one axis is inserted: no window coordinate on it. -/
theorem window_scalar (hiw : d.insertedWindowDims = [0]) (j : (⟨1, ![n]⟩ : Shape).Idx) (a : Fin 1) : d.window j a = 0 := by
  obtain rfl : a = 0 := Subsingleton.elim _ _
  unfold ScatterDims.window
  rw [dif_neg]
  intro h
  have : (0 : Fin 1) ∉ d.insertedWindowDims := by
    simpa [ScatterDims.sKept, Shape.kept, List.mem_filter] using h
  exact this (by rw [hiw]; exact List.mem_singleton.mpr rfl)

/-- Update `e` lands at operand position `i` exactly when its scatter index, read signed, is `i`. -/
theorem resultIdx?_scalar (hiw : d.insertedWindowDims = [0]) (hsd : d.scatterDimsToOperandDims = [0])
    (hiv : d.indexVectorDim = 1) (idx : IVec ⟨2, ![n, 1]⟩ w) (e : Fin n) (i : Fin N) :
    d.resultIdx? (ix1 e) idx = some (ix1 i) ↔ (idx (ix2 e 0)).toInt = (i.val : ℤ) := by
  have hsw : ∀ a : Fin 1, d.start (ix1 e) idx a + ((d.window (ix1 e) a : ℕ) : ℤ) = (idx (ix2 e 0)).toInt := by
    intro a
    rw [start_scalar d hsd hiv, window_scalar d hiw]
    simp
  have hsz : ∀ a : Fin 1, (⟨1, ![N]⟩ : Shape).size a = N := by
    intro a
    obtain rfl : a = 0 := Subsingleton.elim _ _
    rfl
  unfold ScatterDims.resultIdx?
  by_cases h : ∀ a, 0 ≤ d.start (ix1 e) idx a + ((d.window (ix1 e) a : ℕ) : ℤ)
      ∧ d.start (ix1 e) idx a + ((d.window (ix1 e) a : ℕ) : ℤ) < (((⟨1, ![N]⟩ : Shape).size a : ℕ) : ℤ)
  · rw [dif_pos h]
    constructor
    · intro heq
      have h0 := congrArg Fin.val (congrFun (Option.some.inj heq) 0)
      change (d.start (ix1 e) idx 0 + ((d.window (ix1 e) 0 : ℕ) : ℤ)).toNat = i.val at h0
      have hh := (h 0).1
      rw [hsw 0] at h0 hh
      omega
    · intro hv
      refine congrArg some (funext fun a => Fin.ext ?_)
      obtain rfl : a = 0 := Subsingleton.elim _ _
      show (d.start (ix1 e) idx 0 + ((d.window (ix1 e) 0 : ℕ) : ℤ)).toNat = i.val
      rw [hsw 0, hv]
      simp
  · rw [dif_neg h]
    constructor
    · intro heq
      exact absurd heq (by simp)
    · intro hv
      refine absurd (fun a => ?_) h
      rw [hsw a, hv, hsz a]
      exact ⟨Int.natCast_nonneg _, by exact_mod_cast i.isLt⟩

/-- THE SCALAR SCATTER-ADD READ AT `i`: the operand there plus the sum of the updates whose scatter index, read
signed, is `i`. The updates' index type is re-indexed by its one coordinate. -/
theorem scatterAdd_scalar_apply {φ : FTy} (hiw : d.insertedWindowDims = [0]) (hsd : d.scatterDimsToOperandDims = [0])
    (hiv : d.indexVectorDim = 1) (x : FVec Ideal ⟨1, ![N]⟩ φ) (idx : IVec ⟨2, ![n, 1]⟩ w)
    (upd : FVec Ideal ⟨1, ![n]⟩ φ) (i : Fin N) :
    Host.scatterAdd (F := Ideal) d x idx upd (ix1 i)
      = x (ix1 i) + ∑ e ∈ Finset.univ.filter (fun e : Fin n => (idx (ix2 e 0)).toInt = (i.val : ℤ)), upd (ix1 e) := by
  have h1 : Host.scatterAdd (F := Ideal) d x idx upd (ix1 i) = Ideal.hostScatterAdd d x idx upd (ix1 i) := rfl
  rw [h1]
  unfold Ideal.hostScatterAdd
  refine congrArg (fun t : EReal => x (ix1 i) + t) ?_
  refine Finset.sum_bij' (fun j _ => (j 0 : Fin n)) (fun e _ => ix1 e) ?_ ?_ ?_ ?_ ?_
  · intro j hj
    have hm := (Finset.mem_filter.1 hj).2
    rw [eq_ix1 j] at hm
    exact Finset.mem_filter.2 ⟨Finset.mem_univ _, (resultIdx?_scalar d hiw hsd hiv idx (j 0) i).1 hm⟩
  · intro e he
    exact Finset.mem_filter.2 ⟨Finset.mem_univ _,
      (resultIdx?_scalar d hiw hsd hiv idx e i).2 (Finset.mem_filter.1 he).2⟩
  · intro j _
    exact (eq_ix1 j).symm
  · intro e _
    rfl
  · intro j _
    exact congrArg upd (eq_ix1 j)

end Scalar

/-! ## Row scatter-add: operand [N × C], scatter indices [n × 1], updates [n × C] -/

section Rows
variable {N C n w : Nat} (d : ScatterDims ⟨2, ![N, C]⟩ ⟨2, ![n, 1]⟩ ⟨2, ![n, C]⟩)

/-- The updates' scatter axes are the ones that are not the window axis 1. -/
theorem uScatter_ne_one (huw : d.updateWindowDims = [1]) (k : ℕ) (hk : k < d.uScatter.length) :
    d.uScatter[k] ≠ 1 := by
  have hmem : d.uScatter[k] ∈ d.uScatter := List.getElem_mem hk
  intro h1
  rw [h1] at hmem
  simp [ScatterDims.uScatter, Shape.kept, huw] at hmem

/-- The updates' one window axis is axis 1. -/
theorem updateWindowDims_eq_one (huw : d.updateWindowDims = [1]) (k : ℕ) (hk : k < d.updateWindowDims.length) :
    d.updateWindowDims[k] = 1 := by
  have hall : ∀ X ∈ d.updateWindowDims, X = 1 := by
    rw [huw]
    intro X hX
    exact List.mem_singleton.mp hX
  exact hall _ (List.getElem_mem hk)

/-- Element `[e, h]` of the updates reads its scatter index at `[e, 0]`. -/
theorem siIdx_rows (huw : d.updateWindowDims = [1]) (hsd : d.scatterDimsToOperandDims = [0]) (hiv : d.indexVectorDim = 1)
    (e : Fin n) (h : Fin C) (c : Fin d.scatterDimsToOperandDims.length) : d.siIdx (ix2 e h) c = ix2 e 0 := by
  funext b
  match b with
  | ⟨0, hb⟩ =>
    unfold ScatterDims.siIdx
    rw [dif_neg (by rw [hiv]; exact (by decide : ¬ (0 : ℕ) = 1))]
    unfold ScatterDims.siCoord
    apply Fin.ext
    simp only [Fin.val_cast]
    exact ix2_val_of_ne_one e h _ (uScatter_ne_one d huw _ _)
  | ⟨1, hb⟩ =>
    unfold ScatterDims.siIdx
    rw [dif_pos (by rw [hiv])]
    apply Fin.ext
    have hl : d.scatterDimsToOperandDims.length = 1 := by rw [hsd]; rfl
    have hc := c.isLt
    show c.val = 0
    omega

/-- On the operand's row axis the window of update element `[e, h]` starts at its scatter index read signed … -/
theorem start_rows_zero (huw : d.updateWindowDims = [1]) (hsd : d.scatterDimsToOperandDims = [0]) (hiv : d.indexVectorDim = 1)
    (idx : IVec ⟨2, ![n, 1]⟩ w) (e : Fin n) (h : Fin C) : d.start (ix2 e h) idx 0 = (idx (ix2 e 0)).toInt := by
  unfold ScatterDims.start
  rw [dif_pos (by rw [hsd]; exact List.mem_singleton.mpr rfl), siIdx_rows d huw hsd hiv]

/-- … and on the column axis, which the scatter indices do not name, at 0. -/
theorem start_rows_one (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; exact (by decide : (1 : Fin 2) ∉ [(0 : Fin 2)]))]

/-- The row axis is inserted: no window coordinate on it … -/
theorem window_rows_zero (hiw : d.insertedWindowDims = [0]) (j : (⟨2, ![n, C]⟩ : Shape).Idx) : d.window j 0 = 0 := by
  unfold ScatterDims.window
  rw [dif_neg]
  intro h
  have : (0 : Fin 2) ∉ d.insertedWindowDims := by
    simpa [ScatterDims.sKept, Shape.kept, List.mem_filter] using h
  exact this (by rw [hiw]; exact List.mem_singleton.mpr rfl)

/-- … and on the column axis the window coordinate is the update's column. -/
theorem window_rows_one (huw : d.updateWindowDims = [1]) (hiw : d.insertedWindowDims = [0]) (e : Fin n) (h : Fin C) :
    d.window (ix2 e h) 1 = h.val := by
  unfold ScatterDims.window
  have hk : (1 : Fin 2) ∈ d.sKept := by
    simp [ScatterDims.sKept, Shape.kept, List.mem_filter, hiw]
  rw [dif_pos hk]
  refine ix2_val_of_ne_zero e h _ ?_
  rw [updateWindowDims_eq_one d huw]
  exact (by decide : (1 : Fin 2) ≠ 0)

/-- Update element `[e, h]` lands at operand element `[i, h']` exactly when its scatter index, read signed, is `i` and
the columns agree. -/
theorem resultIdx?_rows (huw : d.updateWindowDims = [1]) (hiw : d.insertedWindowDims = [0])
    (hsd : d.scatterDimsToOperandDims = [0]) (hiv : d.indexVectorDim = 1) (idx : IVec ⟨2, ![n, 1]⟩ w)
    (e : Fin n) (h : Fin C) (i : Fin N) (h' : Fin C) :
    d.resultIdx? (ix2 e h) idx = some (ix2 i h') ↔ ((idx (ix2 e 0)).toInt = (i.val : ℤ) ∧ h = h') := by
  have hsw0 : d.start (ix2 e h) idx 0 + ((d.window (ix2 e h) 0 : ℕ) : ℤ) = (idx (ix2 e 0)).toInt := by
    rw [start_rows_zero d huw hsd hiv, window_rows_zero d hiw]
    simp
  have hsw1 : d.start (ix2 e h) idx 1 + ((d.window (ix2 e h) 1 : ℕ) : ℤ) = (h.val : ℤ) := by
    rw [start_rows_one d hsd, window_rows_one d huw hiw]
    simp
  unfold ScatterDims.resultIdx?
  by_cases hc : ∀ a, 0 ≤ d.start (ix2 e h) idx a + ((d.window (ix2 e h) a : ℕ) : ℤ)
      ∧ d.start (ix2 e h) idx a + ((d.window (ix2 e h) a : ℕ) : ℤ) < (((⟨2, ![N, C]⟩ : Shape).size a : ℕ) : ℤ)
  · rw [dif_pos hc]
    constructor
    · intro heq
      have hf := Option.some.inj heq
      have h0 := congrArg Fin.val (congrFun hf 0)
      have h1 := congrArg Fin.val (congrFun hf 1)
      change (d.start (ix2 e h) idx 0 + ((d.window (ix2 e h) 0 : ℕ) : ℤ)).toNat = i.val at h0
      change (d.start (ix2 e h) idx 1 + ((d.window (ix2 e h) 1 : ℕ) : ℤ)).toNat = h'.val at h1
      have hh := (hc 0).1
      rw [hsw0] at h0 hh
      rw [hsw1] at h1
      exact ⟨by omega, Fin.ext (by omega)⟩
    · rintro ⟨hv, rfl⟩
      refine congrArg some (funext fun a => Fin.ext ?_)
      match a with
      | ⟨0, _⟩ =>
        show (d.start (ix2 e h) idx 0 + ((d.window (ix2 e h) 0 : ℕ) : ℤ)).toNat = i.val
        rw [hsw0, hv]
        simp
      | ⟨1, _⟩ =>
        show (d.start (ix2 e h) idx 1 + ((d.window (ix2 e h) 1 : ℕ) : ℤ)).toNat = h.val
        rw [hsw1]
        simp
  · rw [dif_neg hc]
    constructor
    · intro heq
      exact absurd heq (by simp)
    · rintro ⟨hv, _⟩
      refine absurd (fun a => ?_) hc
      match a with
      | ⟨0, _⟩ =>
        show 0 ≤ d.start (ix2 e h) idx 0 + ((d.window (ix2 e h) 0 : ℕ) : ℤ)
          ∧ d.start (ix2 e h) idx 0 + ((d.window (ix2 e h) 0 : ℕ) : ℤ) < ((N : ℕ) : ℤ)
        rw [hsw0, hv]
        exact ⟨Int.natCast_nonneg _, by exact_mod_cast i.isLt⟩
      | ⟨1, _⟩ =>
        show 0 ≤ d.start (ix2 e h) idx 1 + ((d.window (ix2 e h) 1 : ℕ) : ℤ)
          ∧ d.start (ix2 e h) idx 1 + ((d.window (ix2 e h) 1 : ℕ) : ℤ) < ((C : ℕ) : ℤ)
        rw [hsw1]
        exact ⟨Int.natCast_nonneg _, by exact_mod_cast h.isLt⟩

/-- THE ROW SCATTER-ADD READ AT `[i, h]`: the operand there plus the sum over the updates' rows whose scatter index,
read signed, is `i` of their element in column `h`. The updates' elements that land at `[i, h]` are re-indexed by their row. -/
theorem scatterAdd_rows_apply {φ : FTy} (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![n, 1]⟩ w) (upd : FVec Ideal ⟨2, ![n, C]⟩ φ) (i : Fin N) (h : Fin C) :
    Host.scatterAdd (F := Ideal) d x idx upd (ix2 i h)
      = x (ix2 i h) + ∑ e ∈ Finset.univ.filter (fun e : Fin n => (idx (ix2 e 0)).toInt = (i.val : ℤ)), upd (ix2 e h) := by
  have h1 : Host.scatterAdd (F := Ideal) d x idx upd (ix2 i h) = Ideal.hostScatterAdd d x idx upd (ix2 i h) := rfl
  rw [h1]
  unfold Ideal.hostScatterAdd
  refine congrArg (fun t : EReal => x (ix2 i h) + t) ?_
  have hland : ∀ j : (⟨2, ![n, C]⟩ : Shape).Idx, d.resultIdx? j idx = some (ix2 i h) →
      (idx (ix2 (j 0) 0)).toInt = (i.val : ℤ) ∧ (j 1 : Fin C) = h := by
    intro j hm
    rw [eq_ix2 j] at hm
    exact (resultIdx?_rows d huw hiw hsd hiv idx (j 0) (j 1) i h).1 hm
  refine Finset.sum_bij' (fun j _ => (j 0 : Fin n)) (fun e _ => ix2 e h) ?_ ?_ ?_ ?_ ?_
  · intro j hj
    exact Finset.mem_filter.2 ⟨Finset.mem_univ _, (hland j (Finset.mem_filter.1 hj).2).1⟩
  · intro e he
    exact Finset.mem_filter.2 ⟨Finset.mem_univ _,
      (resultIdx?_rows d huw hiw hsd hiv idx e h i h).2 ⟨(Finset.mem_filter.1 he).2, rfl⟩⟩
  · intro j hj
    have hj1 := (hland j (Finset.mem_filter.1 hj).2).2
    show ix2 (j 0) h = j
    rw [← hj1]
    exact (eq_ix2 j).symm
  · intro e _
    rfl
  · intro j hj
    have hj1 := (hland j (Finset.mem_filter.1 hj).2).2
    show upd j = upd (ix2 (j 0) h)
    rw [← hj1]
    exact congrArg upd (eq_ix2 j)

end Rows

/-! ## Row gather: operand [N × C], start indices [n × 1], result [n × C] -/

section GatherRows
variable {N C n w : Nat} (d : GatherDims ⟨2, ![N, C]⟩ ⟨2, ![n, 1]⟩ ⟨2, ![n, C]⟩)

/-- The result's batch axes are the ones that are not the offset axis 1. -/
theorem batchDims_ne_one (hod : d.offsetDims = [1]) (k : ℕ) (hk : k < d.batchDims.length) : d.batchDims[k] ≠ 1 := by
  have hall : ∀ X ∈ d.batchDims, X ≠ 1 := by
    intro X hX h1
    rw [h1] at hX
    simp [GatherDims.batchDims, Shape.kept, hod] at hX
  exact hall _ (List.getElem_mem hk)

/-- The result's one offset axis is axis 1. -/
theorem offsetDims_eq_one (hod : d.offsetDims = [1]) (k : ℕ) (hk : k < d.offsetDims.length) : d.offsetDims[k] = 1 := by
  have hall : ∀ X ∈ d.offsetDims, X = 1 := by
    rw [hod]
    intro X hX
    exact List.mem_singleton.mp hX
  exact hall _ (List.getElem_mem hk)

/-- Result element `[e, h]` reads its start index at `[e, 0]`. -/
theorem siIdx_gather_rows (hod : d.offsetDims = [1]) (hsim : d.startIndexMap = [0]) (hiv : d.indexVectorDim = 1)
    (e : Fin n) (h : Fin C) (c : Fin d.startIndexMap.length) : d.siIdx (ix2 e h) c = ix2 e 0 := by
  funext b
  match b with
  | ⟨0, hb⟩ =>
    unfold GatherDims.siIdx
    rw [dif_neg (by rw [hiv]; exact (by decide : ¬ (0 : ℕ) = 1))]
    unfold GatherDims.siCoord
    apply Fin.ext
    simp only [Fin.val_cast]
    exact ix2_val_of_ne_one e h _ (batchDims_ne_one d hod _ _)
  | ⟨1, hb⟩ =>
    unfold GatherDims.siIdx
    rw [dif_pos (by rw [hiv])]
    apply Fin.ext
    have hl : d.startIndexMap.length = 1 := by rw [hsim]; rfl
    have hc := c.isLt
    show c.val = 0
    omega

/-- THE ROW GATHER READ AT `[e, h]`: the operand's row at the start index `idx[e, 0]`, read signed and clamped into
`[0, N − 1]`, in column `h`. -/
theorem gather_rows_apply {α : Type} (hod : d.offsetDims = [1]) (hcoll : d.collapsedSliceDims = [0])
    (hob : d.operandBatchingDims = []) (hsim : d.startIndexMap = [0]) (hiv : d.indexVectorDim = 1)
    (x : (⟨2, ![N, C]⟩ : Shape).Idx → α) (idx : IVec ⟨2, ![n, 1]⟩ w) (hN : 0 < N) (e : Fin n) (h : Fin C) :
    Host.gather d x idx (ix2 e h) = x (ix2 ⟨min (idx (ix2 e 0)).toInt.toNat (N - 1), by omega⟩ h) := by
  have hb : ∀ a : Fin 2, a ∉ d.operandBatchingDims := by
    intro a
    rw [hob]
    exact List.not_mem_nil
  have hk0 : (0 : Fin 2) ∉ d.sKept := by
    rw [GatherDims.mem_sKept, hcoll]
    simp
  have hk1 : (1 : Fin 2) ∈ d.sKept := by
    rw [GatherDims.mem_sKept, hcoll, hob]
    simp
  have hm0 : (0 : Fin 2) ∈ d.startIndexMap := by
    rw [hsim]
    exact List.mem_singleton.mpr rfl
  have hm1 : (1 : Fin 2) ∉ d.startIndexMap := by
    rw [hsim]
    exact (by decide : (1 : Fin 2) ∉ [(0 : Fin 2)])
  have hsl : d.sliceSizes 0 = 1 := d.slice_collapsed 0 (by rw [hcoll]; exact List.mem_singleton.mpr rfl)
  unfold Host.gather
  refine congrArg x (funext fun a => Fin.ext ?_)
  match a with
  | ⟨0, _⟩ =>
    show d.start (ix2 e h) idx 0 + d.batchCoord (ix2 e h) 0 + d.offCoord (ix2 e h) 0
      = min (idx (ix2 e 0)).toInt.toNat (N - 1)
    rw [d.batchCoord_eq_zero _ _ (hb 0), d.offCoord_eq_zero _ _ hk0]
    simp only [Nat.add_zero]
    unfold GatherDims.start
    rw [dif_pos hm0, siIdx_gather_rows d hod hsim hiv, hsl]
    rfl
  | ⟨1, _⟩ =>
    show d.start (ix2 e h) idx 1 + d.batchCoord (ix2 e h) 1 + d.offCoord (ix2 e h) 1 = h.val
    have hs : d.start (ix2 e h) idx 1 = 0 := by
      unfold GatherDims.start
      rw [dif_neg hm1]
    rw [hs, d.batchCoord_eq_zero _ _ (hb 1)]
    simp only [Nat.zero_add, Nat.add_zero]
    unfold GatherDims.offCoord
    rw [dif_pos hk1]
    refine ix2_val_of_ne_zero e h _ ?_
    rw [offsetDims_eq_one d hod]
    exact (by decide : (1 : Fin 2) ≠ 0)

/-- A word whose signed reading is not negative has that reading as its unsigned one. -/
theorem toInt_toNat_of_nonneg {w : Nat} {b : BitVec w} (hlo : 0 ≤ b.toInt) : b.toInt.toNat = b.toNat := by
  have hc := BitVec.toInt_eq_toNat_cond b
  have hl : b.toNat < 2 ^ w := b.isLt
  generalize (2 : ℕ) ^ w = P at hc hl
  split_ifs at hc with h2 <;> omega

/-- A word whose signed reading lies in `[0, N)` has its unsigned reading below `N`. -/
theorem toNat_lt_of_toInt_lt {w N : Nat} {b : BitVec w} (hlo : 0 ≤ b.toInt) (hhi : b.toInt < (N : ℤ)) : b.toNat < N := by
  have := toInt_toNat_of_nonneg hlo
  omega

/-- The row gather at a start index that is a row number: no clamp, the row itself. -/
theorem gather_rows_apply_of_inRange {α : Type} (hod : d.offsetDims = [1]) (hcoll : d.collapsedSliceDims = [0])
    (hob : d.operandBatchingDims = []) (hsim : d.startIndexMap = [0]) (hiv : d.indexVectorDim = 1)
    (x : (⟨2, ![N, C]⟩ : Shape).Idx → α) (idx : IVec ⟨2, ![n, 1]⟩ w) (e : Fin n) (h : Fin C)
    (hlo : 0 ≤ (idx (ix2 e 0)).toInt) (hhi : (idx (ix2 e 0)).toInt < (N : ℤ)) :
    Host.gather d x idx (ix2 e h) = x (ix2 ⟨(idx (ix2 e 0)).toNat, toNat_lt_of_toInt_lt hlo hhi⟩ h) := by
  have hlt := toNat_lt_of_toInt_lt hlo hhi
  rw [gather_rows_apply d hod hcoll hob hsim hiv x idx (by omega) e h]
  refine congrArg x ?_
  refine congrArg (fun r : Fin N => ix2 r h) (Fin.ext ?_)
  show min (idx (ix2 e 0)).toInt.toNat (N - 1) = (idx (ix2 e 0)).toNat
  rw [toInt_toNat_of_nonneg hlo]
  omega

end GatherRows

end Cert.LibScatterGather

end
-- ==== Proof.KI.Fold.lean ====
/-
  The idealized kernel program's two results, read at an index: following the contents of the buffers through @main's
  ten items — the concatenated weights and biases, the linear region, the slices and row gathers, the edge region, the
  scatter-add, the finalisation region — each result is the specification's function of the arguments.
-/
import proofs.«416705_j44006234914975_2_alg».proof.Proof.KI.Run
import proofs.«416705_j44006234914975_2_alg».proof.Proof.KI.Val0
import proofs.«416705_j44006234914975_2_alg».proof.Proof.KI.Val1
import proofs.«416705_j44006234914975_2_alg».proof.Proof.KI.Val2
import proofs.«416705_j44006234914975_2_alg».proof.Proof.LibScatterGather
import Idealize.ShloMosaic.Lib.StableHlo.Run

set_option maxRecDepth 16384

noncomputable section

open scoped BigOperators

namespace Cert.KernelIdeal.Fold

open Cert.KernelIdeal Cert.KernelIdeal.Gen
open Idealize.ShloMosaic Idealize.ShloMosaic.TcCoe Idealize.ShloMosaic.ValueIdx Idealize.SL.Sem

/-- The arguments the program reads on core `c` of the memory `m`. -/
def argsOf (m : (ℓ : Loc nD τ sig) → Buf (Elt Ideal) ℓ) (c : Dev nD) : Spec.Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14), m ((c : Thread nD τ).loc main_arg15),
    m ((c : Thread nD τ).loc main_arg16), m ((c : Thread nD τ).loc main_arg17)⟩

variable (m : (ℓ : Loc nD τ sig) → Buf (Elt Ideal) ℓ) (ρ : Dev nD → PrngReg) (c : Dev nD)

/-! ## The specification's functions from their pieces -/

section Pure
open Cert.Spec

variable (a : Spec.Args)

/-- The linear region read in one column quarter is the node-level linear map of that quarter's weights and bias. -/
theorem nodeLin_eq (x : FVec Ideal SN128 .f32) (W : FVec Ideal SW512 .f32) (b : FVec Ideal SR512 .f32)
    (Wq : FVec Ideal SW128 .f32) (bq : FVec Ideal SV128 .f32) (r : Fin 50000) (col : Fin 512) (j : Fin 128)
    (hW : ∀ k, W (ix2 k col) = Wq (ix2 k j)) (hb : b (ix2 0 col) = bq (ix1 j)) :
    nodeLin x W b r col = linN x Wq bq r j := by
  unfold nodeLin linN
  rw [hb]
  refine congrArg (fun t : EReal => t + bq (ix1 j)) (Finset.sum_congr rfl fun k _ => ?_)
  rw [hW k]

/-- The edge pre-activation from the gathered slabs. -/
theorem edgeM_eq (ef : FVec Ideal SE128 .f32) (g5 : FVec Ideal SE256 .f32) (g7 : FVec Ideal SE128 .f32)
    (We : FVec Ideal SW128 .f32) (be : FVec Ideal SR128 .f32) (e : Fin 800000) (k : Fin 128)
    (hef : ef = a.ef) (hWe : We = a.Weg) (hbe : be (ix2 0 k) = a.beg (ix1 k))
    (h5 : g5 (ix2 e (lo k)) = linN a.nf a.Wsg a.bsg (rowOf a.src e) k)
    (h7 : g7 (ix2 e k) = linN a.nf a.Wdg a.bdg (rowOf a.dst e) k) :
    edgeM ef g5 g7 We be e k = mTop a e k := by
  subst hef hWe
  unfold edgeM mTop linE
  rw [h5, h7, hbe]

/-- The gate. -/
theorem numSigR_eq (ef : FVec Ideal SE128 .f32) (g5 : FVec Ideal SE256 .f32) (g7 : FVec Ideal SE128 .f32)
    (We : FVec Ideal SW128 .f32) (be : FVec Ideal SR128 .f32) (e : Fin 800000) (k : Fin 128)
    (hef : ef = a.ef) (hWe : We = a.Weg) (hbe : be (ix2 0 k) = a.beg (ix1 k))
    (h5 : g5 (ix2 e (lo k)) = linN a.nf a.Wsg a.bsg (rowOf a.src e) k)
    (h7 : g7 (ix2 e k) = linN a.nf a.Wdg a.bdg (rowOf a.dst e) k) :
    numSigR ef g5 g7 We be e k = sigTop a e k := by
  unfold numSigR sigTop
  rw [edgeM_eq a ef g5 g7 We be e k hef hWe hbe h5 h7]

/-- The gated numerator. -/
theorem numSigL_eq (ef : FVec Ideal SE128 .f32) (g5 : FVec Ideal SE256 .f32) (g7 : FVec Ideal SE128 .f32)
    (We : FVec Ideal SW128 .f32) (be : FVec Ideal SR128 .f32) (e : Fin 800000) (k : Fin 128)
    (hef : ef = a.ef) (hWe : We = a.Weg) (hbe : be (ix2 0 k) = a.beg (ix1 k))
    (h5 : g5 (ix2 e (lo k)) = linN a.nf a.Wsg a.bsg (rowOf a.src e) k)
    (h7 : g7 (ix2 e k) = linN a.nf a.Wdg a.bdg (rowOf a.dst e) k)
    (h5hi : g5 (ix2 e (hi k)) = linN a.nf a.Wdu a.bdu (rowOf a.src e) k) :
    numSigL ef g5 g7 We be e k = linN a.nf a.Wdu a.bdu (rowOf a.src e) k * sigTop a e k := by
  unfold numSigL sigTop
  rw [h5hi, edgeM_eq a ef g5 g7 We be e k hef hWe hbe h5 h7]

/-- The edge output. -/
theorem edgeOut_eq (ef : FVec Ideal SE128 .f32) (g5 : FVec Ideal SE256 .f32) (g7 : FVec Ideal SE128 .f32)
    (We : FVec Ideal SW128 .f32) (be ge bte : FVec Ideal SR128 .f32) (e : Fin 800000) (j : Fin 128)
    (hef : ef = a.ef) (hWe : We = a.Weg) (hbe : ∀ k, be (ix2 0 k) = a.beg (ix1 k))
    (hge : ge (ix2 0 j) = a.ge (ix1 j)) (hbte : bte (ix2 0 j) = a.bte (ix1 j))
    (h5 : ∀ k, g5 (ix2 e (lo k)) = linN a.nf a.Wsg a.bsg (rowOf a.src e) k)
    (h7 : ∀ k, g7 (ix2 e k) = linN a.nf a.Wdg a.bdg (rowOf a.dst e) k) :
    edgeOut ef g5 g7 We be ge bte e j = edgeTop a e j := by
  have hM : (fun k => edgeM ef g5 g7 We be e k) = fun k => mTop a e k :=
    funext fun k => edgeM_eq a ef g5 g7 We be e k hef hWe (hbe k) (h5 k) (h7 k)
  unfold edgeOut edgeTop
  rw [hM, hge, hbte, hef]

/-- The node output. -/
theorem nodeOut_eq (nf : FVec Ideal SN128 .f32) (cs : FVec Ideal SN256 .f32) (nl : FVec Ideal SN512 .f32)
    (gn bn : FVec Ideal SR128 .f32) (n : Fin 50000) (j : Fin 128)
    (hnf : nf = a.nf) (hgn : gn (ix2 0 j) = a.gn (ix1 j)) (hbn : bn (ix2 0 j) = a.bn (ix1 j))
    (hnl : ∀ k, nl (ix2 n (qcol 3 k)) = linN a.nf a.Wsu a.bsu n k)
    (hlo : ∀ k, cs (ix2 n (lo k)) = sshTop a n k) (hhi : ∀ k, cs (ix2 n (hi k)) = ssTop a n k) :
    nodeOut nf cs nl gn bn n j = nodeTop a n j := by
  have hX : (fun k => nodeX cs nl n k) = fun k => xTop a n k := funext fun k => by
    unfold nodeX xTop
    rw [hnl k, hlo k, hhi k]
  unfold nodeOut nodeTop
  rw [hX, hgn, hbn, hnf]

end Pure

section Unwritten

/-! ## A buffer that nothing before the last region writes -/

/-- No host stretch and no region before the last writes the buffer. -/
structure Never (b : Ref sig .tc) : Prop where
  h0 : b ∉ hostOps0_W
  h1 : ∀ w, (cfg0.win w).isOut = true → Pipeline.arrRef spec0 w ≠ b
  h2 : b ∉ hostOps1_W
  h3 : b ∉ hostOps1_1_W
  h4 : b ∉ hostOps1_2_W
  h5 : b ∉ hostOps1_3_W
  h6 : b ∉ hostOps1_4_W
  h7 : ∀ w, (cfg1.win w).isOut = true → Pipeline.arrRef spec1 w ≠ b
  h8 : b ∉ hostOps2_W

variable {b : Ref sig .tc} (hb : Never b)
include hb

theorem W1_un : Run.W1 (F := Ideal) m ρ c (Proc.devRef .tc b) = m ((c : Thread nD τ).loc b) :=
  StableHlo.after_of_writes_sub hostOps0 _ hostOps0_writes hb.h0
theorem W2_un : Run.W2 (F := Ideal) m ρ c (Proc.devRef .tc b) = m ((c : Thread nD τ).loc b) :=
  (Run.W2_keep m ρ c b hb.h1).trans (W1_un m ρ c hb)
theorem W3_un : Run.W3 (F := Ideal) m ρ c (Proc.devRef .tc b) = m ((c : Thread nD τ).loc b) :=
  (StableHlo.after_of_writes_sub hostOps1 _ hostOps1_writes hb.h2).trans (W2_un m ρ c hb)
theorem W4_un : Run.W4 (F := Ideal) m ρ c (Proc.devRef .tc b) = m ((c : Thread nD τ).loc b) :=
  (StableHlo.after_of_writes_sub hostOps1_1 _ hostOps1_1_writes hb.h3).trans (W3_un m ρ c hb)
theorem W5_un : Run.W5 (F := Ideal) m ρ c (Proc.devRef .tc b) = m ((c : Thread nD τ).loc b) :=
  (StableHlo.after_of_writes_sub hostOps1_2 _ hostOps1_2_writes hb.h4).trans (W4_un m ρ c hb)
theorem W6_un : Run.W6 (F := Ideal) m ρ c (Proc.devRef .tc b) = m ((c : Thread nD τ).loc b) :=
  (StableHlo.after_of_writes_sub hostOps1_3 _ hostOps1_3_writes hb.h5).trans (W5_un m ρ c hb)
theorem W7_un : Run.W7 (F := Ideal) m ρ c (Proc.devRef .tc b) = m ((c : Thread nD τ).loc b) :=
  (StableHlo.after_of_writes_sub hostOps1_4 _ hostOps1_4_writes hb.h6).trans (W6_un m ρ c hb)
theorem W8_un : Run.W8 (F := Ideal) m ρ c (Proc.devRef .tc b) = m ((c : Thread nD τ).loc b) :=
  (Run.W8_keep m ρ c b hb.h7).trans (W7_un m ρ c hb)
theorem W9_un : Run.W9 (F := Ideal) m ρ c (Proc.devRef .tc b) = m ((c : Thread nD τ).loc b) :=
  (StableHlo.after_of_writes_sub hostOps2 _ hostOps2_writes hb.h8).trans (W8_un m ρ c hb)

omit hb

theorem never_arg0 : Never main_arg0 := ⟨by decide, by decide, by decide, by decide, by decide, by decide, by decide, by decide, by decide⟩
theorem never_arg1 : Never main_arg1 := ⟨by decide, by decide, by decide, by decide, by decide, by decide, by decide, by decide, by decide⟩
theorem never_arg2 : Never main_arg2 := ⟨by decide, by decide, by decide, by decide, by decide, by decide, by decide, by decide, by decide⟩
theorem never_arg3 : Never main_arg3 := ⟨by decide, by decide, by decide, by decide, by decide, by decide, by decide, by decide, by decide⟩
theorem never_arg8 : Never main_arg8 := ⟨by decide, by decide, by decide, by decide, by decide, by decide, by decide, by decide, by decide⟩
theorem never_arg9 : Never main_arg9 := ⟨by decide, by decide, by decide, by decide, by decide, by decide, by decide, by decide, by decide⟩
theorem never_arg14 : Never main_arg14 := ⟨by decide, by decide, by decide, by decide, by decide, by decide, by decide, by decide, by decide⟩
theorem never_arg15 : Never main_arg15 := ⟨by decide, by decide, by decide, by decide, by decide, by decide, by decide, by decide, by decide⟩
theorem never_arg16 : Never main_arg16 := ⟨by decide, by decide, by decide, by decide, by decide, by decide, by decide, by decide, by decide⟩
theorem never_arg17 : Never main_arg17 := ⟨by decide, by decide, by decide, by decide, by decide, by decide, by decide, by decide, by decide⟩

end Unwritten

/-! ## What each host operation leaves, as a term over the buffers it reads -/

/-- The four weight matrices side by side. -/
theorem v0_term :
    (Run.W1 (F := Ideal) m ρ c (Proc.devRef .tc main_v0) : FVec Ideal S128x512 .f32)
      = concatenate S128x512 1 [⟨S128x128, (m ((c : Thread nD τ).loc main_arg4) : FVec Ideal S128x128 .f32)⟩,
          ⟨S128x128, (m ((c : Thread nD τ).loc main_arg12) : FVec Ideal S128x128 .f32)⟩,
          ⟨S128x128, (m ((c : Thread nD τ).loc main_arg6) : FVec Ideal S128x128 .f32)⟩,
          ⟨S128x128, (m ((c : Thread nD τ).loc main_arg10) : FVec Ideal S128x128 .f32)⟩]
          concatenates_S128x128_S128x128_S128x128_S128x128_S128x512_d1 := by
  show StableHlo.after hostOps0 (Run.W0 m ρ c) (Proc.devRef .tc main_v0) = _
  after_results
  all_goals rfl

/-- The four bias vectors end to end, as one row. -/
theorem v2_term :
    (Run.W1 (F := Ideal) m ρ c (Proc.devRef .tc main_v2) : FVec Ideal S1x512 .f32)
      = broadcastInDim S1x512 ![1] bcast_S512_S1x512_1
          (concatenate S512 0 [⟨S128, (m ((c : Thread nD τ).loc main_arg5) : FVec Ideal S128 .f32)⟩,
            ⟨S128, (m ((c : Thread nD τ).loc main_arg13) : FVec Ideal S128 .f32)⟩,
            ⟨S128, (m ((c : Thread nD τ).loc main_arg7) : FVec Ideal S128 .f32)⟩,
            ⟨S128, (m ((c : Thread nD τ).loc main_arg11) : FVec Ideal S128 .f32)⟩]
            concatenates_S128_S128_S128_S128_S512_d0) := by
  show StableHlo.after hostOps0 (Run.W0 m ρ c) (Proc.devRef .tc main_v2) = _
  after_results
  all_goals rfl

/-- The left 256 columns of the linear region's output. -/
theorem v4_term :
    (Run.W3 (F := Ideal) m ρ c (Proc.devRef .tc main_v4) : FVec Ideal S50000x256 .f32)
      = extractStridedSlice S50000x256 ![0, 0] (Run.W2 (F := Ideal) m ρ c (Proc.devRef .tc main_v3) : FVec Ideal S50000x512 .f32)
          slices_S50000x512_S50000x256_0_0 := by
  show StableHlo.after hostOps1 (Run.W2 m ρ c) (Proc.devRef .tc main_v4) = _
  after_results
  all_goals rfl

/-- The rows of that slice at the source words. -/
theorem v5_term :
    (Run.W4 (F := Ideal) m ρ c (Proc.devRef .tc main_v5) : FVec Ideal S800000x256 .f32)
      = Host.gather gather_S50000x256_S800000x1_S800000x256_1_0_n_n_0_1_1256
          (Run.W3 (F := Ideal) m ρ c (Proc.devRef .tc main_v4) : FVec Ideal S50000x256 .f32)
          (broadcastInDim S800000x1 ![0] bcast_S800000_S800000x1_0
            (Run.W3 (F := Ideal) m ρ c (Proc.devRef .tc main_arg2) : IVec S800000 32)) := by
  show StableHlo.after hostOps1_1 (Run.W3 m ρ c) (Proc.devRef .tc main_v5) = _
  after_results
  all_goals rfl

/-- Columns 256 to 383 of the linear region's output. -/
theorem v6_term :
    (Run.W5 (F := Ideal) m ρ c (Proc.devRef .tc main_v6) : FVec Ideal S50000x128 .f32)
      = extractStridedSlice S50000x128 ![0, 256] (Run.W4 (F := Ideal) m ρ c (Proc.devRef .tc main_v3) : FVec Ideal S50000x512 .f32)
          slices_S50000x512_S50000x128_0_256 := by
  show StableHlo.after hostOps1_2 (Run.W4 m ρ c) (Proc.devRef .tc main_v6) = _
  after_results
  all_goals rfl

/-- The rows of that slice at the destination words. -/
theorem v7_term :
    (Run.W6 (F := Ideal) m ρ c (Proc.devRef .tc main_v7) : FVec Ideal S800000x128 .f32)
      = Host.gather gather_S50000x128_S800000x1_S800000x128_1_0_n_n_0_1_1128
          (Run.W5 (F := Ideal) m ρ c (Proc.devRef .tc main_v6) : FVec Ideal S50000x128 .f32)
          (broadcastInDim S800000x1 ![0] bcast_S800000_S800000x1_0
            (Run.W5 (F := Ideal) m ρ c (Proc.devRef .tc main_arg3) : IVec S800000 32)) := by
  show StableHlo.after hostOps1_3 (Run.W5 m ρ c) (Proc.devRef .tc main_v7) = _
  after_results
  all_goals rfl

/-- Three parameter vectors as rows. -/
theorem v8_term :
    (Run.W7 (F := Ideal) m ρ c (Proc.devRef .tc main_v8) : FVec Ideal S1x128 .f32)
      = broadcastInDim S1x128 ![1] bcast_S128_S1x128_1 (Run.W6 (F := Ideal) m ρ c (Proc.devRef .tc main_arg9) : FVec Ideal S128 .f32) := by
  show StableHlo.after hostOps1_4 (Run.W6 m ρ c) (Proc.devRef .tc main_v8) = _
  after_results
  all_goals rfl
theorem v9_term :
    (Run.W7 (F := Ideal) m ρ c (Proc.devRef .tc main_v9) : FVec Ideal S1x128 .f32)
      = broadcastInDim S1x128 ![1] bcast_S128_S1x128_1 (Run.W6 (F := Ideal) m ρ c (Proc.devRef .tc main_arg16) : FVec Ideal S128 .f32) := by
  show StableHlo.after hostOps1_4 (Run.W6 m ρ c) (Proc.devRef .tc main_v9) = _
  after_results
  all_goals rfl
theorem v10_term :
    (Run.W7 (F := Ideal) m ρ c (Proc.devRef .tc main_v10) : FVec Ideal S1x128 .f32)
      = broadcastInDim S1x128 ![1] bcast_S128_S1x128_1 (Run.W6 (F := Ideal) m ρ c (Proc.devRef .tc main_arg17) : FVec Ideal S128 .f32) := by
  show StableHlo.after hostOps1_4 (Run.W6 m ρ c) (Proc.devRef .tc main_v10) = _
  after_results
  all_goals rfl

/-- The edge region's first output added row by row, at the destination words, into a zero array. -/
theorem v14_term :
    (Run.W9 (F := Ideal) m ρ c (Proc.devRef .tc main_v14) : FVec Ideal S50000x256 .f32)
      = Host.scatterAdd (F := Ideal) scatter_S50000x256_S800000x1_S800000x256_1_0_0_1
          (broadcastInDim S50000x256 ![] bcast_S_S50000x256 (constant (F := Ideal) S_ .f32 0x00000000#32))
          (broadcastInDim S800000x1 ![0] bcast_S800000_S800000x1_0
            (Run.W8 (F := Ideal) m ρ c (Proc.devRef .tc main_arg3) : IVec S800000 32))
          (Run.W8 (F := Ideal) m ρ c (Proc.devRef .tc main_v11_0) : FVec Ideal S800000x256 .f32) := by
  show StableHlo.after hostOps2 (Run.W8 m ρ c) (Proc.devRef .tc main_v14) = _
  after_results
  all_goals rfl

/-- Two more parameter vectors as rows. -/
theorem v15_term :
    (Run.W9 (F := Ideal) m ρ c (Proc.devRef .tc main_v15) : FVec Ideal S1x128 .f32)
      = broadcastInDim S1x128 ![1] bcast_S128_S1x128_1 (Run.W8 (F := Ideal) m ρ c (Proc.devRef .tc main_arg14) : FVec Ideal S128 .f32) := by
  show StableHlo.after hostOps2 (Run.W8 m ρ c) (Proc.devRef .tc main_v15) = _
  after_results
  all_goals rfl
theorem v16_term :
    (Run.W9 (F := Ideal) m ρ c (Proc.devRef .tc main_v16) : FVec Ideal S1x128 .f32)
      = broadcastInDim S1x128 ![1] bcast_S128_S1x128_1 (Run.W8 (F := Ideal) m ρ c (Proc.devRef .tc main_arg15) : FVec Ideal S128 .f32) := by
  show StableHlo.after hostOps2 (Run.W8 m ρ c) (Proc.devRef .tc main_v16) = _
  after_results
  all_goals rfl

/-! ## Layout operations read at an index -/

section Layout
variable {α : Type}

/-- Four 128-column blocks side by side, read in the block whose span holds the column. -/
theorem cat4_cols (x0 x1 x2 x3 : S128x128.Idx → α)
    (h : Shape.Concatenates [S128x128, S128x128, S128x128, S128x128] S128x512 1) (k j : Fin 128) (col : Fin 512) :
    (col.val = j.val → concatenate S128x512 1 [⟨S128x128, x0⟩, ⟨S128x128, x1⟩, ⟨S128x128, x2⟩, ⟨S128x128, x3⟩] h (ix2 k col) = x0 (ix2 k j))
    ∧ (col.val = 128 + j.val → concatenate S128x512 1 [⟨S128x128, x0⟩, ⟨S128x128, x1⟩, ⟨S128x128, x2⟩, ⟨S128x128, x3⟩] h (ix2 k col) = x1 (ix2 k j))
    ∧ (col.val = 256 + j.val → concatenate S128x512 1 [⟨S128x128, x0⟩, ⟨S128x128, x1⟩, ⟨S128x128, x2⟩, ⟨S128x128, x3⟩] h (ix2 k col) = x2 (ix2 k j))
    ∧ (col.val = 384 + j.val → concatenate S128x512 1 [⟨S128x128, x0⟩, ⟨S128x128, x1⟩, ⟨S128x128, x2⟩, ⟨S128x128, x3⟩] h (ix2 k col) = x3 (ix2 k j)) := by
  have hoff : ∀ b : Fin S128x128.rank, b.cast (rfl : S128x128.rank = S128x512.rank) ≠ (1 : Fin S128x512.rank) →
      ((ix2 k j : S128x128.Idx) b).val = ((ix2 k col : S128x512.Idx) (b.cast rfl)).val := fun b hb =>
    match b, hb with
    | ⟨0, _⟩, _ => rfl
    | ⟨1, _⟩, hb => absurd (Fin.ext rfl) hb
  refine ⟨fun hc => ?_, fun hc => ?_, fun hc => ?_, fun hc => ?_⟩
  · exact concatenate_apply_piece (1 : Fin S128x512.rank) [⟨S128x128, x0⟩, ⟨S128x128, x1⟩, ⟨S128x128, x2⟩, ⟨S128x128, x3⟩] h (ix2 k col) 0 (by show 0 < 4; omega) S128x128 x0 rfl rfl 0 rfl (ix2 k j) hoff
      (by show 0 + j.val = col.val; omega)
  · exact concatenate_apply_piece (1 : Fin S128x512.rank) [⟨S128x128, x0⟩, ⟨S128x128, x1⟩, ⟨S128x128, x2⟩, ⟨S128x128, x3⟩] h (ix2 k col) 1 (by show 1 < 4; omega) S128x128 x1 rfl rfl 128 rfl (ix2 k j) hoff
      (by show 128 + j.val = col.val; omega)
  · exact concatenate_apply_piece (1 : Fin S128x512.rank) [⟨S128x128, x0⟩, ⟨S128x128, x1⟩, ⟨S128x128, x2⟩, ⟨S128x128, x3⟩] h (ix2 k col) 2 (by show 2 < 4; omega) S128x128 x2 rfl rfl 256 rfl (ix2 k j) hoff
      (by show 256 + j.val = col.val; omega)
  · exact concatenate_apply_piece (1 : Fin S128x512.rank) [⟨S128x128, x0⟩, ⟨S128x128, x1⟩, ⟨S128x128, x2⟩, ⟨S128x128, x3⟩] h (ix2 k col) 3 (by show 3 < 4; omega) S128x128 x3 rfl rfl 384 rfl (ix2 k j) hoff
      (by show 384 + j.val = col.val; omega)

/-- Four 128-entry vectors end to end, read in the vector whose span holds the position. -/
theorem cat4_vec (x0 x1 x2 x3 : S128.Idx → α)
    (h : Shape.Concatenates [S128, S128, S128, S128] S512 0) (j : Fin 128) (col : Fin 512) :
    (col.val = j.val → concatenate S512 0 [⟨S128, x0⟩, ⟨S128, x1⟩, ⟨S128, x2⟩, ⟨S128, x3⟩] h (ix1 col) = x0 (ix1 j))
    ∧ (col.val = 128 + j.val → concatenate S512 0 [⟨S128, x0⟩, ⟨S128, x1⟩, ⟨S128, x2⟩, ⟨S128, x3⟩] h (ix1 col) = x1 (ix1 j))
    ∧ (col.val = 256 + j.val → concatenate S512 0 [⟨S128, x0⟩, ⟨S128, x1⟩, ⟨S128, x2⟩, ⟨S128, x3⟩] h (ix1 col) = x2 (ix1 j))
    ∧ (col.val = 384 + j.val → concatenate S512 0 [⟨S128, x0⟩, ⟨S128, x1⟩, ⟨S128, x2⟩, ⟨S128, x3⟩] h (ix1 col) = x3 (ix1 j)) := by
  have hoff : ∀ b : Fin S128.rank, b.cast (rfl : S128.rank = S512.rank) ≠ (0 : Fin S512.rank) →
      ((ix1 j : S128.Idx) b).val = ((ix1 col : S512.Idx) (b.cast rfl)).val := fun b hb =>
    match b, hb with
    | ⟨0, _⟩, hb => absurd (Fin.ext rfl) hb
  refine ⟨fun hc => ?_, fun hc => ?_, fun hc => ?_, fun hc => ?_⟩
  · exact concatenate_apply_piece (0 : Fin S512.rank) [⟨S128, x0⟩, ⟨S128, x1⟩, ⟨S128, x2⟩, ⟨S128, x3⟩] h (ix1 col) 0 (by show 0 < 4; omega) S128 x0 rfl rfl 0 rfl (ix1 j) hoff
      (by show 0 + j.val = col.val; omega)
  · exact concatenate_apply_piece (0 : Fin S512.rank) [⟨S128, x0⟩, ⟨S128, x1⟩, ⟨S128, x2⟩, ⟨S128, x3⟩] h (ix1 col) 1 (by show 1 < 4; omega) S128 x1 rfl rfl 128 rfl (ix1 j) hoff
      (by show 128 + j.val = col.val; omega)
  · exact concatenate_apply_piece (0 : Fin S512.rank) [⟨S128, x0⟩, ⟨S128, x1⟩, ⟨S128, x2⟩, ⟨S128, x3⟩] h (ix1 col) 2 (by show 2 < 4; omega) S128 x2 rfl rfl 256 rfl (ix1 j) hoff
      (by show 256 + j.val = col.val; omega)
  · exact concatenate_apply_piece (0 : Fin S512.rank) [⟨S128, x0⟩, ⟨S128, x1⟩, ⟨S128, x2⟩, ⟨S128, x3⟩] h (ix1 col) 3 (by show 3 < 4; omega) S128 x3 rfl rfl 384 rfl (ix1 j) hoff
      (by show 384 + j.val = col.val; omega)

/-- A 512-entry vector as a one-row matrix. -/
theorem row512_at (x : S512.Idx → α) (col : Fin 512) :
    broadcastInDim S1x512 ![1] bcast_S512_S1x512_1 x (ix2 0 col) = x (ix1 col) :=
  broadcastInDim_apply _ bcast_S512_S1x512_1 x (ix2 0 col) (ix1 col) (fun a => match a with
    | ⟨0, _⟩ => by show col.val = if (512 : Nat) = 1 then 0 else col.val; rw [if_neg (by decide)])

/-- A 128-entry vector as a one-row matrix. -/
theorem row128_at (x : S128.Idx → α) (j : Fin 128) :
    broadcastInDim S1x128 ![1] bcast_S128_S1x128_1 x (ix2 0 j) = x (ix1 j) :=
  broadcastInDim_apply _ bcast_S128_S1x128_1 x (ix2 0 j) (ix1 j) (fun a => match a with
    | ⟨0, _⟩ => by show j.val = if (128 : Nat) = 1 then 0 else j.val; rw [if_neg (by decide)])

/-- The index words as a one-column matrix. -/
theorem words_at (s : S800000.Idx → α) (e : Fin 800000) :
    broadcastInDim S800000x1 ![0] bcast_S800000_S800000x1_0 s (ix2 e 0) = s (ix1 e) :=
  broadcastInDim_apply _ bcast_S800000_S800000x1_0 s (ix2 e 0) (ix1 e) (fun a => match a with
    | ⟨0, _⟩ => by show e.val = if (800000 : Nat) = 1 then 0 else e.val; rw [if_neg (by decide)])

end Layout

/-- The zero array the sums are added into. -/
theorem zeros_at (i : Fin 50000) (h : Fin 256) :
    broadcastInDim S50000x256 ![] bcast_S_S50000x256 (constant (F := Ideal) S_ .f32 0x00000000#32) (ix2 i h) = 0 := by
  refine (broadcastInDim_apply _ bcast_S_S50000x256 (constant (F := Ideal) S_ .f32 0x00000000#32) (ix2 i h) ix0 (fun a => a.elim0)).trans ?_
  exact Ideal.ofBits_zero_f32

/-! ## A row gather and the row scatter-add at the index words -/

/-- A row gather at the index words reads the row the specification names. -/
theorem gather_at {C : Nat} (d : GatherDims ⟨2, ![50000, C]⟩ ⟨2, ![800000, 1]⟩ ⟨2, ![800000, C]⟩)
    (hod : d.offsetDims = [1]) (hcoll : d.collapsedSliceDims = [0]) (hob : d.operandBatchingDims = [])
    (hsim : d.startIndexMap = [0]) (hiv : d.indexVectorDim = 1)
    (x : (⟨2, ![50000, C]⟩ : Shape).Idx → EReal) (s : IVec S800000 32) (e : Fin 800000) (h : Fin C) :
    Host.gather d x (broadcastInDim S800000x1 ![0] bcast_S800000_S800000x1_0 s) (ix2 e h) = x (ix2 (Spec.rowOf s e) h) := by
  rw [Cert.LibScatterGather.gather_rows_apply d hod hcoll hob hsim hiv x _ (by decide) e h]
  refine congrArg (fun t : Fin 50000 => x (ix2 t h)) (Fin.ext ?_)
  show min ((broadcastInDim S800000x1 ![0] bcast_S800000_S800000x1_0 s) (ix2 e 0)).toInt.toNat (50000 - 1)
    = min (s (ix1 e)).toInt.toNat (50000 - 1)
  rw [words_at]

/-- The row scatter-add into the zero array at the index words: the sum over the edges into the node. -/
theorem scatter_at (upd : FVec Ideal S800000x256 .f32) (s : IVec S800000 32) (n : Fin 50000) (h : Fin 256) :
    Host.scatterAdd (F := Ideal) scatter_S50000x256_S800000x1_S800000x256_1_0_0_1
        (broadcastInDim S50000x256 ![] bcast_S_S50000x256 (constant (F := Ideal) S_ .f32 0x00000000#32))
        (broadcastInDim S800000x1 ![0] bcast_S800000_S800000x1_0 s) upd (ix2 n h)
      = ∑ e ∈ Spec.into s n, upd (ix2 e h) := by
  rw [Cert.LibScatterGather.scatterAdd_rows_apply scatter_S50000x256_S800000x1_S800000x256_1_0_0_1 rfl rfl rfl rfl _ _ upd n h,
    zeros_at, zero_add]
  unfold Spec.into
  refine Finset.sum_congr (Finset.filter_congr fun e _ => ?_) fun _ _ => rfl
  rw [words_at]

/-! ## The buffers read at an index -/

/-- The concatenated weights, column by quarter. -/
theorem v0_at (k j : Fin 128) (col : Fin 512) :
    (col.val = j.val → (Run.W1 (F := Ideal) m ρ c (Proc.devRef .tc main_v0) : FVec Ideal S128x512 .f32) (ix2 k col)
        = (m ((c : Thread nD τ).loc main_arg4) : FVec Ideal S128x128 .f32) (ix2 k j))
    ∧ (col.val = 128 + j.val → (Run.W1 (F := Ideal) m ρ c (Proc.devRef .tc main_v0) : FVec Ideal S128x512 .f32) (ix2 k col)
        = (m ((c : Thread nD τ).loc main_arg12) : FVec Ideal S128x128 .f32) (ix2 k j))
    ∧ (col.val = 256 + j.val → (Run.W1 (F := Ideal) m ρ c (Proc.devRef .tc main_v0) : FVec Ideal S128x512 .f32) (ix2 k col)
        = (m ((c : Thread nD τ).loc main_arg6) : FVec Ideal S128x128 .f32) (ix2 k j))
    ∧ (col.val = 384 + j.val → (Run.W1 (F := Ideal) m ρ c (Proc.devRef .tc main_v0) : FVec Ideal S128x512 .f32) (ix2 k col)
        = (m ((c : Thread nD τ).loc main_arg10) : FVec Ideal S128x128 .f32) (ix2 k j)) := by
  rw [v0_term]
  exact cat4_cols _ _ _ _ _ k j col

/-- The concatenated biases, position by quarter. -/
theorem v2_at (j : Fin 128) (col : Fin 512) :
    (col.val = j.val → (Run.W1 (F := Ideal) m ρ c (Proc.devRef .tc main_v2) : FVec Ideal S1x512 .f32) (ix2 0 col)
        = (m ((c : Thread nD τ).loc main_arg5) : FVec Ideal S128 .f32) (ix1 j))
    ∧ (col.val = 128 + j.val → (Run.W1 (F := Ideal) m ρ c (Proc.devRef .tc main_v2) : FVec Ideal S1x512 .f32) (ix2 0 col)
        = (m ((c : Thread nD τ).loc main_arg13) : FVec Ideal S128 .f32) (ix1 j))
    ∧ (col.val = 256 + j.val → (Run.W1 (F := Ideal) m ρ c (Proc.devRef .tc main_v2) : FVec Ideal S1x512 .f32) (ix2 0 col)
        = (m ((c : Thread nD τ).loc main_arg7) : FVec Ideal S128 .f32) (ix1 j))
    ∧ (col.val = 384 + j.val → (Run.W1 (F := Ideal) m ρ c (Proc.devRef .tc main_v2) : FVec Ideal S1x512 .f32) (ix2 0 col)
        = (m ((c : Thread nD τ).loc main_arg11) : FVec Ideal S128 .f32) (ix1 j)) := by
  rw [v2_term, row512_at]
  exact cat4_vec _ _ _ _ _ j col

/-- The linear region's output at its exit. -/
theorem v3_lin (r : Fin 50000) (col : Fin 512) :
    (Run.W2 (F := Ideal) m ρ c (Proc.devRef .tc main_v3) : FVec Ideal S50000x512 .f32) (ix2 r col)
      = Spec.nodeLin (m ((c : Thread nD τ).loc main_arg0)) (Run.W1 (F := Ideal) m ρ c (Proc.devRef .tc main_v0))
          (Run.W1 (F := Ideal) m ρ c (Proc.devRef .tc main_v2)) r col := by
  have e : Run.W2 (F := Ideal) m ρ c (Proc.devRef .tc main_v3) = (Rg0.dat (Run.V1 (F := Ideal) m ρ) c).arrAt 3 cfg0.N :=
    Run.W2_arr m ρ c 3
  have e0 : Run.V1 (F := Ideal) m ρ c main_arg0 = m ((c : Thread nD τ).loc main_arg0) := W1_un m ρ c never_arg0
  rw [e, Val0.final (Run.V1 (F := Ideal) m ρ) c r col, e0]

/-- The linear region's output, column by quarter: the node-level linear map of that quarter's weights and bias. -/
theorem v3_q (r : Fin 50000) (j : Fin 128) (col : Fin 512) :
    (col.val = j.val → (Run.W2 (F := Ideal) m ρ c (Proc.devRef .tc main_v3) : FVec Ideal S50000x512 .f32) (ix2 r col)
        = Spec.linN (argsOf m c).nf (argsOf m c).Wsg (argsOf m c).bsg r j)
    ∧ (col.val = 128 + j.val → (Run.W2 (F := Ideal) m ρ c (Proc.devRef .tc main_v3) : FVec Ideal S50000x512 .f32) (ix2 r col)
        = Spec.linN (argsOf m c).nf (argsOf m c).Wdu (argsOf m c).bdu r j)
    ∧ (col.val = 256 + j.val → (Run.W2 (F := Ideal) m ρ c (Proc.devRef .tc main_v3) : FVec Ideal S50000x512 .f32) (ix2 r col)
        = Spec.linN (argsOf m c).nf (argsOf m c).Wdg (argsOf m c).bdg r j)
    ∧ (col.val = 384 + j.val → (Run.W2 (F := Ideal) m ρ c (Proc.devRef .tc main_v3) : FVec Ideal S50000x512 .f32) (ix2 r col)
        = Spec.linN (argsOf m c).nf (argsOf m c).Wsu (argsOf m c).bsu r j) := by
  rw [v3_lin]
  refine ⟨fun hc => ?_, fun hc => ?_, fun hc => ?_, fun hc => ?_⟩
  · exact nodeLin_eq _ _ _ _ _ r col j (fun k => (v0_at m ρ c k j col).1 hc) ((v2_at m ρ c j col).1 hc)
  · exact nodeLin_eq _ _ _ _ _ r col j (fun k => (v0_at m ρ c k j col).2.1 hc) ((v2_at m ρ c j col).2.1 hc)
  · exact nodeLin_eq _ _ _ _ _ r col j (fun k => (v0_at m ρ c k j col).2.2.1 hc) ((v2_at m ρ c j col).2.2.1 hc)
  · exact nodeLin_eq _ _ _ _ _ r col j (fun k => (v0_at m ρ c k j col).2.2.2 hc) ((v2_at m ρ c j col).2.2.2 hc)

/-- The first gathered slab at the edge region's entry: the linear region's output in the row the source word names. -/
theorem v5_at (e : Fin 800000) (h : Fin 256) (col : Fin 512) (hc : col.val = h.val) :
    (Run.W7 (F := Ideal) m ρ c (Proc.devRef .tc main_v5) : FVec Ideal S800000x256 .f32) (ix2 e h)
      = (Run.W2 (F := Ideal) m ρ c (Proc.devRef .tc main_v3) : FVec Ideal S50000x512 .f32) (ix2 (Spec.rowOf (argsOf m c).src e) col) := by
  have k7 : Run.W7 (F := Ideal) m ρ c (Proc.devRef .tc main_v5) = Run.W4 (F := Ideal) m ρ c (Proc.devRef .tc main_v5) :=
    (StableHlo.after_of_writes_sub hostOps1_4 _ hostOps1_4_writes (by decide)).trans
      ((StableHlo.after_of_writes_sub hostOps1_3 _ hostOps1_3_writes (by decide)).trans
        (StableHlo.after_of_writes_sub hostOps1_2 _ hostOps1_2_writes (by decide)))
  have es : Run.W3 (F := Ideal) m ρ c (Proc.devRef .tc main_arg2) = (argsOf m c).src := W3_un m ρ c never_arg2
  rw [k7, v5_term, es, gather_at _ rfl rfl rfl rfl rfl, v4_term]
  exact slice2_axis1_apply 0 _ _ _ h col (by omega)

/-- The second gathered slab at the edge region's entry: the linear region's output, third quarter, in the row the
    destination word names. -/
theorem v7_at (e : Fin 800000) (j : Fin 128) (col : Fin 512) (hc : col.val = 256 + j.val) :
    (Run.W7 (F := Ideal) m ρ c (Proc.devRef .tc main_v7) : FVec Ideal S800000x128 .f32) (ix2 e j)
      = (Run.W2 (F := Ideal) m ρ c (Proc.devRef .tc main_v3) : FVec Ideal S50000x512 .f32) (ix2 (Spec.rowOf (argsOf m c).dst e) col) := by
  have k7 : Run.W7 (F := Ideal) m ρ c (Proc.devRef .tc main_v7) = Run.W6 (F := Ideal) m ρ c (Proc.devRef .tc main_v7) :=
    StableHlo.after_of_writes_sub hostOps1_4 _ hostOps1_4_writes (by decide)
  have k3 : Run.W4 (F := Ideal) m ρ c (Proc.devRef .tc main_v3) = Run.W2 (F := Ideal) m ρ c (Proc.devRef .tc main_v3) :=
    (StableHlo.after_of_writes_sub hostOps1_1 _ hostOps1_1_writes (by decide)).trans
      (StableHlo.after_of_writes_sub hostOps1 _ hostOps1_writes (by decide))
  have es : Run.W5 (F := Ideal) m ρ c (Proc.devRef .tc main_arg3) = (argsOf m c).dst := W5_un m ρ c never_arg3
  rw [k7, v7_term, es, gather_at _ rfl rfl rfl rfl rfl, v6_term, k3]
  exact slice2_axis1_apply 256 _ _ _ j col hc

/-! ## The edge region's operands, in the specification's terms -/

theorem r1_ef : Run.V7 (F := Ideal) m ρ c main_arg1 = (argsOf m c).ef := W7_un m ρ c never_arg1
theorem r1_We : Run.V7 (F := Ideal) m ρ c main_arg8 = (argsOf m c).Weg := W7_un m ρ c never_arg8
theorem r1_be (k : Fin 128) : (Run.V7 (F := Ideal) m ρ c main_v8 : FVec Ideal S1x128 .f32) (ix2 0 k) = (argsOf m c).beg (ix1 k) := by
  have e9 : Run.W6 (F := Ideal) m ρ c (Proc.devRef .tc main_arg9) = (argsOf m c).beg := W6_un m ρ c never_arg9
  show (Run.W7 (F := Ideal) m ρ c (Proc.devRef .tc main_v8) : FVec Ideal S1x128 .f32) (ix2 0 k) = _
  rw [v8_term, e9, row128_at]
theorem r1_ge (k : Fin 128) : (Run.V7 (F := Ideal) m ρ c main_v9 : FVec Ideal S1x128 .f32) (ix2 0 k) = (argsOf m c).ge (ix1 k) := by
  have e9 : Run.W6 (F := Ideal) m ρ c (Proc.devRef .tc main_arg16) = (argsOf m c).ge := W6_un m ρ c never_arg16
  show (Run.W7 (F := Ideal) m ρ c (Proc.devRef .tc main_v9) : FVec Ideal S1x128 .f32) (ix2 0 k) = _
  rw [v9_term, e9, row128_at]
theorem r1_bte (k : Fin 128) : (Run.V7 (F := Ideal) m ρ c main_v10 : FVec Ideal S1x128 .f32) (ix2 0 k) = (argsOf m c).bte (ix1 k) := by
  have e9 : Run.W6 (F := Ideal) m ρ c (Proc.devRef .tc main_arg17) = (argsOf m c).bte := W6_un m ρ c never_arg17
  show (Run.W7 (F := Ideal) m ρ c (Proc.devRef .tc main_v10) : FVec Ideal S1x128 .f32) (ix2 0 k) = _
  rw [v10_term, e9, row128_at]
theorem r1_g5lo (e : Fin 800000) (k : Fin 128) :
    (Run.V7 (F := Ideal) m ρ c main_v5 : FVec Ideal S800000x256 .f32) (ix2 e (Spec.lo k))
      = Spec.linN (argsOf m c).nf (argsOf m c).Wsg (argsOf m c).bsg (Spec.rowOf (argsOf m c).src e) k :=
  (v5_at m ρ c e (Spec.lo k) ⟨k.val, by omega⟩ rfl).trans ((v3_q m ρ c _ k _).1 rfl)
theorem r1_g5hi (e : Fin 800000) (k : Fin 128) :
    (Run.V7 (F := Ideal) m ρ c main_v5 : FVec Ideal S800000x256 .f32) (ix2 e (Spec.hi k))
      = Spec.linN (argsOf m c).nf (argsOf m c).Wdu (argsOf m c).bdu (Spec.rowOf (argsOf m c).src e) k :=
  (v5_at m ρ c e (Spec.hi k) ⟨128 + k.val, by omega⟩ rfl).trans ((v3_q m ρ c _ k _).2.1 rfl)
theorem r1_g7 (e : Fin 800000) (k : Fin 128) :
    (Run.V7 (F := Ideal) m ρ c main_v7 : FVec Ideal S800000x128 .f32) (ix2 e k)
      = Spec.linN (argsOf m c).nf (argsOf m c).Wdg (argsOf m c).bdg (Spec.rowOf (argsOf m c).dst e) k :=
  (v7_at m ρ c e k ⟨256 + k.val, by omega⟩ rfl).trans ((v3_q m ρ c _ k _).2.2.1 rfl)

/-! ## The scattered sums -/

/-- The edge region's first output at its exit. -/
theorem v11_arr : Run.W8 (F := Ideal) m ρ c (Proc.devRef .tc main_v11_0) = (Rg1.dat (Run.V7 (F := Ideal) m ρ) c).arrAt 7 cfg1.N :=
  Run.W8_arr m ρ c 7

/-- The scatter-add's left half: the gated numerators summed over the edges into the node. -/
theorem v14_lo (n : Fin 50000) (k : Fin 128) :
    (Run.V9 (F := Ideal) m ρ c main_v14 : FVec Ideal S50000x256 .f32) (ix2 n (Spec.lo k)) = Spec.sshTop (argsOf m c) n k := by
  have ed : Run.W8 (F := Ideal) m ρ c (Proc.devRef .tc main_arg3) = (argsOf m c).dst := W8_un m ρ c never_arg3
  show (Run.W9 (F := Ideal) m ρ c (Proc.devRef .tc main_v14) : FVec Ideal S50000x256 .f32) (ix2 n (Spec.lo k)) = _
  rw [v14_term, ed, scatter_at, v11_arr]
  show (_ : EReal) = _
  unfold Spec.sshTop
  refine Finset.sum_congr rfl fun e _ => ?_
  rw [Val1.final_lo (Run.V7 (F := Ideal) m ρ) c e k]
  exact numSigL_eq (argsOf m c) _ _ _ _ _ e k (r1_ef m ρ c) (r1_We m ρ c) (r1_be m ρ c k) (r1_g5lo m ρ c e k) (r1_g7 m ρ c e k)
    (r1_g5hi m ρ c e k)

/-- The scatter-add's right half: the gates summed over the edges into the node. -/
theorem v14_hi (n : Fin 50000) (k : Fin 128) :
    (Run.V9 (F := Ideal) m ρ c main_v14 : FVec Ideal S50000x256 .f32) (ix2 n (Spec.hi k)) = Spec.ssTop (argsOf m c) n k := by
  have ed : Run.W8 (F := Ideal) m ρ c (Proc.devRef .tc main_arg3) = (argsOf m c).dst := W8_un m ρ c never_arg3
  show (Run.W9 (F := Ideal) m ρ c (Proc.devRef .tc main_v14) : FVec Ideal S50000x256 .f32) (ix2 n (Spec.hi k)) = _
  rw [v14_term, ed, scatter_at, v11_arr]
  show (_ : EReal) = _
  unfold Spec.ssTop
  refine Finset.sum_congr rfl fun e _ => ?_
  rw [Val1.final_hi (Run.V7 (F := Ideal) m ρ) c e k]
  exact numSigR_eq (argsOf m c) _ _ _ _ _ e k (r1_ef m ρ c) (r1_We m ρ c) (r1_be m ρ c k) (r1_g5lo m ρ c e k) (r1_g7 m ρ c e k)

/-- The linear region's output is still there at the last region's entry; its last quarter is the self-update map. -/
theorem v3_at9 (n : Fin 50000) (k : Fin 128) :
    (Run.V9 (F := Ideal) m ρ c main_v3 : FVec Ideal S50000x512 .f32) (ix2 n (Spec.qcol 3 k))
      = Spec.linN (argsOf m c).nf (argsOf m c).Wsu (argsOf m c).bsu n k := by
  have k9 : Run.W9 (F := Ideal) m ρ c (Proc.devRef .tc main_v3) = Run.W2 (F := Ideal) m ρ c (Proc.devRef .tc main_v3) :=
    (StableHlo.after_of_writes_sub hostOps2 _ hostOps2_writes (by decide)).trans
      ((Run.W8_keep m ρ c main_v3 (by decide)).trans
        ((StableHlo.after_of_writes_sub hostOps1_4 _ hostOps1_4_writes (by decide)).trans
          ((StableHlo.after_of_writes_sub hostOps1_3 _ hostOps1_3_writes (by decide)).trans
            ((StableHlo.after_of_writes_sub hostOps1_2 _ hostOps1_2_writes (by decide)).trans
              ((StableHlo.after_of_writes_sub hostOps1_1 _ hostOps1_1_writes (by decide)).trans
                (StableHlo.after_of_writes_sub hostOps1 _ hostOps1_writes (by decide)))))))
  show (Run.W9 (F := Ideal) m ρ c (Proc.devRef .tc main_v3) : FVec Ideal S50000x512 .f32) (ix2 n (Spec.qcol 3 k)) = _
  rw [k9]
  exact (v3_q m ρ c n k (Spec.qcol 3 k)).2.2.2 (by show 128 * 3 + k.val = 384 + k.val; omega)

theorem r2_gn (k : Fin 128) : (Run.V9 (F := Ideal) m ρ c main_v15 : FVec Ideal S1x128 .f32) (ix2 0 k) = (argsOf m c).gn (ix1 k) := by
  have e9 : Run.W8 (F := Ideal) m ρ c (Proc.devRef .tc main_arg14) = (argsOf m c).gn := W8_un m ρ c never_arg14
  show (Run.W9 (F := Ideal) m ρ c (Proc.devRef .tc main_v15) : FVec Ideal S1x128 .f32) (ix2 0 k) = _
  rw [v15_term, e9, row128_at]
theorem r2_bn (k : Fin 128) : (Run.V9 (F := Ideal) m ρ c main_v16 : FVec Ideal S1x128 .f32) (ix2 0 k) = (argsOf m c).bn (ix1 k) := by
  have e9 : Run.W8 (F := Ideal) m ρ c (Proc.devRef .tc main_arg15) = (argsOf m c).bn := W8_un m ρ c never_arg15
  show (Run.W9 (F := Ideal) m ρ c (Proc.devRef .tc main_v16) : FVec Ideal S1x128 .f32) (ix2 0 k) = _
  rw [v16_term, e9, row128_at]

/-! ## The two results -/

/-- THE FIRST RESULT (the node output) at the last boundary, at (n, j). -/
theorem node_eq (n : Fin 50000) (j : Fin 128) :
    (Run.W10 (F := Ideal) m ρ c (Proc.devRef .tc main_v17) : FVec Ideal S50000x128 .f32) (ix2 n j) = Spec.nodeTop (argsOf m c) n j := by
  have k : Run.W10 (F := Ideal) m ρ c (Proc.devRef .tc main_v17) = (Rg2.dat (Run.V9 (F := Ideal) m ρ) c).arrAt 5 cfg2.N :=
    Run.W10_arr m ρ c 5
  rw [k, Val2.final (Run.V9 (F := Ideal) m ρ) c n j]
  exact nodeOut_eq (argsOf m c) _ _ _ _ _ n j (W9_un m ρ c never_arg0) (r2_gn m ρ c j) (r2_bn m ρ c j)
    (fun k => v3_at9 m ρ c n k) (fun k => v14_lo m ρ c n k) (fun k => v14_hi m ρ c n k)

/-- THE SECOND RESULT (the edge output) at the last boundary, at (e, j). -/
theorem edge_eq (e : Fin 800000) (j : Fin 128) :
    (Run.W10 (F := Ideal) m ρ c (Proc.devRef .tc main_v11_1) : FVec Ideal S800000x128 .f32) (ix2 e j) = Spec.edgeTop (argsOf m c) e j := by
  have k : Run.W10 (F := Ideal) m ρ c (Proc.devRef .tc main_v11_1) = (Rg1.dat (Run.V7 (F := Ideal) m ρ) c).arrAt 8 cfg1.N :=
    (Run.W10_keep m ρ c main_v11_1 (by decide)).trans
      ((StableHlo.after_of_writes_sub hostOps2 _ hostOps2_writes (by decide)).trans (Run.W8_arr m ρ c 8))
  rw [k, Val1.final_out (Run.V7 (F := Ideal) m ρ) c e j]
  exact edgeOut_eq (argsOf m c) _ _ _ _ _ _ _ e j (r1_ef m ρ c) (r1_We m ρ c) (fun k => r1_be m ρ c k) (r1_ge m ρ c j) (r1_bte m ρ c j)
    (fun k => r1_g5lo m ρ c e k) (fun k => r1_g7 m ρ c e k)

end Cert.KernelIdeal.Fold

end
-- ==== Proof.RefEdge.lean ====
/-
  The reference program read at an index, first part. With no source or destination word negative (the reference adds
  N to a negative word before it gathers; a word that is not negative is gathered as it is), the pre-activation m,
  the gate sigma and the second result (the edge output) are the specification's functions of the arguments.
-/
import proofs.«416705_j44006234914975_2_alg».proof.Proof.Gen.ReferenceIdeal.Run
import proofs.«416705_j44006234914975_2_alg».proof.Proof.Gen.ReferenceIdeal.Read
import proofs.«416705_j44006234914975_2_alg».proof.Proof.Spec
import proofs.«416705_j44006234914975_2_alg».proof.Proof.LibScatterGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem

variable (a : Spec.Args)

/-! ## Words and constants -/

/-- The f32 word of 1.0 denotes the number one. -/
theorem one_f32 : Ideal.ofBits .f32 0x3F800000#32 = 1 := by
  simp [Ideal.ofBits, Ideal.ieee, -EReal.coe_mul]; norm_num

/-- A word whose signed reading is not negative is not below zero: the signed "less than zero" bit is 0. -/
theorem slt_zero_of_nonneg (w : BitVec 32) (h : 0 ≤ w.toInt) : IntOp.cmpi .slt w 0#32 = 0#1 := by
  unfold IntOp.cmpi
  have h0 : w.slt 0#32 = false := by
    simp only [BitVec.slt, BitVec.toInt_zero, decide_eq_false_iff_not, not_lt]
    exact h
  simp only [h0]
  rfl

/-! ## The index words the gathers read

The reference replaces a negative word w by w + N and keeps any other word. A word that is not negative is kept. -/

section Words
variable (x : (⟨S800000, .i32⟩ : BufTy).Contents (Elt Ideal))

/-- The source words after the replacement, at edge e, when the word there is not negative. -/
theorem srcWord_at (e : Fin 800000) (h : 0 ≤ BitVec.toInt (x (ix1 e))) :
    val_main_v12 (F := Ideal) x (ix1 e) = x (ix1 e) := by
  rw [val_main_v12_apply, val_main_v9_apply, val_main_v8_apply, val_main_c_apply, slt_zero_of_nonneg _ h, select_zero]

/-- The destination words after the replacement, at edge e, when the word there is not negative. -/
theorem dstWord_at (e : Fin 800000) (h : 0 ≤ BitVec.toInt (x (ix1 e))) :
    val_main_v19 (F := Ideal) x (ix1 e) = x (ix1 e) := by
  rw [val_main_v19_apply, val_main_v16_apply, val_main_v15_apply, val_main_c_1_apply, slt_zero_of_nonneg _ h, select_zero]

/-- The column of source words the first gather reads, at [e, 0]. -/
theorem srcCol_at (e : Fin 800000) (h : 0 ≤ BitVec.toInt (x (ix1 e))) :
    val_main_v13 (F := Ideal) x (ix2 e (0 : Fin 1)) = x (ix1 e) := by
  have hi : idx_main_v13 (ix2 e (0 : Fin 1)) = ix1 e :=
    funext fun c => Fin.ext (by match c with | ⟨0, _⟩ => rfl)
  rw [val_main_v13_apply, hi, srcWord_at x e h]

/-- The column of destination words the second gather reads, at [e, 0]. -/
theorem dstCol_at (e : Fin 800000) (h : 0 ≤ BitVec.toInt (x (ix1 e))) :
    val_main_v20 (F := Ideal) x (ix2 e (0 : Fin 1)) = x (ix1 e) := by
  have hi : idx_main_v20 (ix2 e (0 : Fin 1)) = ix1 e :=
    funext fun c => Fin.ext (by match c with | ⟨0, _⟩ => rfl)
  rw [val_main_v20_apply, hi, dstWord_at x e h]

end Words

/-! ## The three linear maps at an index -/

section Lin
variable (xn : (⟨S50000x128, .f32⟩ : BufTy).Contents (Elt Ideal)) (xe : (⟨S800000x128, .f32⟩ : BufTy).Contents (Elt Ideal))
  (W : (⟨S128x128, .f32⟩ : BufTy).Contents (Elt Ideal)) (b : (⟨S128, .f32⟩ : BufTy).Contents (Elt Ideal))

/-- The source-gate map of the node features (the reference's %3) at (r, j). -/
theorem srcGate_at (r : Fin 50000) (j : Fin 128) :
    val_main_v3 (F := Ideal) xn W b (ix2 r j) = Spec.linN xn W b r j := by
  have hl : ∀ k : Fin 128, lidx_main_v0 (ix2 r j) k = ix2 r k := fun k =>
    funext fun c => Fin.ext (by match c with | ⟨0, _⟩ => rfl | ⟨1, _⟩ => rfl)
  have hr : ∀ k : Fin 128, ridx_main_v0 (ix2 r j) k = ix2 k j := fun k =>
    funext fun c => Fin.ext (by match c with | ⟨0, _⟩ => rfl | ⟨1, _⟩ => rfl)
  have hb : idx_main_v1 (idx_main_v2 (ix2 r j)) = ix1 j :=
    funext fun c => Fin.ext (by match c with | ⟨0, _⟩ => rfl)
  rw [val_main_v3_apply, val_main_v0_apply, val_main_v2_apply, val_main_v1_apply, hb,
    Finset.sum_congr rfl (fun k _ => by rw [hl k, hr k] :
      ∀ k ∈ (Finset.univ : Finset (Fin 128)), xn (lidx_main_v0 (ix2 r j) k) * W (ridx_main_v0 (ix2 r j) k) = xn (ix2 r k) * W (ix2 k j))]
  rfl

/-- The destination-gate map of the node features (the reference's %7) at (r, j). -/
theorem dstGate_at (r : Fin 50000) (j : Fin 128) :
    val_main_v7 (F := Ideal) xn W b (ix2 r j) = Spec.linN xn W b r j := by
  have hl : ∀ k : Fin 128, lidx_main_v4 (ix2 r j) k = ix2 r k := fun k =>
    funext fun c => Fin.ext (by match c with | ⟨0, _⟩ => rfl | ⟨1, _⟩ => rfl)
  have hr : ∀ k : Fin 128, ridx_main_v4 (ix2 r j) k = ix2 k j := fun k =>
    funext fun c => Fin.ext (by match c with | ⟨0, _⟩ => rfl | ⟨1, _⟩ => rfl)
  have hb : idx_main_v5 (idx_main_v6 (ix2 r j)) = ix1 j :=
    funext fun c => Fin.ext (by match c with | ⟨0, _⟩ => rfl)
  rw [val_main_v7_apply, val_main_v4_apply, val_main_v6_apply, val_main_v5_apply, hb,
    Finset.sum_congr rfl (fun k _ => by rw [hl k, hr k] :
      ∀ k ∈ (Finset.univ : Finset (Fin 128)), xn (lidx_main_v4 (ix2 r j) k) * W (ridx_main_v4 (ix2 r j) k) = xn (ix2 r k) * W (ix2 k j))]
  rfl

/-- The edge-gate map of the edge features (the reference's %26) at (e, j). -/
theorem edgeGate_at (e : Fin 800000) (j : Fin 128) :
    val_main_v26 (F := Ideal) xe W b (ix2 e j) = Spec.linE xe W b e j := by
  have hl : ∀ k : Fin 128, lidx_main_v23 (ix2 e j) k = ix2 e k := fun k =>
    funext fun c => Fin.ext (by match c with | ⟨0, _⟩ => rfl | ⟨1, _⟩ => rfl)
  have hr : ∀ k : Fin 128, ridx_main_v23 (ix2 e j) k = ix2 k j := fun k =>
    funext fun c => Fin.ext (by match c with | ⟨0, _⟩ => rfl | ⟨1, _⟩ => rfl)
  have hb : idx_main_v24 (idx_main_v25 (ix2 e j)) = ix1 j :=
    funext fun c => Fin.ext (by match c with | ⟨0, _⟩ => rfl)
  rw [val_main_v26_apply, val_main_v23_apply, val_main_v25_apply, val_main_v24_apply, hb,
    Finset.sum_congr rfl (fun k _ => by rw [hl k, hr k] :
      ∀ k ∈ (Finset.univ : Finset (Fin 128)), xe (lidx_main_v23 (ix2 e j) k) * W (ridx_main_v23 (ix2 e j) k) = xe (ix2 e k) * W (ix2 k j))]
  rfl

end Lin

/-! ## The two gathered rows -/

section Gathers
variable (xn : (⟨S50000x128, .f32⟩ : BufTy).Contents (Elt Ideal)) (s : (⟨S800000, .i32⟩ : BufTy).Contents (Elt Ideal))
  (W : (⟨S128x128, .f32⟩ : BufTy).Contents (Elt Ideal)) (b : (⟨S128, .f32⟩ : BufTy).Contents (Elt Ideal))

/-- The row of the source-gate map gathered for edge e (the reference's %14): the row the source word names. -/
theorem srcRow_at (e : Fin 800000) (j : Fin 128) (h : 0 ≤ BitVec.toInt (s (ix1 e))) :
    val_main_v14 (F := Ideal) xn s W b (ix2 e j) = Spec.linN xn W b (Spec.rowOf s e) j := by
  unfold val_main_v14
  generalize hy : val_main_v3 (F := Ideal) xn W b = y
  refine (Cert.LibScatterGather.gather_rows_apply gather_S50000x128_S800000x1_S800000x128_1_0_n_n_0_1_1128
    rfl rfl rfl rfl rfl y (val_main_v13 (F := Ideal) s) (by omega) e j).trans ?_
  subst hy
  refine (congrArg (fun r : Fin 50000 => val_main_v3 (F := Ideal) xn W b (ix2 r j)) (Fin.ext ?_)).trans
    (srcGate_at xn W b (Spec.rowOf s e) j)
  show min (BitVec.toInt (val_main_v13 (F := Ideal) s (ix2 e (0 : Fin 1)))).toNat (50000 - 1)
    = min (BitVec.toInt (s (ix1 e))).toNat (50000 - 1)
  rw [srcCol_at s e h]

/-- The row of the destination-gate map gathered for edge e (the reference's %21): the row the destination word names. -/
theorem dstRow_at (e : Fin 800000) (j : Fin 128) (h : 0 ≤ BitVec.toInt (s (ix1 e))) :
    val_main_v21 (F := Ideal) xn s W b (ix2 e j) = Spec.linN xn W b (Spec.rowOf s e) j := by
  unfold val_main_v21
  generalize hy : val_main_v7 (F := Ideal) xn W b = y
  refine (Cert.LibScatterGather.gather_rows_apply gather_S50000x128_S800000x1_S800000x128_1_0_n_n_0_1_1128
    rfl rfl rfl rfl rfl y (val_main_v20 (F := Ideal) s) (by omega) e j).trans ?_
  subst hy
  refine (congrArg (fun r : Fin 50000 => val_main_v7 (F := Ideal) xn W b (ix2 r j)) (Fin.ext ?_)).trans
    (dstGate_at xn W b (Spec.rowOf s e) j)
  show min (BitVec.toInt (val_main_v20 (F := Ideal) s (ix2 e (0 : Fin 1)))).toNat (50000 - 1)
    = min (BitVec.toInt (s (ix1 e))).toNat (50000 - 1)
  rw [dstCol_at s e h]

end Gathers

/-! ## The pre-activation and the gate -/

/-- The pre-activation (the reference's %27) at (e, j). -/
theorem m_at (hsrc : ∀ e : Fin 800000, 0 ≤ (a.src (ix1 e)).toInt) (hdst : ∀ e : Fin 800000, 0 ≤ (a.dst (ix1 e)).toInt)
    (e : Fin 800000) (j : Fin 128) :
    val_main_v27 (F := Ideal) a.nf a.ef a.src a.dst a.Wsg a.bsg a.Wdg a.bdg a.Weg a.beg (ix2 e j) = Spec.mTop a e j := by
  rw [val_main_v27_apply, val_main_v22_apply, srcRow_at a.nf a.src a.Wsg a.bsg e j (hsrc e),
    dstRow_at a.nf a.dst a.Wdg a.bdg e j (hdst e), edgeGate_at a.ef a.Weg a.beg e j]
  rfl

/-- The reference's spelling of the logistic function, 1 / (1 + exp (−x)) with the f32 word of 1.0, is the logistic function. -/
theorem logistic_spelt (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.logistic x
  rw [one_f32]
  rfl

/-- The gate (the reference's %33) at (e, j). -/
theorem sig_at (hsrc : ∀ e : Fin 800000, 0 ≤ (a.src (ix1 e)).toInt) (hdst : ∀ e : Fin 800000, 0 ≤ (a.dst (ix1 e)).toInt)
    (e : Fin 800000) (j : Fin 128) :
    val_main_v33 (F := Ideal) a.nf a.ef a.src a.dst a.Wsg a.bsg a.Wdg a.bdg a.Weg a.beg (ix2 e j) = Spec.sigTop a e j := by
  rw [val_main_v33_apply, val_main_v32_apply, val_main_cst_3_apply, val_main_v31_apply, val_main_v30_apply,
    val_main_cst_apply, val_main_v29_apply, val_main_v28_apply, m_at a hsrc hdst e j]
  exact logistic_spelt (Spec.mTop a e j)

/-! ## The layer norm of a row of the pre-activation

Over any arguments, given the row of the pre-activation at edge e as a function m of the lane. -/

section LayerNorm
variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 x16 x17 : (⟨S128, .f32⟩ : BufTy).Contents (Elt Ideal))
  (e : Fin 800000) (m : Fin 128 → EReal)
  (hm : ∀ k : Fin 128, val_main_v27 (F := Ideal) x0 x1 x2 x3 x4 x5 x6 x7 x8 x9 (ix2 e k) = m k)
include hm

/-- The row's lane sum (the reference's %85). -/
theorem rowSum_at : val_main_v85 (F := Ideal) x0 x1 x2 x3 x4 x5 x6 x7 x8 x9 (ix1 e) = ∑ k : Fin 128, m k := by
  rw [val_main_v85_apply, val_main_cst_14_apply, Ideal.ofBits_def, Ideal.ofBits_zero_f32, zero_add]
  refine Finset.sum_congr rfl fun k _ => ?_
  have hi : idx_main_v85 (ix1 e) k = ix2 e k :=
    funext fun c => Fin.ext (by match c with | ⟨0, _⟩ => rfl | ⟨1, _⟩ => rfl)
  rw [hi, hm k]

/-- The row's mean (the reference's %88) at [e, 0]. -/
theorem rowMean_at : val_main_v88 (F := Ideal) x0 x1 x2 x3 x4 x5 x6 x7 x8 x9 (ix2 e (0 : Fin 1)) = Spec.mean128 m := by
  have hi : idx_main_v86 (ix2 e (0 : Fin 1)) = ix1 e :=
    funext fun c => Fin.ext (by match c with | ⟨0, _⟩ => rfl)
  rw [val_main_v88_apply, val_main_v86_apply, val_main_v87_apply, val_main_cst_15_apply, hi,
    rowSum_at x0 x1 x2 x3 x4 x5 x6 x7 x8 x9 e m hm]
  rfl

/-- The deviation from the mean under the variance (the reference's %90) at (e, k). -/
theorem devVar_at (k : Fin 128) : val_main_v90 (F := Ideal) x0 x1 x2 x3 x4 x5 x6 x7 x8 x9 (ix2 e k) = m k - Spec.mean128 m := by
  have hi : idx_main_v89 (ix2 e k) = ix2 e (0 : Fin 1) :=
    funext fun c => Fin.ext (by match c with | ⟨0, _⟩ => rfl | ⟨1, _⟩ => rfl)
  rw [val_main_v90_apply, val_main_v89_apply, hm k, hi, rowMean_at x0 x1 x2 x3 x4 x5 x6 x7 x8 x9 e m hm, Ideal.subf_def]

/-- The deviation from the mean that is normalised (the reference's %97) at (e, k). -/
theorem devOut_at (k : Fin 128) : val_main_v97 (F := Ideal) x0 x1 x2 x3 x4 x5 x6 x7 x8 x9 (ix2 e k) = m k - Spec.mean128 m := by
  have hi : idx_main_v96 (ix2 e k) = ix2 e (0 : Fin 1) :=
    funext fun c => Fin.ext (by match c with | ⟨0, _⟩ => rfl | ⟨1, _⟩ => rfl)
  rw [val_main_v97_apply, val_main_v96_apply, hm k, hi, rowMean_at x0 x1 x2 x3 x4 x5 x6 x7 x8 x9 e m hm, Ideal.subf_def]

/-- The row's variance (the reference's %95) at [e, 0]: the mean of the squared deviations. -/
theorem rowVar_at : val_main_v95 (F := Ideal) x0 x1 x2 x3 x4 x5 x6 x7 x8 x9 (ix2 e (0 : Fin 1))
    = Spec.mean128 (fun k => (m k - Spec.mean128 m) * (m k - Spec.mean128 m)) := by
  have hi : idx_main_v93 (ix2 e (0 : Fin 1)) = ix1 e :=
    funext fun c => Fin.ext (by match c with | ⟨0, _⟩ => rfl)
  have hs : ∑ k : Fin 128, val_main_v91 (F := Ideal) x0 x1 x2 x3 x4 x5 x6 x7 x8 x9 (idx_main_v92 (ix1 e) k)
      = ∑ k : Fin 128, (m k - Spec.mean128 m) * (m k - Spec.mean128 m) :=
    Finset.sum_congr rfl fun k _ => by
      have hk : idx_main_v92 (ix1 e) k = ix2 e k :=
        funext fun c => Fin.ext (by match c with | ⟨0, _⟩ => rfl | ⟨1, _⟩ => rfl)
      rw [hk, val_main_v91_apply, devVar_at x0 x1 x2 x3 x4 x5 x6 x7 x8 x9 e m hm k, Ideal.mulf_def]
  rw [val_main_v95_apply, val_main_v93_apply, val_main_v94_apply, val_main_cst_17_apply, hi, val_main_v92_apply,
    val_main_cst_16_apply, Ideal.ofBits_def, Ideal.ofBits_zero_f32, zero_add, hs]
  rfl

/-- The reciprocal standard deviation (the reference's %100) at [e, 0]. -/
theorem rowRstd_at : val_main_v100 (F := Ideal) x0 x1 x2 x3 x4 x5 x6 x7 x8 x9 (ix2 e (0 : Fin 1))
    = Ideal.rsqrt (Spec.mean128 (fun k => (m k - Spec.mean128 m) * (m k - Spec.mean128 m)) + Spec.eps5) := by
  rw [val_main_v100_apply, val_main_v99_apply, rowVar_at x0 x1 x2 x3 x4 x5 x6 x7 x8 x9 e m hm, val_main_v98_apply, val_main_cst_18_apply]
  rfl

/-- The layer norm with its scale and shift (the reference's %108) at (e, j). -/
theorem rowNorm_at (j : Fin 128) : val_main_v108 (F := Ideal) x0 x1 x2 x3 x4 x5 x6 x7 x8 x9 x16 x17 (ix2 e j)
    = Spec.lnAt m (x16 (ix1 j)) (x17 (ix1 j)) j := by
  have h1 : idx_main_v101 (ix2 e j) = ix2 e (0 : Fin 1) :=
    funext fun c => Fin.ext (by match c with | ⟨0, _⟩ => rfl | ⟨1, _⟩ => rfl)
  have h2 : idx_main_v103 (idx_main_v104 (ix2 e j)) = ix1 j :=
    funext fun c => Fin.ext (by match c with | ⟨0, _⟩ => rfl)
  have h3 : idx_main_v106 (idx_main_v107 (ix2 e j)) = ix1 j :=
    funext fun c => Fin.ext (by match c with | ⟨0, _⟩ => rfl)
  rw [val_main_v108_apply, val_main_v105_apply, val_main_v102_apply, devOut_at x0 x1 x2 x3 x4 x5 x6 x7 x8 x9 e m hm j, val_main_v101_apply,
    h1, rowRstd_at x0 x1 x2 x3 x4 x5 x6 x7 x8 x9 e m hm, val_main_v104_apply, val_main_v103_apply, h2, val_main_v107_apply,
    val_main_v106_apply, h3]
  rfl

/-- The SiLU of the layer norm (the reference's %109, the called function's result) at (e, j). -/
theorem rowSilu_at (j : Fin 128) : val_main_v109 (F := Ideal) x0 x1 x2 x3 x4 x5 x6 x7 x8 x9 x16 x17 (ix2 e j)
    = Spec.silu (Spec.lnAt m (x16 (ix1 j)) (x17 (ix1 j)) j) := by
  rw [val_main_v109_apply, val_main_call1_v5_apply, val_main_call1_v4_apply, val_main_call1_cst_0_apply,
    val_main_call1_v3_apply, val_main_call1_v2_apply, val_main_call1_cst_apply, val_main_call1_v1_apply,
    val_main_call1_v0_apply, rowNorm_at x0 x1 x2 x3 x4 x5 x6 x7 x8 x9 x16 x17 e m hm j, logistic_spelt]
  rfl

end LayerNorm

/-! ## The second result -/

/-- THE SECOND RESULT (the reference's %111) at (e, j). -/
theorem out1_at (hsrc : ∀ e : Fin 800000, 0 ≤ (a.src (ix1 e)).toInt) (hdst : ∀ e : Fin 800000, 0 ≤ (a.dst (ix1 e)).toInt)
    (e : Fin 800000) (j : Fin 128) :
    val_main_v111 (F := Ideal) a.nf a.ef a.src a.dst a.Wsg a.bsg a.Wdg a.bdg a.Weg a.beg a.ge a.bte (ix2 e j) = Spec.edgeTop a e j := by
  rw [val_main_v111_apply, rowSilu_at a.nf a.ef a.src a.dst a.Wsg a.bsg a.Wdg a.bdg a.Weg a.beg a.ge a.bte e (fun k => Spec.mTop a e k)
    (fun k => m_at a hsrc hdst e k) j]
  rfl

end Cert.ReferenceIdeal.RefVal

end
-- ==== Proof.RefNode.lean ====
/-
  The reference program read at an index, second part: with no source or destination word negative, the first
  result (the node output) is the specification's function of the arguments.

  The road. The node update x(n, .) is read first: the linear map of the node's own row, plus the quotient of the
  two sums over the edges into n (each a scatter-add into zeros, so the zero it starts from drops out), the gathered
  row of the second linear map being the row of the edge's source because a source word that is not negative is
  gathered as it is. Then the layer norm is read over the row k ↦ x(n, k) kept as one function: the mean, the
  deviation, the mean of the squared deviations, the reciprocal square root, scale and shift. Last the called
  y ↦ y * (1 / (1 + exp (−y))) is the specification's silu, and the result adds the node's own feature.
-/
import proofs.«416705_j44006234914975_2_alg».proof.Proof.Gen.ReferenceIdeal.Run
import proofs.«416705_j44006234914975_2_alg».proof.Proof.Gen.ReferenceIdeal.Read
import proofs.«416705_j44006234914975_2_alg».proof.Proof.Spec
import proofs.«416705_j44006234914975_2_alg».proof.Proof.LibScatterGather
import proofs.«416705_j44006234914975_2_alg».proof.Proof.RefEdge
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem

variable (a : Spec.Args)

namespace Node

/-! ## Words -/

/-- A word whose signed reading is not negative is not below the zero word: the signed comparison answers the bit 0. -/
theorem cmpi_slt_zero {x : BitVec 32} (h : 0 ≤ x.toInt) : IntOp.cmpi .slt x 0#32 = 0#1 := by
  have hs : x.slt 0#32 = false := by
    rw [BitVec.slt_eq_decide, BitVec.toInt_zero]
    exact decide_eq_false (by omega)
  show BitVec.ofBool (x.slt 0#32) = 0#1
  rw [hs]
  rfl

/-- The start index the third gather reads for edge e: the source word itself, since it is not negative. -/
theorem srcIdx_at (hsrc : ∀ e : Fin 800000, 0 ≤ (a.src (ix1 e)).toInt) (e : Fin 800000) :
    val_main_v43 (F := Ideal) a.src (ix2 e (0 : Fin 1)) = a.src (ix1 e) := by
  have hi : idx_main_v43 (ix2 e (0 : Fin 1)) = ix1 e := funext fun d => Fin.ext (by match d with | ⟨0, _⟩ => rfl)
  rw [val_main_v43_apply, val_main_v42_apply, val_main_v39_apply, val_main_v38_apply, val_main_c_4_apply, hi,
    cmpi_slt_zero (hsrc e), select_zero]

/-- The scatter index of edge e, for the first scatter-add: its destination word. -/
theorem dstIdx47_at (d : IVec Spec.SE 32) (e : Fin 800000) :
    val_main_v47 (F := Ideal) d (ix2 e (0 : Fin 1)) = d (ix1 e) := by
  rw [val_main_v47_apply]
  exact congrArg d (funext fun d => Fin.ext (by match d with | ⟨0, _⟩ => rfl))

/-- The scatter index of edge e, for the second scatter-add: its destination word. -/
theorem dstIdx50_at (d : IVec Spec.SE 32) (e : Fin 800000) :
    val_main_v50 (F := Ideal) d (ix2 e (0 : Fin 1)) = d (ix1 e) := by
  rw [val_main_v50_apply]
  exact congrArg d (funext fun d => Fin.ext (by match d with | ⟨0, _⟩ => rfl))

/-! ## Bias rows and the scale and shift rows: a vector of 128 lanes read at (n, j) is its lane j -/

theorem row36_at (b : FVec Ideal Spec.SV128 .f32) (n : Fin 50000) (j : Fin 128) :
    val_main_v36 (F := Ideal) b (ix2 n j) = b (ix1 j) := by
  rw [val_main_v36_apply, val_main_v35_apply]
  exact congrArg b (funext fun d => Fin.ext (by match d with | ⟨0, _⟩ => rfl))

theorem row57_at (b : FVec Ideal Spec.SV128 .f32) (n : Fin 50000) (j : Fin 128) :
    val_main_v57 (F := Ideal) b (ix2 n j) = b (ix1 j) := by
  rw [val_main_v57_apply, val_main_v56_apply]
  exact congrArg b (funext fun d => Fin.ext (by match d with | ⟨0, _⟩ => rfl))

theorem row79_at (b : FVec Ideal Spec.SV128 .f32) (n : Fin 50000) (j : Fin 128) :
    val_main_v79 (F := Ideal) b (ix2 n j) = b (ix1 j) := by
  rw [val_main_v79_apply, val_main_v78_apply]
  exact congrArg b (funext fun d => Fin.ext (by match d with | ⟨0, _⟩ => rfl))

theorem row82_at (b : FVec Ideal Spec.SV128 .f32) (n : Fin 50000) (j : Fin 128) :
    val_main_v82 (F := Ideal) b (ix2 n j) = b (ix1 j) := by
  rw [val_main_v82_apply, val_main_v81_apply]
  exact congrArg b (funext fun d => Fin.ext (by match d with | ⟨0, _⟩ => rfl))

/-! ## The two node-level linear maps this part reads -/

/-- The second update map (the reference's %37) at (r, j). -/
theorem lin37_at (x : FVec Ideal Spec.SN128 .f32) (W : FVec Ideal Spec.SW128 .f32) (b : FVec Ideal Spec.SV128 .f32)
    (r : Fin 50000) (j : Fin 128) :
    val_main_v37 (F := Ideal) x W b (ix2 r j) = Spec.linN x W b r j := by
  have hl : ∀ k : Fin 128, lidx_main_v34 (ix2 r j) k = ix2 r k := fun k => funext fun d => Fin.ext (by match d with | ⟨0, _⟩ => rfl | ⟨1, _⟩ => rfl)
  have hr : ∀ k : Fin 128, ridx_main_v34 (ix2 r j) k = ix2 k j := fun k => funext fun d => Fin.ext (by match d with | ⟨0, _⟩ => rfl | ⟨1, _⟩ => rfl)
  rw [val_main_v37_apply, val_main_v34_apply, row36_at, Ideal.addf_def]
  unfold Spec.linN
  refine congrArg (fun s : EReal => s + b (ix1 j)) (Finset.sum_congr rfl fun k _ => ?_)
  rw [hl k, hr k]

/-- The first update map (the reference's %58) at (r, j). -/
theorem lin58_at (x : FVec Ideal Spec.SN128 .f32) (W : FVec Ideal Spec.SW128 .f32) (b : FVec Ideal Spec.SV128 .f32)
    (r : Fin 50000) (j : Fin 128) :
    val_main_v58 (F := Ideal) x W b (ix2 r j) = Spec.linN x W b r j := by
  have hl : ∀ k : Fin 128, lidx_main_v55 (ix2 r j) k = ix2 r k := fun k => funext fun d => Fin.ext (by match d with | ⟨0, _⟩ => rfl | ⟨1, _⟩ => rfl)
  have hr : ∀ k : Fin 128, ridx_main_v55 (ix2 r j) k = ix2 k j := fun k => funext fun d => Fin.ext (by match d with | ⟨0, _⟩ => rfl | ⟨1, _⟩ => rfl)
  rw [val_main_v58_apply, val_main_v55_apply, row57_at, Ideal.addf_def]
  unfold Spec.linN
  refine congrArg (fun s : EReal => s + b (ix1 j)) (Finset.sum_congr rfl fun k _ => ?_)
  rw [hl k, hr k]

/-! ## The gathered row and the two sums over the edges into a node -/

/-- The third gather (the reference's %44) at (e, j): the second update map's row at the edge's source. -/
theorem bhsrc_at (hsrc : ∀ e : Fin 800000, 0 ≤ (a.src (ix1 e)).toInt) (e : Fin 800000) (j : Fin 128) :
    val_main_v44 (F := Ideal) a.nf a.src a.Wdu a.bdu (ix2 e j) = Spec.linN a.nf a.Wdu a.bdu (Spec.rowOf a.src e) j := by
  unfold val_main_v44
  rw [Cert.LibScatterGather.gather_rows_apply gather_S50000x128_S800000x1_S800000x128_1_0_n_n_0_1_1128 rfl rfl rfl rfl rfl _ _ (by omega) e j, lin37_at]
  refine congrArg (fun r : Fin 50000 => Spec.linN a.nf a.Wdu a.bdu r j) (Fin.ext ?_)
  show min (val_main_v43 (F := Ideal) a.src (ix2 e (0 : Fin 1))).toInt.toNat (50000 - 1)
    = min (a.src (ix1 e)).toInt.toNat (50000 - 1)
  rw [srcIdx_at a hsrc e]

/-- The gated numerator (the reference's %48) at (n, j): the sum over the edges into n. -/
theorem ssh_at (hsrc : ∀ e : Fin 800000, 0 ≤ (a.src (ix1 e)).toInt) (hdst : ∀ e : Fin 800000, 0 ≤ (a.dst (ix1 e)).toInt) (n : Fin 50000) (j : Fin 128) :
    val_main_v48 (F := Ideal) a.nf a.ef a.src a.dst a.Wsg a.bsg a.Wdg a.bdg a.Weg a.beg a.Wdu a.bdu (ix2 n j) = Spec.sshTop a n j := by
  unfold val_main_v48
  rw [Cert.LibScatterGather.scatterAdd_rows_apply scatter_S50000x128_S800000x1_S800000x128_1_0_0_1 rfl rfl rfl rfl _ _ _ n j,
    val_main_v46_apply, val_main_cst_6_apply, Ideal.ofBits_def, Ideal.ofBits_zero_f32, zero_add]
  unfold Spec.sshTop Spec.into
  refine Finset.sum_congr (Finset.filter_congr fun e _ => ?_) (fun e _ => ?_)
  · rw [dstIdx47_at]
  · rw [val_main_v45_apply, Ideal.mulf_def, bhsrc_at a hsrc e j, sig_at a hsrc hdst e j]

/-- The denominator's sum (the reference's %51) at (n, j): the sum of the gates over the edges into n. -/
theorem ss_at (hsrc : ∀ e : Fin 800000, 0 ≤ (a.src (ix1 e)).toInt) (hdst : ∀ e : Fin 800000, 0 ≤ (a.dst (ix1 e)).toInt) (n : Fin 50000) (j : Fin 128) :
    val_main_v51 (F := Ideal) a.nf a.ef a.src a.dst a.Wsg a.bsg a.Wdg a.bdg a.Weg a.beg (ix2 n j) = Spec.ssTop a n j := by
  unfold val_main_v51
  rw [Cert.LibScatterGather.scatterAdd_rows_apply scatter_S50000x128_S800000x1_S800000x128_1_0_0_1 rfl rfl rfl rfl _ _ _ n j,
    val_main_v49_apply, val_main_cst_7_apply, Ideal.ofBits_def, Ideal.ofBits_zero_f32, zero_add]
  unfold Spec.ssTop Spec.into
  refine Finset.sum_congr (Finset.filter_congr fun e _ => ?_) (fun e _ => ?_)
  · rw [dstIdx50_at]
  · exact sig_at a hsrc hdst e j

/-! ## The node update before the norm -/

/-- The node update (the reference's %59) at (n, k). -/
theorem x_at (hsrc : ∀ e : Fin 800000, 0 ≤ (a.src (ix1 e)).toInt) (hdst : ∀ e : Fin 800000, 0 ≤ (a.dst (ix1 e)).toInt) (n : Fin 50000) (k : Fin 128) :
    val_main_v59 (F := Ideal) a.nf a.ef a.src a.dst a.Wsg a.bsg a.Wdg a.bdg a.Weg a.beg a.Wsu a.bsu a.Wdu a.bdu (ix2 n k) = Spec.xTop a n k := by
  rw [val_main_v59_apply, val_main_v54_apply, val_main_v53_apply, val_main_v52_apply, val_main_cst_8_apply,
    lin58_at, ssh_at a hsrc hdst n k, ss_at a hsrc hdst n k]
  simp only [Ideal.addf_def, Ideal.hostDivf_def, Ideal.ofBits_def]
  rfl

/-! ## The layer norm of the row k ↦ x(n, k), kept as one function -/

/-- The row's mean (the reference's %63) at (n, 0). -/
theorem mean_at (n : Fin 50000) :
    val_main_v63 (F := Ideal) a.nf a.ef a.src a.dst a.Wsg a.bsg a.Wdg a.bdg a.Weg a.beg a.Wsu a.bsu a.Wdu a.bdu (ix2 n (0 : Fin 1)) = Spec.mean128 (fun k : Fin 128 => val_main_v59 (F := Ideal) a.nf a.ef a.src a.dst a.Wsg a.bsg a.Wdg a.bdg a.Weg a.beg a.Wsu a.bsu a.Wdu a.bdu (ix2 n k)) := by
  have hi : idx_main_v61 (ix2 n (0 : Fin 1)) = ix1 n := funext fun d => Fin.ext (by match d with | ⟨0, _⟩ => rfl)
  have hk : ∀ k : Fin 128, idx_main_v60 (ix1 n) k = ix2 n k := fun k => funext fun d => Fin.ext (by match d with | ⟨0, _⟩ => rfl | ⟨1, _⟩ => rfl)
  rw [val_main_v63_apply, val_main_v61_apply, hi, val_main_v60_apply, val_main_v62_apply, val_main_cst_10_apply,
    val_main_cst_9_apply]
  simp only [Ideal.hostDivf_def, Ideal.ofBits_def, Ideal.ofBits_zero_f32, zero_add, hk]
  rfl

/-- The deviation from the mean, as the variance reads it (the reference's %65), at (n, k). -/
theorem dev65_at (n : Fin 50000) (k : Fin 128) :
    val_main_v65 (F := Ideal) a.nf a.ef a.src a.dst a.Wsg a.bsg a.Wdg a.bdg a.Weg a.beg a.Wsu a.bsu a.Wdu a.bdu (ix2 n k) = val_main_v59 (F := Ideal) a.nf a.ef a.src a.dst a.Wsg a.bsg a.Wdg a.bdg a.Weg a.beg a.Wsu a.bsu a.Wdu a.bdu (ix2 n k) - Spec.mean128 (fun k : Fin 128 => val_main_v59 (F := Ideal) a.nf a.ef a.src a.dst a.Wsg a.bsg a.Wdg a.bdg a.Weg a.beg a.Wsu a.bsu a.Wdu a.bdu (ix2 n k)) := by
  have hi : idx_main_v64 (ix2 n k) = ix2 n (0 : Fin 1) := funext fun d => Fin.ext (by match d with | ⟨0, _⟩ => rfl | ⟨1, _⟩ => rfl)
  rw [val_main_v65_apply, val_main_v64_apply, hi, mean_at, Ideal.subf_def]

/-- The deviation from the mean, as the normalisation reads it (the reference's %72), at (n, k). -/
theorem dev72_at (n : Fin 50000) (k : Fin 128) :
    val_main_v72 (F := Ideal) a.nf a.ef a.src a.dst a.Wsg a.bsg a.Wdg a.bdg a.Weg a.beg a.Wsu a.bsu a.Wdu a.bdu (ix2 n k) = val_main_v59 (F := Ideal) a.nf a.ef a.src a.dst a.Wsg a.bsg a.Wdg a.bdg a.Weg a.beg a.Wsu a.bsu a.Wdu a.bdu (ix2 n k) - Spec.mean128 (fun k : Fin 128 => val_main_v59 (F := Ideal) a.nf a.ef a.src a.dst a.Wsg a.bsg a.Wdg a.bdg a.Weg a.beg a.Wsu a.bsu a.Wdu a.bdu (ix2 n k)) := by
  have hi : idx_main_v71 (ix2 n k) = ix2 n (0 : Fin 1) := funext fun d => Fin.ext (by match d with | ⟨0, _⟩ => rfl | ⟨1, _⟩ => rfl)
  rw [val_main_v72_apply, val_main_v71_apply, hi, mean_at, Ideal.subf_def]

/-- The row's variance (the reference's %70) at (n, 0): the mean of the squared deviations. -/
theorem var_at (n : Fin 50000) :
    val_main_v70 (F := Ideal) a.nf a.ef a.src a.dst a.Wsg a.bsg a.Wdg a.bdg a.Weg a.beg a.Wsu a.bsu a.Wdu a.bdu (ix2 n (0 : Fin 1))
      = Spec.mean128 (fun k : Fin 128 => (val_main_v59 (F := Ideal) a.nf a.ef a.src a.dst a.Wsg a.bsg a.Wdg a.bdg a.Weg a.beg a.Wsu a.bsu a.Wdu a.bdu (ix2 n k) - Spec.mean128 (fun k : Fin 128 => val_main_v59 (F := Ideal) a.nf a.ef a.src a.dst a.Wsg a.bsg a.Wdg a.bdg a.Weg a.beg a.Wsu a.bsu a.Wdu a.bdu (ix2 n k)))
          * (val_main_v59 (F := Ideal) a.nf a.ef a.src a.dst a.Wsg a.bsg a.Wdg a.bdg a.Weg a.beg a.Wsu a.bsu a.Wdu a.bdu (ix2 n k) - Spec.mean128 (fun k : Fin 128 => val_main_v59 (F := Ideal) a.nf a.ef a.src a.dst a.Wsg a.bsg a.Wdg a.bdg a.Weg a.beg a.Wsu a.bsu a.Wdu a.bdu (ix2 n k)))) := by
  have hi : idx_main_v68 (ix2 n (0 : Fin 1)) = ix1 n := funext fun d => Fin.ext (by match d with | ⟨0, _⟩ => rfl)
  have hk : ∀ k : Fin 128, idx_main_v67 (ix1 n) k = ix2 n k := fun k => funext fun d => Fin.ext (by match d with | ⟨0, _⟩ => rfl | ⟨1, _⟩ => rfl)
  rw [val_main_v70_apply, val_main_v68_apply, hi, val_main_v67_apply, val_main_v69_apply, val_main_cst_12_apply,
    val_main_cst_11_apply]
  simp only [Ideal.hostDivf_def, Ideal.ofBits_def, Ideal.ofBits_zero_f32, zero_add, hk, val_main_v66_apply,
    Ideal.mulf_def, dev65_at]
  rfl

/-- The normalised, scaled and shifted row (the reference's %83) at (n, j). -/
theorem ln_at (n : Fin 50000) (j : Fin 128) :
    val_main_v83 (F := Ideal) a.nf a.ef a.src a.dst a.Wsg a.bsg a.Wdg a.bdg a.Weg a.beg a.Wsu a.bsu a.Wdu a.bdu a.gn a.bn (ix2 n j) = Spec.lnAt (fun k : Fin 128 => val_main_v59 (F := Ideal) a.nf a.ef a.src a.dst a.Wsg a.bsg a.Wdg a.bdg a.Weg a.beg a.Wsu a.bsu a.Wdu a.bdu (ix2 n k)) (a.gn (ix1 j)) (a.bn (ix1 j)) j := by
  have hi : idx_main_v76 (ix2 n j) = ix2 n (0 : Fin 1) := funext fun d => Fin.ext (by match d with | ⟨0, _⟩ => rfl | ⟨1, _⟩ => rfl)
  rw [val_main_v83_apply, val_main_v80_apply, val_main_v77_apply, val_main_v76_apply, hi, val_main_v75_apply,
    val_main_v74_apply, val_main_v73_apply, val_main_cst_13_apply, var_at, dev72_at, row79_at, row82_at]
  simp only [Ideal.addf_def, Ideal.mulf_def, Ideal.hostUnary_rsqrt_def, Ideal.ofBits_def]
  rfl

/-! ## The called function: y * (1 / (1 + exp (−y))) is the specification's silu -/

theorem silu_at (i : S50000x128.Idx) :
    val_main_v84 (F := Ideal) a.nf a.ef a.src a.dst a.Wsg a.bsg a.Wdg a.bdg a.Weg a.beg a.Wsu a.bsu a.Wdu a.bdu a.gn a.bn i = Spec.silu (val_main_v83 (F := Ideal) a.nf a.ef a.src a.dst a.Wsg a.bsg a.Wdg a.bdg a.Weg a.beg a.Wsu a.bsu a.Wdu a.bdu a.gn a.bn i) := by
  rw [val_main_v84_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

end Node

/-- THE FIRST RESULT (the reference's %110) at (n, j). -/
theorem out0_at (hsrc : ∀ e : Fin 800000, 0 ≤ (a.src (ix1 e)).toInt) (hdst : ∀ e : Fin 800000, 0 ≤ (a.dst (ix1 e)).toInt)
    (n : Fin 50000) (j : Fin 128) :
    val_main_v110 (F := Ideal) a.nf a.ef a.src a.dst a.Wsg a.bsg a.Wdg a.bdg a.Weg a.beg a.Wsu a.bsu a.Wdu a.bdu a.gn a.bn (ix2 n j)
      = Spec.nodeTop a n j := by
  have hx : (fun k : Fin 128 => val_main_v59 (F := Ideal) a.nf a.ef a.src a.dst a.Wsg a.bsg a.Wdg a.bdg a.Weg a.beg a.Wsu a.bsu a.Wdu a.bdu (ix2 n k)) = fun k : Fin 128 => Spec.xTop a n k := funext fun k => Node.x_at a hsrc hdst n k
  rw [val_main_v110_apply, Node.silu_at, Node.ln_at, hx, Ideal.addf_def]
  rfl

end Cert.ReferenceIdeal.RefVal

end
-- ==== Proof.Pre.lean ====
/-
  What the precondition says of the two index inputs: every source word and every destination word, read as a
  signed integer, is not negative.

  The precondition is a conjunction of eighteen one-bit facts, folded from the left by bitwise and; its last two
  conjuncts are "every source word ≥ 0" and "every destination word ≥ 0", each a signed compare of the index array
  against a broadcast zero, reduced by and over all 800000 positions starting from 1. A one-bit and is 1 only when
  both operands are 1, so the two outermost conjuncts are 1; a fold by and that ends at 1 met only 1s, so each compare
  bit is 1; and a compare bit "w ≥ 0 (signed)" being 1 says exactly 0 ≤ w as an integer.
-/
import proofs.«416705_j44006234914975_2_alg».proof.Defs
import proofs.«416705_j44006234914975_2_alg».proof.Proof.Gen.Pre_finite_inputs
import Idealize.ShloMosaic.Lib.StableHlo.Predicate
import Idealize.ShloMosaic.Lib.ReduceAll
import Idealize.ShloMosaic.Lib.ValueIdx

noncomputable section

namespace Cert.PreFacts

open Idealize.ShloMosaic Idealize.ShloMosaic.TcCoe Idealize.ShloMosaic.ValueIdx Idealize.SL.Sem

section Decode

open Cert.Pre_finite_inputs

variable [Cert.Pre_finite_inputs.Facts]

/-- The shape with no axes has exactly one index. -/
instance subsingleton_scalar_idx : Subsingleton Cert.Pre_finite_inputs.S_.Idx :=
  ⟨fun a b => funext fun d => d.elim0⟩

/-- A word whose signed compare "w ≥ 0" came out 1 is not negative as an integer. -/
theorem word_nonneg (w : BitVec 32) (h : IntOp.cmpi .sge w 0#32 = 1#1) : 0 ≤ w.toInt := by
  have h0 : (0#32 : BitVec 32).toInt = 0 := by decide
  have h1 := IntOp.cmpi_sge.1 h
  rwa [h0] at h1

/-- Position i of the elementwise compare of an index array against the broadcast zero: if that bit is 1, word i of
    the array is not negative. -/
theorem cmp_bit_nonneg (v : IVec Cert.Pre_finite_inputs.S800000 32) (i : Cert.Pre_finite_inputs.S800000.Idx)
    (h : cmpi .sge v (broadcastInDim Cert.Pre_finite_inputs.S800000 ![] Facts.bcast_S_S800000
          (constantI Cert.Pre_finite_inputs.S_ 32 0#32)) i = 1#1) :
    0 ≤ (v i).toInt := by
  apply word_nonneg
  rw [← h]
  simp only [cmpi]
  rw [StableHlo.Predicate.bcast_scalar _ Facts.h_S_]
  rfl

/-- The last part of the printed predicate is the and of the running conjunction with "all bits of the last compare
    are 1": if it is 1, so are the running conjunction and every one of those bits. -/
theorem part5_one {F : FTy → Type} [FloatOps F] (v82 : IVec Cert.Pre_finite_inputs.S_ 1)
    (v84 : IVec Cert.Pre_finite_inputs.S800000 1) (h : fn_part5 (F := F) v82 v84 ix0 = 1#1) :
    v82 ix0 = 1#1 ∧ ∀ i, v84 i = 1#1 := by
  dsimp only [fn_part5] at h
  obtain ⟨h1, h2⟩ := IntOp.andi_eq_one.1 h
  exact ⟨h1, Host.reduce_andi_all _ _ _ _ _ h2⟩

/-- The part before it holds both index conjuncts: if it is 1, no source word and no destination word is negative,
    whatever the conjunction of the float facts that enters it. -/
theorem part4_one {F : FTy → Type} [FloatOps F] (a2 a3 : IVec Cert.Pre_finite_inputs.S800000 32)
    (a16 a17 : FVec F Cert.Pre_finite_inputs.S128 .f32) (v63 v67 : IVec Cert.Pre_finite_inputs.S_ 1)
    (h : fn_part4 (F := F) a2 a3 a16 a17 v63 v67 ix0 = 1#1) :
    (∀ i, 0 ≤ (a2 i).toInt) ∧ (∀ i, 0 ≤ (a3 i).toInt) := by
  dsimp only [fn_part4] at h
  obtain ⟨h82, h84⟩ := part5_one _ _ h
  obtain ⟨-, h81⟩ := IntOp.andi_eq_one.1 h82
  have h80 := Host.reduce_andi_all _ _ _ _ _ h81
  exact ⟨fun i => cmp_bit_nonneg a2 i (h80 i), fun i => cmp_bit_nonneg a3 i (h84 i)⟩

/-- The whole printed predicate, over any eighteen arrays: if it is all ones, no word of the third array (sources)
    and no word of the fourth (destinations) is negative. The first three parts only build the conjunction of the
    float facts and pass the two index arrays on. -/
theorem fn_one {F : FTy → Type} [FloatOps F]
    (a0 : FVec F S50000x128 .f32) (a1 : FVec F S800000x128 .f32)
    (a2 a3 : IVec Cert.Pre_finite_inputs.S800000 32)
    (a4 : FVec F S128x128 .f32) (a5 : FVec F Cert.Pre_finite_inputs.S128 .f32)
    (a6 : FVec F S128x128 .f32) (a7 : FVec F Cert.Pre_finite_inputs.S128 .f32)
    (a8 : FVec F S128x128 .f32) (a9 : FVec F Cert.Pre_finite_inputs.S128 .f32)
    (a10 : FVec F S128x128 .f32) (a11 : FVec F Cert.Pre_finite_inputs.S128 .f32)
    (a12 : FVec F S128x128 .f32)
    (a13 a14 a15 a16 a17 : FVec F Cert.Pre_finite_inputs.S128 .f32)
    (h : fn (F := F) a0 a1 a2 a3 a4 a5 a6 a7 a8 a9 a10 a11 a12 a13 a14 a15 a16 a17 = fun _ => 1#1) :
    (∀ i, 0 ≤ (a2 i).toInt) ∧ (∀ i, 0 ≤ (a3 i).toInt) := by
  have e := congrFun h ix0
  dsimp only [fn, fn_part1, fn_part2, fn_part3] at e
  exact part4_one _ _ _ _ _ _ e

end Decode

open Cert.KernelIdeal

/-- Under the precondition no source word is negative. -/
theorem src_nonneg (m : (ℓ : Loc nD τ sig) → Buf (Elt Ideal) ℓ) (h : Cert.Pre_KernelIdeal m) (c : Dev nD) (e : Fin 800000) :
    0 ≤ ((m ((c : Thread nD τ).loc main_arg2) : IVec S800000 32) (ix1 e)).toInt := by
  exact (fn_one _ _ _ _ _ _ _ _ _ _ _ _ _ _ _ _ _ _ (h c)).1 (ix1 e)

/-- Under the precondition no destination word is negative. -/
theorem dst_nonneg (m : (ℓ : Loc nD τ sig) → Buf (Elt Ideal) ℓ) (h : Cert.Pre_KernelIdeal m) (c : Dev nD) (e : Fin 800000) :
    0 ≤ ((m ((c : Thread nD τ).loc main_arg3) : IVec S800000 32) (ix1 e)).toInt := by
  exact (fn_one _ _ _ _ _ _ _ _ _ _ _ _ _ _ _ _ _ _ (h c)).2 (ix1 e)

end Cert.PreFacts

end
-- ==== Proof.lean ====
/-
  The certificate of the edge-gated graph convolution: a three-region Pallas program (a fused node-level linear map,
  an edge stage, a node finalisation; row gathers and one scatter-add on the host between them) against its plain jnp
  reference, over the extended reals, for inputs whose node indices are not negative.

  The three frames. Each kernel program's run is one launch over its ten items whose post names every unscoped
  buffer's final contents; an argument is a buffer no item writes, so it ends as launched. The reference is a host
  program: its frame is its run with the results dropped.

  The value claim. Both programs end with their two results at the specification's functions of the arguments
  (Spec.nodeTop, Spec.edgeTop): the kernel program by following its buffers through the regions and the host
  operations between them; the reference by reading its operations one at a time, where the only use of the
  precondition is that a gathered index word that is not negative is used as it is (the reference first adds the node
  count to a negative word, the kernel program clamps it to row 0: they differ exactly there).
-/
import proofs.«416705_j44006234914975_2_alg».proof.Defs
import proofs.«416705_j44006234914975_2_alg».proof.Proof.Gen.Kernel
import proofs.«416705_j44006234914975_2_alg».proof.Proof.Gen.KernelIdeal
import proofs.«416705_j44006234914975_2_alg».proof.Proof.Gen.ReferenceIdeal
import proofs.«416705_j44006234914975_2_alg».proof.Proof.Gen.Pre_finite_inputs
import proofs.«416705_j44006234914975_2_alg».proof.Proof.K.Run
import proofs.«416705_j44006234914975_2_alg».proof.Proof.KI.Run
import proofs.«416705_j44006234914975_2_alg».proof.Proof.KI.Fold
import proofs.«416705_j44006234914975_2_alg».proof.Proof.RefNode
import proofs.«416705_j44006234914975_2_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem

section
open Cert.Kernel Cert.Kernel.Gen
/-- A buffer that no host operation writes and no region stores to holds, at the end of the run, what it held at
    launch. The side conditions are decided on the program's text. -/
theorem keptK {F : FTy → Type} [FloatOps F] (m : (ℓ : Loc nD τ sig) → Buf (Elt F) ℓ) (ρ : Dev nD → PrngReg) (c : Dev nD) (b : Ref sig .tc)
    {s : MemSt nD τ sig (Elt F)}
    (h : ∀ b ∈ Pipeline.ucRefs τ sig, s.mem (((c : Thread nD τ)).1, b) = Cert.Kernel.Run.W10 m ρ c b)
    (hb : ¬ (Proc.devRef .tc b : DevRef τ sig).isScoped := by decide)
    (h0 : b ∉ hostOps0_W := by decide) (h1 : ∀ w, (cfg0.win w).isOut = true → Pipeline.arrRef spec0 w ≠ b := by decide)
    (h2 : b ∉ hostOps1_W := by decide) (h3 : b ∉ hostOps1_1_W := by decide) (h4 : b ∉ hostOps1_2_W := by decide)
    (h5 : b ∉ hostOps1_3_W := by decide) (h6 : b ∉ hostOps1_4_W := by decide)
    (h7 : ∀ w, (cfg1.win w).isOut = true → Pipeline.arrRef spec1 w ≠ b := by decide)
    (h8 : b ∉ hostOps2_W := by decide) (h9 : ∀ w, (cfg2.win w).isOut = true → Pipeline.arrRef spec2 w ≠ b := by decide) :
    s.mem ((c : Thread nD τ).loc b) = m ((c : Thread nD τ).loc b) :=
  (h _ (Cert.Kernel.Run.mem_uc b hb)).trans (Cert.Kernel.Run.W_unwritten m ρ c b h0 h1 h2 h3 h4 h5 h6 h7 h8 h9)
end

section
open Cert.KernelIdeal Cert.KernelIdeal.Gen
/-- A buffer that no host operation writes and no region stores to holds, at the end of the run, what it held at
    launch. The side conditions are decided on the program's text. -/
theorem keptI {F : FTy → Type} [FloatOps F] (m : (ℓ : Loc nD τ sig) → Buf (Elt F) ℓ) (ρ : Dev nD → PrngReg) (c : Dev nD) (b : Ref sig .tc)
    {s : MemSt nD τ sig (Elt F)}
    (h : ∀ b ∈ Pipeline.ucRefs τ sig, s.mem (((c : Thread nD τ)).1, b) = Cert.KernelIdeal.Run.W10 m ρ c b)
    (hb : ¬ (Proc.devRef .tc b : DevRef τ sig).isScoped := by decide)
    (h0 : b ∉ hostOps0_W := by decide) (h1 : ∀ w, (cfg0.win w).isOut = true → Pipeline.arrRef spec0 w ≠ b := by decide)
    (h2 : b ∉ hostOps1_W := by decide) (h3 : b ∉ hostOps1_1_W := by decide) (h4 : b ∉ hostOps1_2_W := by decide)
    (h5 : b ∉ hostOps1_3_W := by decide) (h6 : b ∉ hostOps1_4_W := by decide)
    (h7 : ∀ w, (cfg1.win w).isOut = true → Pipeline.arrRef spec1 w ≠ b := by decide)
    (h8 : b ∉ hostOps2_W := by decide) (h9 : ∀ w, (cfg2.win w).isOut = true → Pipeline.arrRef spec2 w ≠ b := by decide) :
    s.mem ((c : Thread nD τ).loc b) = m ((c : Thread nD τ).loc b) :=
  (h _ (Cert.KernelIdeal.Run.mem_uc b hb)).trans (Cert.KernelIdeal.Run.W_unwritten m ρ c b h0 h1 h2 h3 h4 h5 h6 h7 h8 h9)
end

/-! ## The frames -/

theorem frame_k : Cert.frame_Kernel := fun m ρ _ =>
  (θ_run Cert.Kernel.defs _ _).mono (fun r h c =>
    ⟨keptK m ρ c Cert.Kernel.main_arg0 (h c),
     keptK m ρ c Cert.Kernel.main_arg1 (h c),
     keptK m ρ c Cert.Kernel.main_arg2 (h c),
     keptK m ρ c Cert.Kernel.main_arg3 (h c),
     keptK m ρ c Cert.Kernel.main_arg4 (h c),
     keptK m ρ c Cert.Kernel.main_arg5 (h c),
     keptK m ρ c Cert.Kernel.main_arg6 (h c),
     keptK m ρ c Cert.Kernel.main_arg7 (h c),
     keptK m ρ c Cert.Kernel.main_arg8 (h c),
     keptK m ρ c Cert.Kernel.main_arg9 (h c),
     keptK m ρ c Cert.Kernel.main_arg10 (h c),
     keptK m ρ c Cert.Kernel.main_arg11 (h c),
     keptK m ρ c Cert.Kernel.main_arg12 (h c),
     keptK m ρ c Cert.Kernel.main_arg13 (h c),
     keptK m ρ c Cert.Kernel.main_arg14 (h c),
     keptK m ρ c Cert.Kernel.main_arg15 (h c),
     keptK m ρ c Cert.Kernel.main_arg16 (h c),
     keptK m ρ c Cert.Kernel.main_arg17 (h c)⟩)
    (Cert.Kernel.Run.run_all m ρ)

theorem frame_ki : Cert.frame_KernelIdeal := fun m ρ _ =>
  (θ_run Cert.KernelIdeal.defs _ _).mono (fun r h c =>
    ⟨keptI m ρ c Cert.KernelIdeal.main_arg0 (h c),
     keptI m ρ c Cert.KernelIdeal.main_arg1 (h c),
     keptI m ρ c Cert.KernelIdeal.main_arg2 (h c),
     keptI m ρ c Cert.KernelIdeal.main_arg3 (h c),
     keptI m ρ c Cert.KernelIdeal.main_arg4 (h c),
     keptI m ρ c Cert.KernelIdeal.main_arg5 (h c),
     keptI m ρ c Cert.KernelIdeal.main_arg6 (h c),
     keptI m ρ c Cert.KernelIdeal.main_arg7 (h c),
     keptI m ρ c Cert.KernelIdeal.main_arg8 (h c),
     keptI m ρ c Cert.KernelIdeal.main_arg9 (h c),
     keptI m ρ c Cert.KernelIdeal.main_arg10 (h c),
     keptI m ρ c Cert.KernelIdeal.main_arg11 (h c),
     keptI m ρ c Cert.KernelIdeal.main_arg12 (h c),
     keptI m ρ c Cert.KernelIdeal.main_arg13 (h c),
     keptI m ρ c Cert.KernelIdeal.main_arg14 (h c),
     keptI m ρ c Cert.KernelIdeal.main_arg15 (h c),
     keptI m ρ c Cert.KernelIdeal.main_arg16 (h c),
     keptI m ρ c Cert.KernelIdeal.main_arg17 (h c)⟩)
    (Cert.KernelIdeal.Run.run_all m ρ)

theorem frame_ri : Cert.frame_ReferenceIdeal := fun m ρ _ =>
  (θ_run Cert.ReferenceIdeal.defs _ _).mono (fun _ h c => (h c).2.2) (Cert.ReferenceIdeal.Value.run (F := Ideal) m ρ)

/-- The idealization pass rewrote nothing: nothing to preserve. -/
theorem preserves : Cert.preserves_Kernel_KernelIdeal := trivial

/-! ## The value claim -/

/-- The reference's arguments on core `c` of the memory `m'`, as the specification's record. -/
def refArgs (m' : (ℓ : Loc Cert.ReferenceIdeal.nD Cert.ReferenceIdeal.τ Cert.ReferenceIdeal.sig) → Buf (Elt Ideal) ℓ) (c : Dev Cert.ReferenceIdeal.nD) : Spec.Args :=
  ⟨m' ((c : Thread Cert.ReferenceIdeal.nD Cert.ReferenceIdeal.τ).loc Cert.ReferenceIdeal.main_arg0),
    m' ((c : Thread Cert.ReferenceIdeal.nD Cert.ReferenceIdeal.τ).loc Cert.ReferenceIdeal.main_arg1),
    m' ((c : Thread Cert.ReferenceIdeal.nD Cert.ReferenceIdeal.τ).loc Cert.ReferenceIdeal.main_arg2),
    m' ((c : Thread Cert.ReferenceIdeal.nD Cert.ReferenceIdeal.τ).loc Cert.ReferenceIdeal.main_arg3),
    m' ((c : Thread Cert.ReferenceIdeal.nD Cert.ReferenceIdeal.τ).loc Cert.ReferenceIdeal.main_arg4),
    m' ((c : Thread Cert.ReferenceIdeal.nD Cert.ReferenceIdeal.τ).loc Cert.ReferenceIdeal.main_arg5),
    m' ((c : Thread Cert.ReferenceIdeal.nD Cert.ReferenceIdeal.τ).loc Cert.ReferenceIdeal.main_arg6),
    m' ((c : Thread Cert.ReferenceIdeal.nD Cert.ReferenceIdeal.τ).loc Cert.ReferenceIdeal.main_arg7),
    m' ((c : Thread Cert.ReferenceIdeal.nD Cert.ReferenceIdeal.τ).loc Cert.ReferenceIdeal.main_arg8),
    m' ((c : Thread Cert.ReferenceIdeal.nD Cert.ReferenceIdeal.τ).loc Cert.ReferenceIdeal.main_arg9),
    m' ((c : Thread Cert.ReferenceIdeal.nD Cert.ReferenceIdeal.τ).loc Cert.ReferenceIdeal.main_arg10),
    m' ((c : Thread Cert.ReferenceIdeal.nD Cert.ReferenceIdeal.τ).loc Cert.ReferenceIdeal.main_arg11),
    m' ((c : Thread Cert.ReferenceIdeal.nD Cert.ReferenceIdeal.τ).loc Cert.ReferenceIdeal.main_arg12),
    m' ((c : Thread Cert.ReferenceIdeal.nD Cert.ReferenceIdeal.τ).loc Cert.ReferenceIdeal.main_arg13),
    m' ((c : Thread Cert.ReferenceIdeal.nD Cert.ReferenceIdeal.τ).loc Cert.ReferenceIdeal.main_arg14),
    m' ((c : Thread Cert.ReferenceIdeal.nD Cert.ReferenceIdeal.τ).loc Cert.ReferenceIdeal.main_arg15),
    m' ((c : Thread Cert.ReferenceIdeal.nD Cert.ReferenceIdeal.τ).loc Cert.ReferenceIdeal.main_arg16),
    m' ((c : Thread Cert.ReferenceIdeal.nD Cert.ReferenceIdeal.τ).loc Cert.ReferenceIdeal.main_arg17)⟩

theorem algebraic : Cert.algebraic_KernelIdeal_ReferenceIdeal := by
  intro m ρ m' ρ' hpre hagree
  -- memories agreeing on the arguments give the two programs the same argument record
  have hargs : ∀ c, refArgs m' c = Cert.KernelIdeal.Fold.argsOf m c := by
    intro c
    obtain ⟨e0, e1, e2, e3, e4, e5, e6, e7, e8, e9, e10, e11, e12, e13, e14, e15, e16, e17⟩ := hagree c
    unfold refArgs Cert.KernelIdeal.Fold.argsOf
    rw [e0, e1, e2, e3, e4, e5, e6, e7, e8, e9, e10, e11, e12, e13, e14, e15, e16, e17]
  have hsrc : ∀ c, ∀ e : Fin 800000, 0 ≤ ((refArgs m' c).src (ix1 e)).toInt := by
    intro c e; rw [hargs c]; exact Cert.PreFacts.src_nonneg m hpre c e
  have hdst : ∀ c, ∀ e : Fin 800000, 0 ≤ ((refArgs m' c).dst (ix1 e)).toInt := by
    intro c e; rw [hargs c]; exact Cert.PreFacts.dst_nonneg m hpre c e
  refine ⟨fun c => Cert.KernelIdeal.Run.W10 (F := Ideal) m ρ c (Proc.devRef .tc Cert.KernelIdeal.main_v17),
    fun c => Cert.KernelIdeal.Run.W10 (F := Ideal) m ρ c (Proc.devRef .tc Cert.KernelIdeal.main_v11_1), ?_, ?_⟩
  · -- the kernel program's run: the two result buffers at the last boundary's contents, the arguments as launched
    exact (θ_run Cert.KernelIdeal.defs _ _).mono (fun r h c =>
      ⟨h c _ (Cert.KernelIdeal.Run.mem_uc Cert.KernelIdeal.main_v17 (by decide)),
       h c _ (Cert.KernelIdeal.Run.mem_uc Cert.KernelIdeal.main_v11_1 (by decide)),
       keptI m ρ c Cert.KernelIdeal.main_arg0 (h c),
       keptI m ρ c Cert.KernelIdeal.main_arg1 (h c),
       keptI m ρ c Cert.KernelIdeal.main_arg2 (h c),
       keptI m ρ c Cert.KernelIdeal.main_arg3 (h c),
       keptI m ρ c Cert.KernelIdeal.main_arg4 (h c),
       keptI m ρ c Cert.KernelIdeal.main_arg5 (h c),
       keptI m ρ c Cert.KernelIdeal.main_arg6 (h c),
       keptI m ρ c Cert.KernelIdeal.main_arg7 (h c),
       keptI m ρ c Cert.KernelIdeal.main_arg8 (h c),
       keptI m ρ c Cert.KernelIdeal.main_arg9 (h c),
       keptI m ρ c Cert.KernelIdeal.main_arg10 (h c),
       keptI m ρ c Cert.KernelIdeal.main_arg11 (h c),
       keptI m ρ c Cert.KernelIdeal.main_arg12 (h c),
       keptI m ρ c Cert.KernelIdeal.main_arg13 (h c),
       keptI m ρ c Cert.KernelIdeal.main_arg14 (h c),
       keptI m ρ c Cert.KernelIdeal.main_arg15 (h c),
       keptI m ρ c Cert.KernelIdeal.main_arg16 (h c),
       keptI m ρ c Cert.KernelIdeal.main_arg17 (h c)⟩)
      (Cert.KernelIdeal.Run.run_all m ρ)
  · -- the reference's run: each result is the specification's function, which is what the kernel program left
    refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v110_eq]
      funext i
      rw [eq_ix2 i]
      exact ((Cert.ReferenceIdeal.RefVal.out0_at (refArgs m' c) (hsrc c) (hdst c) (i 0) (i 1)).trans
        (congrArg (fun a => Spec.nodeTop a (i 0) (i 1)) (hargs c))).trans
        (Cert.KernelIdeal.Fold.node_eq m ρ c (i 0) (i 1)).symm
    · rw [Cert.ReferenceIdeal.Read.val_main_v111_eq]
      funext i
      rw [eq_ix2 i]
      exact ((Cert.ReferenceIdeal.RefVal.out1_at (refArgs m' c) (hsrc c) (hdst c) (i 0) (i 1)).trans
        (congrArg (fun a => Spec.edgeTop a (i 0) (i 1)) (hargs c))).trans
        (Cert.KernelIdeal.Fold.edge_eq m ρ c (i 0) (i 1)).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
